-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x480 : Shape := ⟨2, ![200000, 480]⟩
abbrev S200000 : Shape := ⟨1, ![200000]⟩
abbrev S224 : Shape := ⟨1, ![224]⟩
abbrev S128 : Shape := ⟨1, ![128]⟩
abbrev S_ : Shape := ⟨0, ![]⟩

class Facts : Prop where
  bcast_S_S200000x480 : S_.BroadcastsInDim S200000x480 (![] : Fin 0 → Fin S200000x480.rank)
  reducesTo_S200000x480_S_d0_1 : S200000x480.ReducesTo [0, 1] S_
  h_S_ : 0 < S_.numel
  bcast_S_S224 : S_.BroadcastsInDim S224 (![] : Fin 0 → Fin S224.rank)
  reducesTo_S224_S_d0 : S224.ReducesTo [0] S_
  bcast_S_S128 : S_.BroadcastsInDim S128 (![] : Fin 0 → Fin S128.rank)
  reducesTo_S128_S_d0 : S128.ReducesTo [0] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg1 : IVec S200000 32) (main_v13 : IVec S_ 1) (main_v15 : IVec S200000 1) (main_c_5 : IVec S_ 32) : IVec S_ 1 :=
  let main_v16 : IVec S200000 32 := broadcastInDim S200000 ![] bcast_S_S200000 main_c_5
  let main_v17 : IVec S200000 1 := cmpi .slt main_arg1 main_v16
  let main_v18 : IVec S200000 1 := andi main_v15 main_v17
  let main_c_6 : IVec S_ 1 := constantI S_ 1 1#1
  let main_v19 : IVec S_ 1 := (fun x v => Host.reduce IntOp.andi x v reducesTo_S200000_S_d0 h_S_) main_v18 main_c_6
  let main_v20 : IVec S_ 1 := andi main_v13 main_v19
  main_v20

def fn {F : FTy → Type} [FloatOps F] (main_arg0 : FVec F S200000x480 .f32) (main_arg1 : IVec S200000 32) (main_arg2 : FVec F S224 .f32) (main_arg3 : FVec F S128 .f32) : IVec S_ 1 :=
  let main_v0 : FVec F S200000x480 .f32 := Host.absf main_arg0
  let main_cst : FVec F S_ .f32 := constant S_ .f32 0x7F800000#32
  let main_v1 : FVec F S200000x480 .f32 := broadcastInDim S200000x480 ![] bcast_S_S200000x480 main_cst
  let main_v2 : IVec S200000x480 1 := cmpf .olt main_v0 main_v1
  let main_c : IVec S_ 1 := constantI S_ 1 1#1
  let main_v3 : IVec S_ 1 := (fun x v => Host.reduce IntOp.andi x v reducesTo_S200000x480_S_d0_1 h_S_) main_v2 main_c
  let main_v4 : FVec F S224 .f32 := Host.absf main_arg2
  let main_cst_0 : FVec F S_ .f32 := constant S_ .f32 0x7F800000#32
  let main_v5 : FVec F S224 .f32 := broadcastInDim S224 ![] bcast_S_S224 main_cst_0
  let main_v6 : IVec S224 1 := cmpf .olt main_v4 main_v5
  let main_c_1 : IVec S_ 1 := constantI S_ 1 1#1
  let main_v7 : IVec S_ 1 := (fun x v => Host.reduce IntOp.andi x v reducesTo_S224_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S200000 32 := broadcastInDim S200000 ![] bcast_S_S200000 main_c_4
  let main_v15 : IVec S200000 1 := cmpi .sge main_arg1 main_v14
  let main_c_5 : IVec S_ 32 := constantI S_ 32 64#32
  fn_part1 (F := F) main_arg1 main_v13 main_v15 main_c_5
-- ==== Kernel.lean ====
abbrev S200000x480 : Shape := ⟨2, ![200000, 480]⟩
abbrev S200000 : Shape := ⟨1, ![200000]⟩
abbrev S224 : Shape := ⟨1, ![224]⟩
abbrev S128 : Shape := ⟨1, ![128]⟩
abbrev S200000x1 : Shape := ⟨2, ![200000, 1]⟩
abbrev S2x64x128 : Shape := ⟨3, ![2, 64, 128]⟩
abbrev S2x64x480 : Shape := ⟨3, ![2, 64, 480]⟩
abbrev S2x64x1 : Shape := ⟨3, ![2, 64, 1]⟩
abbrev S2000x480 : Shape := ⟨2, ![2000, 480]⟩
abbrev S2000x1 : Shape := ⟨2, ![2000, 1]⟩
abbrev S1x64x128 : Shape := ⟨3, ![1, 64, 128]⟩
abbrev S1x64x480 : Shape := ⟨3, ![1, 64, 480]⟩
abbrev S1x64x1 : Shape := ⟨3, ![1, 64, 1]⟩
abbrev S64x128 : Shape := ⟨2, ![64, 128]⟩
abbrev S64x480 : Shape := ⟨2, ![64, 480]⟩
abbrev S64x1 : Shape := ⟨2, ![64, 1]⟩
abbrev S2000x64 : Shape := ⟨2, ![2000, 64]⟩
abbrev S2000x128 : Shape := ⟨2, ![2000, 128]⟩
abbrev S_ : Shape := ⟨0, ![]⟩
abbrev S64x192 : Shape := ⟨2, ![64, 192]⟩
abbrev S64x160 : Shape := ⟨2, ![64, 160]⟩
abbrev S64x64x3 : Shape := ⟨3, ![64, 64, 3]⟩
abbrev S64x64 : Shape := ⟨2, ![64, 64]⟩
abbrev S64x32x5 : Shape := ⟨3, ![64, 32, 5]⟩
abbrev S64x32 : Shape := ⟨2, ![64, 32]⟩
abbrev S1x128 : Shape := ⟨2, ![1, 128]⟩
abbrev S64 : Shape := ⟨1, ![64]⟩
abbrev S1x64 : Shape := ⟨2, ![1, 64]⟩
abbrev S32 : Shape := ⟨1, ![32]⟩
abbrev S1x32 : Shape := ⟨2, ![1, 32]⟩
abbrev S64x352 : Shape := ⟨2, ![64, 352]⟩
abbrev S1x352 : Shape := ⟨2, ![1, 352]⟩
abbrev S1x480 : Shape := ⟨2, ![1, 480]⟩

abbrev nBuf : Space → Nat
  | .hbm => 94
  | .vmem => 21
  | .smem => 0
  | _ => 0

abbrev bufTy : (tb : Table) → Fin (tcTables nBuf tb) → BufTy
  | .hbm, ⟨0, _⟩ => ⟨S200000x480, .f32⟩
  | .hbm, ⟨1, _⟩ => ⟨S200000, .i32⟩
  | .hbm, ⟨2, _⟩ => ⟨S224, .f32⟩
  | .hbm, ⟨3, _⟩ => ⟨S128, .f32⟩
  | .hbm, ⟨4, _⟩ => ⟨S200000x1, .i32⟩
  | .hbm, ⟨5, _⟩ => ⟨S2x64x128, .f32⟩
  | .hbm, ⟨6, _⟩ => ⟨S2x64x480, .f32⟩
  | .hbm, ⟨7, _⟩ => ⟨S2x64x1, .f32⟩
  | .hbm, ⟨8, _⟩ => ⟨S_, .f32⟩
  | .hbm, ⟨9, _⟩ => ⟨S64x128, .f32⟩
  | .hbm, ⟨10, _⟩ => ⟨S_, .f32⟩
  | .hbm, ⟨11, _⟩ => ⟨S64x480, .f32⟩
  | .hbm, ⟨12, _⟩ => ⟨S_, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x128, .f32⟩
  | .hbm, ⟨18, _⟩ => ⟨S64x128, .f32⟩
  | .hbm, ⟨19, _⟩ => ⟨S64x128, .f32⟩
  | .hbm, ⟨20, _⟩ => ⟨S64x192, .f32⟩
  | .hbm, ⟨21, _⟩ => ⟨S64x160, .f32⟩
  | .hbm, ⟨22, _⟩ => ⟨S64x128, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x64x3, .f32⟩
  | .hbm, ⟨30, _⟩ => ⟨S_, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x32x5, .f32⟩
  | .hbm, ⟨38, _⟩ => ⟨S_, .f32⟩
  | .hbm, ⟨39, _⟩ => ⟨S64x32, .f32⟩
  | .hbm, ⟨40, _⟩ => ⟨S_, .f32⟩
  | .hbm, ⟨41, _⟩ => ⟨S64x32, .f32⟩
  | .hbm, ⟨42, _⟩ => ⟨S64x32, .f32⟩
  | .hbm, ⟨43, _⟩ => ⟨S64x32, .f32⟩
  | .hbm, ⟨44, _⟩ => ⟨S64x32, .f32⟩
  | .hbm, ⟨45, _⟩ => ⟨S_, .f32⟩
  | .hbm, ⟨46, _⟩ => ⟨S64x128, .f32⟩
  | .hbm, ⟨47, _⟩ => ⟨S64x128, .f32⟩
  | .hbm, ⟨48, _⟩ => ⟨S_, .f32⟩
  | .hbm, ⟨49, _⟩ => ⟨S64x128, .f32⟩
  | .hbm, ⟨50, _⟩ => ⟨S64x128, .f32⟩
  | .hbm, ⟨51, _⟩ => ⟨S128, .f32⟩
  | .hbm, ⟨52, _⟩ => ⟨S1x128, .f32⟩
  | .hbm, ⟨53, _⟩ => ⟨S64x128, .f32⟩
  | .hbm, ⟨54, _⟩ => ⟨S64x128, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S64, .f32⟩
  | .hbm, ⟨62, _⟩ => ⟨S1x64, .f32⟩
  | .hbm, ⟨63, _⟩ => ⟨S64x64, .f32⟩
  | .hbm, ⟨64, _⟩ => ⟨S64x64, .f32⟩
  | .hbm, ⟨65, _⟩ => ⟨S_, .f32⟩
  | .hbm, ⟨66, _⟩ => ⟨S64x32, .f32⟩
  | .hbm, ⟨67, _⟩ => ⟨S64x32, .f32⟩
  | .hbm, ⟨68, _⟩ => ⟨S_, .f32⟩
  | .hbm, ⟨69, _⟩ => ⟨S64x32, .f32⟩
  | .hbm, ⟨70, _⟩ => ⟨S64x32, .f32⟩
  | .hbm, ⟨71, _⟩ => ⟨S32, .f32⟩
  | .hbm, ⟨72, _⟩ => ⟨S1x32, .f32⟩
  | .hbm, ⟨73, _⟩ => ⟨S64x32, .f32⟩
  | .hbm, ⟨74, _⟩ => ⟨S64x32, .f32⟩
  | .hbm, ⟨75, _⟩ => ⟨S64x64x3, .f32⟩
  | .hbm, ⟨76, _⟩ => ⟨S64x192, .f32⟩
  | .hbm, ⟨77, _⟩ => ⟨S64x32x5, .f32⟩
  | .hbm, ⟨78, _⟩ => ⟨S64x160, .f32⟩
  | .hbm, ⟨79, _⟩ => ⟨S64x480, .f32⟩
  | .hbm, ⟨80, _⟩ => ⟨S_, .f32⟩
  | .hbm, ⟨81, _⟩ => ⟨S64x352, .f32⟩
  | .hbm, ⟨82, _⟩ => ⟨S64x480, .f32⟩
  | .hbm, ⟨83, _⟩ => ⟨S1x128, .f32⟩
  | .hbm, ⟨84, _⟩ => ⟨S_, .f32⟩
  | .hbm, ⟨85, _⟩ => ⟨S1x352, .f32⟩
  | .hbm, ⟨86, _⟩ => ⟨S1x480, .f32⟩
  | .hbm, ⟨87, _⟩ => ⟨S64x480, .bf16⟩
  | .hbm, ⟨88, _⟩ => ⟨S64x480, .f32⟩
  | .hbm, ⟨89, _⟩ => ⟨S64x480, .f32⟩
  | .hbm, ⟨90, _⟩ => ⟨S64x480, .bf16⟩
  | .hbm, ⟨91, _⟩ => ⟨S64x480, .f32⟩
  | .hbm, ⟨92, _⟩ => ⟨S64x480, .f32⟩
  | .hbm, ⟨93, _⟩ => ⟨S200000x480, .f32⟩
  | .local _ .vmem, ⟨0, _⟩ => ⟨S2000x480, .f32⟩
  | .local _ .vmem, ⟨1, _⟩ => ⟨S2000x480, .f32⟩
  | .local _ .vmem, ⟨2, _⟩ => ⟨S2000x1, .i32⟩
  | .local _ .vmem, ⟨3, _⟩ => ⟨S2000x1, .i32⟩
  | .local _ .vmem, ⟨4, _⟩ => ⟨S1x64x128, .f32⟩
  | .local _ .vmem, ⟨5, _⟩ => ⟨S1x64x128, .f32⟩
  | .local _ .vmem, ⟨6, _⟩ => ⟨S1x64x480, .f32⟩
  | .local _ .vmem, ⟨7, _⟩ => ⟨S1x64x480, .f32⟩
  | .local _ .vmem, ⟨8, _⟩ => ⟨S1x64x1, .f32⟩
  | .local _ .vmem, ⟨9, _⟩ => ⟨S1x64x1, .f32⟩
  | .local _ .vmem, ⟨10, _⟩ => ⟨S2000x480, .f32⟩
  | .local _ .vmem, ⟨11, _⟩ => ⟨S2000x480, .f32⟩
  | .local _ .vmem, ⟨12, _⟩ => ⟨S2000x1, .i32⟩
  | .local _ .vmem, ⟨13, _⟩ => ⟨S2000x1, .i32⟩
  | .local _ .vmem, ⟨14, _⟩ => ⟨S64x480, .f32⟩
  | .local _ .vmem, ⟨15, _⟩ => ⟨S64x480, .f32⟩
  | .local _ .vmem, ⟨16, _⟩ => ⟨S64x480, .f32⟩
  | .local _ .vmem, ⟨17, _⟩ => ⟨S64x480, .f32⟩
  | .local _ .vmem, ⟨18, _⟩ => ⟨S1x480, .f32⟩
  | .local _ .vmem, ⟨19, _⟩ => ⟨S2000x480, .f32⟩
  | .local _ .vmem, ⟨20, _⟩ => ⟨S2000x480, .f32⟩
  | _, _ => ⟨S200000x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x480 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x480 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x480 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x480 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x480 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x480 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x480 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x480 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S200000_S200000x1 : S200000.ShapeCasts S200000x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S1x64x480_S1x64x480_0_0_0 : ∀ a, (![0, 0, 0] : Fin 3 → Nat) a + S1x64x480.size a ≤ S1x64x480.size a
  h_S1x64x480 : 0 < S1x64x480.numel
  shapeCasts_S1x64x480_S64x480 : S1x64x480.ShapeCasts S64x480
  shapeCasts_S64x480_S1x64x480 : S64x480.ShapeCasts S1x64x480
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S2000x480_S2000x480_0_0 : ∀ a, (![0, 0] : Fin 2 → Nat) a + S2000x480.size a ≤ S2000x480.size a
  h_S2000x480 : 0 < S2000x480.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  slices_S2000x480_o0_0_S2000x128 : S2000x480.Slices ![0, 0] S2000x128
  reducesTo_S2x64x128_S64x128_d0 : S2x64x128.ReducesTo [0] S64x128
  h_S_ : 0 < S_.numel
  reducesTo_S2x64x480_S64x480_d0 : S2x64x480.ReducesTo [0] S64x480
  reducesTo_S2x64x1_S64x1_d0 : S2x64x1.ReducesTo [0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  slices_S64x480_S64x128_0_0 : S64x480.Slices ![0, 0] S64x128
  slices_S64x480_S64x192_0_128 : S64x480.Slices ![0, 128] S64x192
  slices_S64x480_S64x160_0_320 : S64x480.Slices ![0, 320] S64x160
  bcast_S_S64x128 : S_.BroadcastsInDim S64x128 (![] : Fin 0 → Fin S64x128.rank)
  shapeCasts_S64x192_S64x64x3 : S64x192.ShapeCasts S64x64x3
  reducesTo_S64x64x3_S64x64_d2 : S64x64x3.ReducesTo [2] S64x64
  bcast_S_S64x64 : S_.BroadcastsInDim S64x64 (![] : Fin 0 → Fin S64x64.rank)
  bcast_S64x1_S64x64_0_1 : S64x1.BroadcastsInDim S64x64 (![0, 1] : Fin 2 → Fin S64x64.rank)
  shapeCasts_S64x160_S64x32x5 : S64x160.ShapeCasts S64x32x5
  reducesTo_S64x32x5_S64x32_d2 : S64x32x5.ReducesTo [2] S64x32
  bcast_S_S64x32 : S_.BroadcastsInDim S64x32 (![] : Fin 0 → Fin S64x32.rank)
  bcast_S64x1_S64x32_0_1 : S64x1.BroadcastsInDim S64x32 (![0, 1] : Fin 2 → Fin S64x32.rank)
  slices_S224_S128_0 : S224.Slices ![0] S128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  slices_S224_S64_128 : S224.Slices ![128] S64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  slices_S224_S32_192 : S224.Slices ![192] S32
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S64x64_S64x64x3_0_1 : S64x64.BroadcastsInDim S64x64x3 (![0, 1] : Fin 2 → Fin S64x64x3.rank)
  shapeCasts_S64x64x3_S64x192 : S64x64x3.ShapeCasts S64x192
  bcast_S64x32_S64x32x5_0_1 : S64x32.BroadcastsInDim S64x32x5 (![0, 1] : Fin 2 → Fin S64x32x5.rank)
  shapeCasts_S64x32x5_S64x160 : S64x32x5.ShapeCasts S64x160
  concatenates_S64x128_S64x192_S64x160_S64x480_d1 : Shape.Concatenates [S64x128, S64x192, S64x160] S64x480 1
  bcast_S_S64x352 : S_.BroadcastsInDim S64x352 (![] : Fin 0 → Fin S64x352.rank)
  concatenates_S64x128_S64x352_S64x480_d1 : Shape.Concatenates [S64x128, S64x352] S64x480 1
  shapeCasts_S128_S1x128 : S128.ShapeCasts S1x128
  bcast_S_S1x352 : S_.BroadcastsInDim S1x352 (![] : Fin 0 → Fin S1x352.rank)
  concatenates_S1x128_S1x352_S1x480_d1 : Shape.Concatenates [S1x128, S1x352] S1x480 1
  bitsLt_bf16_f32 : FTy.bits .bf16 < FTy.bits .f32
  inb_S64x480_S64x480_0_0 : ∀ a, (![0, 0] : Fin 2 → Nat) a + S64x480.size a ≤ S64x480.size a
  h_S64x480 : 0 < S64x480.numel
  shapeCasts_S64x480_S64x480 : S64x480.ShapeCasts S64x480
  inb_S1x480_S1x480_0_0 : ∀ a, (![0, 0] : Fin 2 → Nat) a + S1x480.size a ≤ S1x480.size a
  h_S1x480 : 0 < S1x480.numel
  shapeCasts_S1x480_S1x480 : S1x480.ShapeCasts S1x480
  broadcasts_S1x480_S2000x480 : S1x480.Broadcasts S2000x480
  dot_S2000x64_S2000x128_S64x128_0_0_1_1_n_n_wf : DotDims.WF S2000x64 S2000x128 S64x128 [0] [0] [1] [1] [] []
  dot_S2000x64_S2000x480_S64x480_0_0_1_1_n_n_wf : DotDims.WF S2000x64 S2000x480 S64x480 [0] [0] [1] [1] [] []
  dot_S2000x64_S2000x1_S64x1_0_0_1_1_n_n_wf : DotDims.WF S2000x64 S2000x1 S64x1 [0] [0] [1] [1] [] []
  dot_S2000x64_S64x480_S2000x480_1_0_0_1_n_n_wf : DotDims.WF S2000x64 S64x480 S2000x480 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x480.size a ≤ S200000x480.size a
  hwx0_0 : ∀ i : grid0.Coords, EltTy.bits .f32 = 32 ∨ (Rect.block (s := S200000x480) S2000x480.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .i32 = 32 ∨ (Rect.block (s := S200000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x64x128.size a
  hwx0_2 : ∀ i : grid0.Coords, EltTy.bits .f32 = 32 ∨ (Rect.block (s := S2x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x480.size a ≤ S2x64x480.size a
  hwx0_3 : ∀ i : grid0.Coords, EltTy.bits .f32 = 32 ∨ (Rect.block (s := S2x64x480) S1x64x480.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x480.size a ≤ S200000x480.size a
  hwx1_0 : ∀ i : grid1.Coords, EltTy.bits .f32 = 32 ∨ (Rect.block (s := S200000x480) S2000x480.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S200000x1.size a
  hwx1_1 : ∀ i : grid1.Coords, EltTy.bits .i32 = 32 ∨ (Rect.block (s := S200000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x480.size a ≤ S64x480.size a
  hwx1_2 : ∀ i : grid1.Coords, EltTy.bits .f32 = 32 ∨ (Rect.block (s := S64x480) S64x480.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x480.size a ≤ S64x480.size a
  hwx1_3 : ∀ i : grid1.Coords, EltTy.bits .f32 = 32 ∨ (Rect.block (s := S64x480) S64x480.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x480.size a ≤ S64x480.size a
  hwx1_4 : ∀ i : grid1.Coords, EltTy.bits .f32 = 32 ∨ (Rect.block (s := S64x480) S64x480.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x480.size a ≤ S64x480.size a
  hwx1_5 : ∀ i : grid1.Coords, EltTy.bits .f32 = 32 ∨ (Rect.block (s := S64x480) S64x480.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x480.size a ≤ S1x480.size a
  hwx1_6 : ∀ i : grid1.Coords, EltTy.bits .f32 = 32 ∨ (Rect.block (s := S1x480) S1x480.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x480.size a ≤ S200000x480.size a
  hwx1_7 : ∀ i : grid1.Coords, EltTy.bits .f32 = 32 ∨ (Rect.block (s := S200000x480) S2000x480.size (cc1_transform_7 i) (hinb1_7 i)).WholeWords (EltTy.packing .f32)

variable [Facts₀]

def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S2000x480_S64x480_0_0_1_1_n_n : DotDims S2000x64 S2000x480 S64x480 where
  lhsContracting := [0]
  rhsContracting := [0]
  lhsNonContracting := [1]
  rhsNonContracting := [1]
  lhsBatch := []
  rhsBatch := []
  wf := dot_S2000x64_S2000x480_S64x480_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf
def dot_S2000x64_S64x480_S2000x480_1_0_0_1_n_n : DotDims S2000x64 S64x480 S2000x480 where
  lhsContracting := [1]
  rhsContracting := [0]
  lhsNonContracting := [0]
  rhsNonContracting := [1]
  lhsBatch := []
  rhsBatch := []
  wf := dot_S2000x64_S64x480_S2000x480_1_0_0_1_n_n_wf

abbrev win0_0 : Pipeline.Window sig grid0 :=
  Pipeline.Window.ofSpec (Memref.whole main_arg0) S2000x480.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x480.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x480.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S64x480.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S64x480.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S64x480.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S64x480.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S1x480.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S2000x480.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x480 : Shape := ⟨2, ![200000, 480]⟩
abbrev S200000 : Shape := ⟨1, ![200000]⟩
abbrev S224 : Shape := ⟨1, ![224]⟩
abbrev S128 : Shape := ⟨1, ![128]⟩
abbrev S200000x128 : Shape := ⟨2, ![200000, 128]⟩
abbrev S200000x128x1 : Shape := ⟨3, ![200000, 128, 1]⟩
abbrev S_ : Shape := ⟨0, ![]⟩
abbrev S64x128 : Shape := ⟨2, ![64, 128]⟩
abbrev S200000x1 : Shape := ⟨2, ![200000, 1]⟩
abbrev S64 : Shape := ⟨1, ![64]⟩
abbrev S64x1 : Shape := ⟨2, ![64, 1]⟩
abbrev S1x128 : Shape := ⟨2, ![1, 128]⟩
abbrev S128x1 : Shape := ⟨2, ![128, 1]⟩
abbrev S1x128x1 : Shape := ⟨3, ![1, 128, 1]⟩
abbrev S200000x192 : Shape := ⟨2, ![200000, 192]⟩
abbrev S200000x64x3 : Shape := ⟨3, ![200000, 64, 3]⟩
abbrev S200000x64 : Shape := ⟨2, ![200000, 64]⟩
abbrev S64x64 : Shape := ⟨2, ![64, 64]⟩
abbrev S1x64 : Shape := ⟨2, ![1, 64]⟩
abbrev S200000x64x1 : Shape := ⟨3, ![200000, 64, 1]⟩
abbrev S200000x160 : Shape := ⟨2, ![200000, 160]⟩
abbrev S200000x32x5 : Shape := ⟨3, ![200000, 32, 5]⟩
abbrev S200000x32 : Shape := ⟨2, ![200000, 32]⟩
abbrev S64x32 : Shape := ⟨2, ![64, 32]⟩
abbrev S32 : Shape := ⟨1, ![32]⟩
abbrev S1x32 : Shape := ⟨2, ![1, 32]⟩
abbrev S200000x32x1 : Shape := ⟨3, ![200000, 32, 1]⟩

abbrev nBuf : Space → Nat
  | .hbm => 177
  | .vmem => 0
  | .smem => 0
  | _ => 0

abbrev hbmTy0_0 (i : Nat) : BufTy := match i % 128 with
  | 0 => ⟨S200000x480, .f32⟩
  | 1 => ⟨S200000, .i32⟩
  | 2 => ⟨S224, .f32⟩
  | 3 => ⟨S128, .f32⟩
  | 4 => ⟨S200000x128, .f32⟩
  | 5 => ⟨S200000x128x1, .f32⟩
  | 6 => ⟨S200000x128, .f32⟩
  | 7 => ⟨S_, .f32⟩
  | 8 => ⟨S64x128, .f32⟩
  | 9 => ⟨S200000x1, .i32⟩
  | 10 => ⟨S64x128, .f32⟩
  | 11 => ⟨S_, .f32⟩
  | 12 => ⟨S200000, .f32⟩
  | 13 => ⟨S_, .f32⟩
  | 14 => ⟨S64, .f32⟩
  | 15 => ⟨S200000x1, .i32⟩
  | 16 => ⟨S64, .f32⟩
  | 17 => ⟨S_, .f32⟩
  | 18 => ⟨S64, .f32⟩
  | 19 => ⟨S64, .f32⟩
  | 20 => ⟨S64x1, .f32⟩
  | 21 => ⟨S64x128, .f32⟩
  | 22 => ⟨S64x128, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S200000x128x1, .f32⟩
  | 33 => ⟨S200000x128x1, .f32⟩
  | 34 => ⟨S200000x128x1, .f32⟩
  | 35 => ⟨S_, .f32⟩
  | 36 => ⟨S200000x128, .f32⟩
  | 37 => ⟨S_, .f32⟩
  | 38 => ⟨S200000x128, .f32⟩
  | 39 => ⟨S200000x128, .f32⟩
  | 40 => ⟨S_, .f32⟩
  | 41 => ⟨S64x128, .f32⟩
  | 42 => ⟨S200000x1, .i32⟩
  | 43 => ⟨S64x128, .f32⟩
  | 44 => ⟨S_, .f32⟩
  | 45 => ⟨S200000, .f32⟩
  | 46 => ⟨S_, .f32⟩
  | 47 => ⟨S64, .f32⟩
  | 48 => ⟨S200000x1, .i32⟩
  | 49 => ⟨S64, .f32⟩
  | 50 => ⟨S_, .f32⟩
  | 51 => ⟨S64, .f32⟩
  | 52 => ⟨S64, .f32⟩
  | 53 => ⟨S64x1, .f32⟩
  | 54 => ⟨S64x128, .f32⟩
  | 55 => ⟨S64x128, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x128, .f32⟩
  | 65 => ⟨S_, .f32⟩
  | 66 => ⟨S200000x128, .f32⟩
  | 67 => ⟨S200000x128, .f32⟩
  | 68 => ⟨S_, .f32⟩
  | 69 => ⟨S200000x128, .f32⟩
  | 70 => ⟨S200000x128, .f32⟩
  | 71 => ⟨S128, .f32⟩
  | 72 => ⟨S1x128, .f32⟩
  | 73 => ⟨S200000x128, .f32⟩
  | 74 => ⟨S200000x128, .f32⟩
  | 75 => ⟨S200000x128x1, .f32⟩
  | 76 => ⟨S200000x128x1, .f32⟩
  | 77 => ⟨S128x1, .f32⟩
  | 78 => ⟨S1x128x1, .f32⟩
  | 79 => ⟨S200000x128x1, .f32⟩
  | 80 => ⟨S200000x128x1, .f32⟩
  | 81 => ⟨S200000x128, .f32⟩
  | 82 => ⟨S200000x192, .f32⟩
  | 83 => ⟨S200000x64x3, .f32⟩
  | 84 => ⟨S200000x64x3, .f32⟩
  | 85 => ⟨S_, .f32⟩
  | 86 => ⟨S200000x64, .f32⟩
  | 87 => ⟨S_, .f32⟩
  | 88 => ⟨S200000x64, .f32⟩
  | 89 => ⟨S200000x64, .f32⟩
  | 90 => ⟨S_, .f32⟩
  | 91 => ⟨S64x64, .f32⟩
  | 92 => ⟨S200000x1, .i32⟩
  | 93 => ⟨S64x64, .f32⟩
  | 94 => ⟨S_, .f32⟩
  | 95 => ⟨S200000, .f32⟩
  | 96 => ⟨S_, .f32⟩
  | 97 => ⟨S64, .f32⟩
  | 98 => ⟨S200000x1, .i32⟩
  | 99 => ⟨S64, .f32⟩
  | 100 => ⟨S_, .f32⟩
  | 101 => ⟨S64, .f32⟩
  | 102 => ⟨S64, .f32⟩
  | 103 => ⟨S64x1, .f32⟩
  | 104 => ⟨S64x64, .f32⟩
  | 105 => ⟨S64x64, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S200000x64, .f32⟩
  | 115 => ⟨S_, .f32⟩
  | 116 => ⟨S200000x64, .f32⟩
  | 117 => ⟨S200000x64, .f32⟩
  | 118 => ⟨S_, .f32⟩
  | 119 => ⟨S200000x64, .f32⟩
  | 120 => ⟨S200000x64, .f32⟩
  | 121 => ⟨S64, .f32⟩
  | 122 => ⟨S1x64, .f32⟩
  | 123 => ⟨S200000x64, .f32⟩
  | 124 => ⟨S200000x64, .f32⟩
  | 125 => ⟨S200000x64x1, .f32⟩
  | 126 => ⟨S200000x64x3, .f32⟩
  | 127 => ⟨S200000x64x3, .f32⟩
  | _ => ⟨S200000x480, .f32⟩

abbrev hbmTy0_1 (i : Nat) : BufTy := match i % 128 with
  | 0 => ⟨S200000x192, .f32⟩
  | 1 => ⟨S200000x160, .f32⟩
  | 2 => ⟨S200000x32x5, .f32⟩
  | 3 => ⟨S200000x32x5, .f32⟩
  | 4 => ⟨S_, .f32⟩
  | 5 => ⟨S200000x32, .f32⟩
  | 6 => ⟨S_, .f32⟩
  | 7 => ⟨S200000x32, .f32⟩
  | 8 => ⟨S200000x32, .f32⟩
  | 9 => ⟨S_, .f32⟩
  | 10 => ⟨S64x32, .f32⟩
  | 11 => ⟨S200000x1, .i32⟩
  | 12 => ⟨S64x32, .f32⟩
  | 13 => ⟨S_, .f32⟩
  | 14 => ⟨S200000, .f32⟩
  | 15 => ⟨S_, .f32⟩
  | 16 => ⟨S64, .f32⟩
  | 17 => ⟨S200000x1, .i32⟩
  | 18 => ⟨S64, .f32⟩
  | 19 => ⟨S_, .f32⟩
  | 20 => ⟨S64, .f32⟩
  | 21 => ⟨S64, .f32⟩
  | 22 => ⟨S64x1, .f32⟩
  | 23 => ⟨S64x32, .f32⟩
  | 24 => ⟨S64x32, .f32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000x32, .f32⟩
  | 34 => ⟨S_, .f32⟩
  | 35 => ⟨S200000x32, .f32⟩
  | 36 => ⟨S200000x32, .f32⟩
  | 37 => ⟨S_, .f32⟩
  | 38 => ⟨S200000x32, .f32⟩
  | 39 => ⟨S200000x32, .f32⟩
  | 40 => ⟨S32, .f32⟩
  | 41 => ⟨S1x32, .f32⟩
  | 42 => ⟨S200000x32, .f32⟩
  | 43 => ⟨S200000x32, .f32⟩
  | 44 => ⟨S200000x32x1, .f32⟩
  | 45 => ⟨S200000x32x5, .f32⟩
  | 46 => ⟨S200000x32x5, .f32⟩
  | 47 => ⟨S200000x160, .f32⟩
  | 48 => ⟨S200000x480, .f32⟩
  | _ => ⟨S200000x480, .f32⟩

abbrev hbmTy (i : Nat) : BufTy := match i / 128 with
  | 0 => hbmTy0_0 i
  | 1 => hbmTy0_1 i
  | _ => ⟨S200000x480, .f32⟩

abbrev bufTy : (tb : Table) → Fin (tcTables nBuf tb) → BufTy
  | .hbm, ⟨i, _⟩ => hbmTy i
  | _, _ => ⟨S200000x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_c_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_cst_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_cst_18 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_20 : Ref sig .tc := ⟨.hbm, 106, rfl⟩
abbrev main_v80 : Ref sig .tc := ⟨.hbm, 107, rfl⟩
abbrev main_v81 : Ref sig .tc := ⟨.hbm, 108, rfl⟩
abbrev main_c_21 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_22 : Ref sig .tc := ⟨.hbm, 115, rfl⟩
abbrev main_v87 : Ref sig .tc := ⟨.hbm, 116, rfl⟩
abbrev main_v88 : Ref sig .tc := ⟨.hbm, 117, rfl⟩
abbrev main_cst_23 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_24 : Ref sig .tc := ⟨.hbm, 132, rfl⟩
abbrev main_v102 : Ref sig .tc := ⟨.hbm, 133, rfl⟩
abbrev main_cst_25 : Ref sig .tc := ⟨.hbm, 134, rfl⟩
abbrev main_v103 : Ref sig .tc := ⟨.hbm, 135, rfl⟩
abbrev main_v104 : Ref sig .tc := ⟨.hbm, 136, rfl⟩
abbrev main_cst_26 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_27 : Ref sig .tc := ⟨.hbm, 141, rfl⟩
abbrev main_v108 : Ref sig .tc := ⟨.hbm, 142, rfl⟩
abbrev main_cst_28 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_29 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_30 : Ref sig .tc := ⟨.hbm, 153, rfl⟩
abbrev main_v117 : Ref sig .tc := ⟨.hbm, 154, rfl⟩
abbrev main_v118 : Ref sig .tc := ⟨.hbm, 155, rfl⟩
abbrev main_c_31 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_32 : Ref sig .tc := ⟨.hbm, 162, rfl⟩
abbrev main_v124 : Ref sig .tc := ⟨.hbm, 163, rfl⟩
abbrev main_v125 : Ref sig .tc := ⟨.hbm, 164, rfl⟩
abbrev main_cst_33 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩

abbrev nD : Nat := 1
abbrev τ : Topo := Topo.v7x

variable {F : FTy → Type} [FloatOps F]

class Facts₀ : Prop where
  slices_S200000x480_S200000x128_0_0 : S200000x480.Slices ![0, 0] S200000x128
  shapeCasts_S200000x128_S200000x128x1 : S200000x128.ShapeCasts S200000x128x1
  shapeCasts_S200000x128x1_S200000x128 : S200000x128x1.ShapeCasts S200000x128
  bcast_S_S64x128 : S_.BroadcastsInDim S64x128 (![] : Fin 0 → Fin S64x128.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S200000x128_S200000x128x1_0_1 : S200000x128.BroadcastsInDim S200000x128x1 (![0, 1] : Fin 2 → Fin S200000x128x1.rank)
  reducesTo_S200000x128x1_S200000x128_d2 : S200000x128x1.ReducesTo [2] S200000x128
  h_S_ : 0 < S_.numel
  bcast_S_S200000x128 : S_.BroadcastsInDim S200000x128 (![] : Fin 0 → Fin S200000x128.rank)
  slices_S224_S128_0 : S224.Slices ![0] S128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S128_S128x1_0 : S128.BroadcastsInDim S128x1 (![0] : Fin 1 → Fin S128x1.rank)
  bcast_S128x1_S1x128x1_1_2 : S128x1.BroadcastsInDim S1x128x1 (![1, 2] : Fin 2 → Fin S1x128x1.rank)
  bcast_S1x128x1_S200000x128x1_0_1_2 : S1x128x1.BroadcastsInDim S200000x128x1 (![0, 1, 2] : Fin 3 → Fin S200000x128x1.rank)
  slices_S200000x480_S200000x192_0_128 : S200000x480.Slices ![0, 128] S200000x192
  shapeCasts_S200000x192_S200000x64x3 : S200000x192.ShapeCasts S200000x64x3
  reducesTo_S200000x64x3_S200000x64_d2 : S200000x64x3.ReducesTo [2] S200000x64
  bcast_S_S200000x64 : S_.BroadcastsInDim S200000x64 (![] : Fin 0 → Fin S200000x64.rank)
  bcast_S_S64x64 : S_.BroadcastsInDim S64x64 (![] : Fin 0 → Fin S64x64.rank)
  bcast_S64x1_S64x64_0_1 : S64x1.BroadcastsInDim S64x64 (![0, 1] : Fin 2 → Fin S64x64.rank)
  slices_S224_S64_128 : S224.Slices ![128] S64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S200000x64_S200000x64x1_0_1 : S200000x64.BroadcastsInDim S200000x64x1 (![0, 1] : Fin 2 → Fin S200000x64x1.rank)
  bcast_S200000x64x1_S200000x64x3_0_1_2 : S200000x64x1.BroadcastsInDim S200000x64x3 (![0, 1, 2] : Fin 3 → Fin S200000x64x3.rank)
  shapeCasts_S200000x64x3_S200000x192 : S200000x64x3.ShapeCasts S200000x192
  slices_S200000x480_S200000x160_0_320 : S200000x480.Slices ![0, 320] S200000x160
  shapeCasts_S200000x160_S200000x32x5 : S200000x160.ShapeCasts S200000x32x5
  reducesTo_S200000x32x5_S200000x32_d2 : S200000x32x5.ReducesTo [2] S200000x32
  bcast_S_S200000x32 : S_.BroadcastsInDim S200000x32 (![] : Fin 0 → Fin S200000x32.rank)
  bcast_S_S64x32 : S_.BroadcastsInDim S64x32 (![] : Fin 0 → Fin S64x32.rank)
  bcast_S64x1_S64x32_0_1 : S64x1.BroadcastsInDim S64x32 (![0, 1] : Fin 2 → Fin S64x32.rank)
  slices_S224_S32_192 : S224.Slices ![192] S32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S200000x32_S200000x32x1_0_1 : S200000x32.BroadcastsInDim S200000x32x1 (![0, 1] : Fin 2 → Fin S200000x32x1.rank)
  bcast_S200000x32x1_S200000x32x5_0_1_2 : S200000x32x1.BroadcastsInDim S200000x32x5 (![0, 1, 2] : Fin 3 → Fin S200000x32x5.rank)
  shapeCasts_S200000x32x5_S200000x160 : S200000x32x5.ShapeCasts S200000x160
  concatenates_S200000x128_S200000x192_S200000x160_S200000x480_d1 : Shape.Concatenates [S200000x128, S200000x192, S200000x160] S200000x480 1
  scatter_S64x128_S200000x1_S200000x128_1_0_0_1_wf : ScatterDims.WF S64x128 S200000x1 S200000x128 [1] [0] [0] 1
  scatter_S64_S200000x1_S200000_n_0_0_1_wf : ScatterDims.WF S64 S200000x1 S200000 [] [0] [0] 1
  gather_S64x128_S200000x1_S200000x128_1_0_n_n_0_1_1128_wf : GatherDims.WF S64x128 S200000x1 S200000x128 [1] [0] [] [0] [] 1 ![1, 128]
  scatter_S64x64_S200000x1_S200000x64_1_0_0_1_wf : ScatterDims.WF S64x64 S200000x1 S200000x64 [1] [0] [0] 1
  gather_S64x64_S200000x1_S200000x64_1_0_n_n_0_1_164_wf : GatherDims.WF S64x64 S200000x1 S200000x64 [1] [0] [] [0] [] 1 ![1, 64]
  scatter_S64x32_S200000x1_S200000x32_1_0_0_1_wf : ScatterDims.WF S64x32 S200000x1 S200000x32 [1] [0] [0] 1
  gather_S64x32_S200000x1_S200000x32_1_0_n_n_0_1_132_wf : GatherDims.WF S64x32 S200000x1 S200000x32 [1] [0] [] [0] [] 1 ![1, 32]

variable [Facts₀]

def scatter_S64x128_S200000x1_S200000x128_1_0_0_1 : ScatterDims S64x128 S200000x1 S200000x128 where
  updateWindowDims := [1]
  insertedWindowDims := [0]
  scatterDimsToOperandDims := [0]
  indexVectorDim := 1
  wf := scatter_S64x128_S200000x1_S200000x128_1_0_0_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def gather_S64x128_S200000x1_S200000x128_1_0_n_n_0_1_1128 : GatherDims S64x128 S200000x1 S200000x128 where
  offsetDims := [1]
  collapsedSliceDims := [0]
  operandBatchingDims := []
  startIndicesBatchingDims := []
  startIndexMap := [0]
  indexVectorDim := 1
  sliceSizes := ![1, 128]
  wf := gather_S64x128_S200000x1_S200000x128_1_0_n_n_0_1_1128_wf
def scatter_S64x64_S200000x1_S200000x64_1_0_0_1 : ScatterDims S64x64 S200000x1 S200000x64 where
  updateWindowDims := [1]
  insertedWindowDims := [0]
  scatterDimsToOperandDims := [0]
  indexVectorDim := 1
  wf := scatter_S64x64_S200000x1_S200000x64_1_0_0_1_wf
def gather_S64x64_S200000x1_S200000x64_1_0_n_n_0_1_164 : GatherDims S64x64 S200000x1 S200000x64 where
  offsetDims := [1]
  collapsedSliceDims := [0]
  operandBatchingDims := []
  startIndicesBatchingDims := []
  startIndexMap := [0]
  indexVectorDim := 1
  sliceSizes := ![1, 64]
  wf := gather_S64x64_S200000x1_S200000x64_1_0_n_n_0_1_164_wf
def scatter_S64x32_S200000x1_S200000x32_1_0_0_1 : ScatterDims S64x32 S200000x1 S200000x32 where
  updateWindowDims := [1]
  insertedWindowDims := [0]
  scatterDimsToOperandDims := [0]
  indexVectorDim := 1
  wf := scatter_S64x32_S200000x1_S200000x32_1_0_0_1_wf
def gather_S64x32_S200000x1_S200000x32_1_0_n_n_0_1_132 : GatherDims S64x32 S200000x1 S200000x32 where
  offsetDims := [1]
  collapsedSliceDims := [0]
  operandBatchingDims := []
  startIndicesBatchingDims := []
  startIndexMap := [0]
  indexVectorDim := 1
  sliceSizes := ![1, 32]
  wf := gather_S64x32_S200000x1_S200000x32_1_0_n_n_0_1_132_wf

class Facts : Prop extends Facts₀ where

variable [Facts]
-- ==== Proof.K.RegADefs.lean ====
/-
  The first launch (the statistics pass) as proof data, at any float instance.

  The grid has 100 points: point t is (half, step) = (t / 50, t % 50). At each point the body reads a tile of 2000 rows
  of the input and of the segment ids, and adds into three per-half accumulators — the per-graph sums of the first 128
  columns, the per-graph sums of squares of all 480 columns, and the per-graph row counts — each the one-hot matrix of
  the tile's segment ids contracted with the tile's values. At step 0 of a half the accumulators are first reset to zero.
  So what the three output blocks hold after point t is a recurrence over the points: `stepA` of the tile at t applied to
  zero (step 0 of a half) or to what the point before left.
-/
import proofs.«412429_j58076547777199_3_alg».proof.Proof.Gen.Kernel.Launch
import proofs.«412429_j58076547777199_3_alg».proof.Proof.Gen.Kernel.Skeleton
import proofs.«412429_j58076547777199_3_alg».proof.Proof.Gen.Kernel.Points
import Idealize.ShloMosaic.Lib.Pipeline.FrameBody
set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

-- the buffers' contents when the launch is entered: a parameter
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulator blocks: sums (64 graphs × 128 columns), sums of squares (64 × 480), counts (64 × 1). -/
abbrev Acc (F : FTy → Type) [FloatOps F] : Type := Vec F S1x64x128 .f32 × Vec F S1x64x480 .f32 × Vec F S1x64x1 .f32

/-- The accumulators after a reset: all zero. -/
def acc0 : Acc F := (k0_pay2, k0_pay3, k0_pay4)

/-- One point's update: each accumulator plus the one-hot matrix of the tile's segment ids `s` contracted with the
    tile's first 128 columns, with its squares, and with a column of ones. -/
def stepA (x : Vec F S2000x480 .f32) (s : Vec F S2000x1 .i32) (p : Acc F) : Acc F :=
  (k0_pay6 x s p.1, k0_pay7 x s p.2.1, k0_pay1 (k0_pay5 s) k0_pay8 (k0_pay9 p.2.2) (constant S64x1 .f32 0x00000000#32))

/-- What the accumulators hold after the body at position `n`: the update of the tile at `n`, from zero at step 0 of a
    half and else from what position `n - 1` left. -/
def accAt0 (c : Dev nD) : (n : ℕ) → n < cfg0.N → Acc F
  | 0, hn => stepA (iblk0 V c 0 ⟨0, hn⟩) (iblk0 V c 1 ⟨0, hn⟩) acc0
  | n + 1, hn =>
    if (n + 1) % 50 = 0 then stepA (iblk0 V c 0 ⟨n + 1, hn⟩) (iblk0 V c 1 ⟨n + 1, hn⟩) acc0
    else stepA (iblk0 V c 0 ⟨n + 1, hn⟩) (iblk0 V c 1 ⟨n + 1, hn⟩) (accAt0 c n (Nat.lt_of_succ_lt hn))

/-- At step 0 of a half the update starts from zero. -/
theorem accAt0_reset (c : Dev nD) (t : Fin cfg0.N) (h0 : t.val % 50 = 0) :
    accAt0 V c t.val t.isLt = stepA (iblk0 V c 0 t) (iblk0 V c 1 t) acc0 := by
  obtain ⟨n, hn⟩ := t
  cases n with
  | zero => rfl
  | succ n => exact (if_pos h0).trans rfl

/-- At a later step it starts from what the point before left. -/
theorem accAt0_step (c : Dev nD) (t : Fin cfg0.N) (h0 : ¬t.val % 50 = 0) :
    accAt0 V c t.val t.isLt = stepA (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the first launch on core `c`: the arrays as the launch finds them; after the body at point `t`
    each input's buffer at its block and the three outputs' at the accumulators; nothing else kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2.1
    | ⟨4, _⟩ => (accAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2.1 := by dsimp only [dat0]
theorem after0_4 (c : Dev nD) (t : Fin cfg0.N) : (dat0 V c).after 4 t = (accAt0 V c t.val t.isLt).2.2 := by dsimp only [dat0]

end Cert.Kernel.Hand

end
-- ==== Proof.K.RegCDefs.lean ====
/-
  The second launch (normalise and shift) as proof data, at any float instance.

  The grid has 100 points; at point t the body reads a tile of 2000 rows of the input and of the segment ids and the
  five small tables whole (two 64 × 480 halves of the per-graph means, two of the per-graph scales, the 1 × 480 shift),
  and stores one 2000 × 480 tile of the result: one pure function of what it read.
-/
import proofs.«412429_j58076547777199_3_alg».proof.Proof.Gen.Kernel.Launch
import proofs.«412429_j58076547777199_3_alg».proof.Proof.Gen.Kernel.Skeleton
import proofs.«412429_j58076547777199_3_alg».proof.Proof.Gen.Kernel.Points
import Idealize.ShloMosaic.Lib.Pipeline.FrameBody
set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

-- the buffers' contents when the launch is entered: a parameter
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result tile the body stores at point `t`: the body's arithmetic on the blocks it read. -/
def out1_7 (c : Dev nD) (t : Fin cfg1.N) : Vec F S2000x480 .f32 :=
  k1_pay1 (iblk1 V c 0 t) (iblk1 V c 1 t) (iblk1 V c 2 t) (iblk1 V c 3 t) (iblk1 V c 4 t) (iblk1 V c 5 t) (iblk1 V c 6 t)

/-- The proof data of the second launch on core `c`: the arrays as the launch finds them; after the body at point `t`
    each input's buffer at its block and the output's at the result tile; nothing else kept, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 V c t := by dsimp only [dat1]

end Cert.Kernel.Hand

end
-- ==== Proof.K.RunDefs.lean ====
/-
  The contents of the unscoped buffers at each boundary of the program, folded from the launch memory: after the one
  host operation before the first launch; after the first launch (its arrays at what its write-backs leave, every other
  buffer as entered); after the two stretches of host operations between the launches; after the second launch.
-/
import proofs.«412429_j58076547777199_3_alg».proof.Proof.K.RegADefs
import proofs.«412429_j58076547777199_3_alg».proof.Proof.K.RegCDefs
import Idealize.ShloMosaic.Lib.Pipeline.FrameSuffix
import Idealize.ShloMosaic.Lib.Pipeline.RegionsLoop

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the reshape of the segment ids (the first launch's entry). -/
abbrev W1 : Dev nD → Valuation τ sig (Elt F) := fun c => StableHlo.after main_part0_ops0 (W0 m c)
abbrev V1 : (c : Dev nD) → (b : Ref sig .tc) → Buf (Elt F) ((c : Thread nD τ).loc b) := fun c b => W1 m c b
/-- At the first launch's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the host operations up to the statement window's end, -/
abbrev W3 : Dev nD → Valuation τ sig (Elt F) := fun c => StableHlo.after main_part0_ops1 (W2 m c)
/-- and after the rest of them (the second launch's entry). -/
abbrev W4 : Dev nD → Valuation τ sig (Elt F) := fun c => StableHlo.after main_part1_ops0 (W3 m c)
abbrev V4 : (c : Dev nD) → (b : Ref sig .tc) → Buf (Elt F) ((c : Thread nD τ).loc b) := fun c b => W4 m c b
/-- At the second launch's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b

/-- The result array ends at what the second launch's write-backs leave. -/
theorem W5_result (c : Dev nD) : W5 m c (Proc.devRef .tc main_v70) = (dat1 (V4 m) c).arrAt 7 cfg1.N :=
  W5_arr m c 7

end Cert.Kernel.Hand

end
-- ==== Proof.K.RegAFrame.lean ====
/-
  The first launch's body meets its proof data: at every point, from the tiles in the inputs' buffers and the
  accumulators as the point before left them, the body runs to the accumulators of `accAt0`.

  The body has two control cases, told apart by its test "the step inside the half is zero". Where the test holds the
  body first stores zeros into the three accumulator blocks and then, reading each block back, adds the tile's
  contribution: it leaves `stepA x s acc0` whatever the blocks held. Where it fails the body reads the blocks as they
  are and adds: it leaves `stepA x s p` from the contents `p`. Every load and store is of a whole block, so a load reads
  the buffer's contents (or, after a store, that store's payload) and the last store's payload is what the buffer ends
  holding. The pipeline hands the body the accumulators' buffers unchanged between the steps of a half, and that is the
  recurrence `accAt0`.
-/
import proofs.«412429_j58076547777199_3_alg».proof.Proof.K.RegADefs
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The reset test

The body resets the accumulators under a test of the second grid coordinate (the step inside a half) against zero. -/

/-- The body's reset test at coordinates `i`: the step inside the half is zero. -/
abbrev cond0_0 (i : grid0.Coords) : Prop :=
  (Scalar.cmpi .ne (Scalar.extui (Scalar.cmpi .eq (BitVec.ofNat 32 (i 1).val) 0#32)) 0#32) = 1#1

/-- Point `t` is step `t % 50` of half `t / 50`, so the test holds exactly where `t % 50 = 0`: decided over the
    hundred points. -/
theorem hcond0_0 : ∀ t : Fin cfg0.N, cond0_0 (grid0.coords t) ↔ t.val % 50 = 0 :=
  (by decide +kernel : ∀ t : Fin grid0.N, cond0_0 (grid0.coords t) ↔ t.val % 50 = 0)

/-- The offsets of a whole-block access are all zero (rank 2, rank 3). -/
theorem acc_off2_zero : (![0, 0] : Fin 2 → Nat) = fun _ => 0 := funext fun a => by fin_cases a <;> rfl
theorem acc_off3_zero : (![0, 0, 0] : Fin 3 → Nat) = fun _ => 0 := funext fun a => by fin_cases a <;> rfl

/-! ## The body on any whole buffers, case by case

In both cases the tile's and the ids' buffers hold `x` and `s` and are handed back as they were. What an accumulator's
buffer ends holding is read off its stores: the last one is through the whole-block rectangle, so it covers the block
and its payload is the contents; inside the payload a whole-block load of a buffer reads that buffer's contents, and a
whole-block load after the zeroing store reads the zeros. -/

set_option maxHeartbeats 1000000 in
/-- THE RESET CASE (the test holds): whatever the three accumulator buffers hold, the body leaves in them the update of
    the zero accumulators by the tile `x` and the ids `s`. -/
theorem run_reset (c : Dev nD) (E : Set ℕ) (i : grid0.Coords) (arg2 : Memref sig .tc .vmem S2000x480 .f32) (harg2 : arg2.IsWhole) (arg3 : Memref sig .tc .vmem S2000x1 .i32) (harg3 : arg3.IsWhole)
    (arg4 : Memref sig .tc .vmem S1x64x128 .f32) (harg4 : arg4.IsWhole) (arg5 : Memref sig .tc .vmem S1x64x480 .f32) (harg5 : arg5.IsWhole)
    (arg6 : Memref sig .tc .vmem S1x64x1 .f32) (harg6 : arg6.IsWhole) (hc0 : cond0_0 i)
    (x : Vec F S2000x480 .f32) (s : Vec F S2000x1 .i32) (K : PUnit → sProp 𝕄) :
    iprop(owns (c : Thread nD τ) arg2 fullShare x ∗ owns (c : Thread nD τ) arg3 fullShare s
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x ∗ owns (c : Thread nD τ) arg3 fullShare s
            ∗ owns (c : Thread nD τ) arg4 fullShare (stepA x s acc0).1 ∗ owns (c : Thread nD τ) arg5 fullShare (stepA x s acc0).2.1
            ∗ owns (c : Thread nD τ) arg6 fullShare (stepA x s acc0).2.2) -∗ K ⟨⟩))
      ⊢ wp frame (wpE (defs₀ (F := F)) Variants.none c none) E (cc0__kernelA i arg2 harg2 arg3 harg3 arg4 harg4 arg5 harg5 arg6 harg6) K := by
  simp only [cc0__kernelA_eq_skeleton]; unfold cc0__kernelA_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons.mpr (Or.inl rfl), View.mem_set_unit_zero acc_off3_zero inb_S1x64x128_S1x64x128_0_0_0 y⟩)]
    sl_unfold_words
    rw [View.canon_cons_unit_zero (S := S1x64x128) acc_off3_zero, View.readCov_unit_zero (S := S1x64x128) _ acc_off3_zero]
    simp only [View.readAt_eq_ld, harg2.read_unread, harg3.read_unread, View.ld_unit_zero (S := S2000x480) acc_off2_zero,
      View.ld_unit_zero (S := S2000x1) acc_off2_zero]
    rfl
  isplitl [H3]
  · iexists _; isplitr
    swap; · iexact H3
    ipureintro
    rw [View.read_writes_eq_canon _ _ _ (fun y => ⟨_, List.mem_cons.mpr (Or.inl rfl), View.mem_set_unit_zero acc_off3_zero inb_S1x64x480_S1x64x480_0_0_0 y⟩)]
    sl_unfold_words
    rw [View.canon_cons_unit_zero (S := S1x64x480) acc_off3_zero, View.readCov_unit_zero (S := S1x64x480) _ acc_off3_zero]
    simp only [View.readAt_eq_ld, harg2.read_unread, harg3.read_unread, View.ld_unit_zero (S := S2000x480) acc_off2_zero,
      View.ld_unit_zero (S := S2000x1) acc_off2_zero]
    rfl
  iexists _; isplitr
  swap; · iexact H4
  ipureintro
  rw [View.read_writes_eq_canon _ _ _ (fun y => ⟨_, List.mem_cons.mpr (Or.inl rfl), View.mem_set_unit_zero acc_off3_zero inb_S1x64x1_S1x64x1_0_0_0 y⟩)]
  sl_unfold_words
  rw [View.canon_cons_unit_zero (S := S1x64x1) acc_off3_zero, View.readCov_unit_zero (S := S1x64x1) _ acc_off3_zero]
  simp only [View.readAt_eq_ld, harg3.read_unread, View.ld_unit_zero (S := S2000x1) acc_off2_zero]
  rfl

set_option maxHeartbeats 1000000 in
/-- THE STEP CASE (the test fails): from accumulator buffers holding `p`, the body leaves in them the update of `p` by
    the tile `x` and the ids `s`. -/
theorem run_step (c : Dev nD) (E : Set ℕ) (i : grid0.Coords) (arg2 : Memref sig .tc .vmem S2000x480 .f32) (harg2 : arg2.IsWhole) (arg3 : Memref sig .tc .vmem S2000x1 .i32) (harg3 : arg3.IsWhole)
    (arg4 : Memref sig .tc .vmem S1x64x128 .f32) (harg4 : arg4.IsWhole) (arg5 : Memref sig .tc .vmem S1x64x480 .f32) (harg5 : arg5.IsWhole)
    (arg6 : Memref sig .tc .vmem S1x64x1 .f32) (harg6 : arg6.IsWhole) (hc0 : ¬cond0_0 i)
    (x : Vec F S2000x480 .f32) (s : Vec F S2000x1 .i32) (p : Acc F) (K : PUnit → sProp 𝕄) :
    iprop(owns (c : Thread nD τ) arg2 fullShare x ∗ owns (c : Thread nD τ) arg3 fullShare s
        ∗ owns (c : Thread nD τ) arg4 fullShare p.1 ∗ owns (c : Thread nD τ) arg5 fullShare p.2.1 ∗ owns (c : Thread nD τ) arg6 fullShare p.2.2
        ∗ (iprop(owns (c : Thread nD τ) arg2 fullShare x ∗ owns (c : Thread nD τ) arg3 fullShare s
            ∗ owns (c : Thread nD τ) arg4 fullShare (stepA x s p).1 ∗ owns (c : Thread nD τ) arg5 fullShare (stepA x s p).2.1
            ∗ owns (c : Thread nD τ) arg6 fullShare (stepA x s p).2.2) -∗ K ⟨⟩))
      ⊢ wp frame (wpE (defs₀ (F := F)) Variants.none c none) E (cc0__kernelA i arg2 harg2 arg3 harg3 arg4 harg4 arg5 harg5 arg6 harg6) K := by
  simp only [cc0__kernelA_eq_skeleton]; unfold cc0__kernelA_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons.mpr (Or.inl rfl), View.mem_set_unit_zero acc_off3_zero inb_S1x64x128_S1x64x128_0_0_0 y⟩)]
    rw [View.canon_unit_zero (S := S1x64x128) acc_off3_zero]
    simp only [View.readAt_eq_ld, harg2.read_unread, harg3.read_unread, harg4.read_unread, View.ld_unit_zero (S := S2000x480) acc_off2_zero,
      View.ld_unit_zero (S := S2000x1) acc_off2_zero, View.ld_unit_zero (S := S1x64x128) acc_off3_zero]
    rfl
  isplitl [H3]
  · iexists _; isplitr
    swap; · iexact H3
    ipureintro
    rw [View.read_writes_eq_canon _ _ _ (fun y => ⟨_, List.mem_cons.mpr (Or.inl rfl), View.mem_set_unit_zero acc_off3_zero inb_S1x64x480_S1x64x480_0_0_0 y⟩)]
    rw [View.canon_unit_zero (S := S1x64x480) acc_off3_zero]
    simp only [View.readAt_eq_ld, harg2.read_unread, harg3.read_unread, harg5.read_unread, View.ld_unit_zero (S := S2000x480) acc_off2_zero,
      View.ld_unit_zero (S := S2000x1) acc_off2_zero, View.ld_unit_zero (S := S1x64x480) acc_off3_zero]
    rfl
  iexists _; isplitr
  swap; · iexact H4
  ipureintro
  rw [View.read_writes_eq_canon _ _ _ (fun y => ⟨_, List.mem_cons.mpr (Or.inl rfl), View.mem_set_unit_zero acc_off3_zero inb_S1x64x1_S1x64x1_0_0_0 y⟩)]
  sl_unfold_words
  rw [View.canon_unit_zero (S := S1x64x1) acc_off3_zero]
  simp only [View.readAt_eq_ld, harg3.read_unread, harg6.read_unread, View.ld_unit_zero (S := S2000x1) acc_off2_zero,
    View.ld_unit_zero (S := S1x64x1) acc_off3_zero]
  rfl

variable (V : (c : Dev nD) → (b : Ref sig .tc) → Buf (Elt F) ((c : Thread nD τ).loc b))

/-! ## What each window's buffer holds when the body is called

The two inputs are fetched at every point, so their buffers hold the point's tile and ids. The three accumulator
blocks belong to a half: their block index moves only between the halves, they are written back at the last step of a
half only, so at any step but the first of a half the buffer still holds what the step before left. -/

/-- The tile's buffer holds the point's tile. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The ids' buffer holds the point's ids. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Past the first step of a half the sums' buffer holds the sums the step before left. -/
theorem before0_2_step (c : Dev nD) (t : Fin cfg0.N) (h0 : ¬t.val % 50 = 0) (d) :
    (dat0 V c).before 2 t d = (accAt0 V c (t.val - 1) (Nat.lt_of_le_of_lt (Nat.sub_le _ _) t.isLt)).1 := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dat0]

/-- Likewise the sums of squares, -/
theorem before0_3_step (c : Dev nD) (t : Fin cfg0.N) (h0 : ¬t.val % 50 = 0) (d) :
    (dat0 V c).before 3 t d = (accAt0 V c (t.val - 1) (Nat.lt_of_le_of_lt (Nat.sub_le _ _) t.isLt)).2.1 := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dat0]

/-- and the counts. -/
theorem before0_4_step (c : Dev nD) (t : Fin cfg0.N) (h0 : ¬t.val % 50 = 0) (d) :
    (dat0 V c).before 4 t d = (accAt0 V c (t.val - 1) (Nat.lt_of_le_of_lt (Nat.sub_le _ _) t.isLt)).2.2 := by
  have hN : t.val < 100 := lt_of_lt_of_eq t.isLt (show cfg0.N = 100 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body at a generic point -/

/-- What the body is called with at point `t`: the invariant, what is owed, and the five buffers at what they hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, the five buffers at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point. The inputs' buffers hold the point's tile and ids. At the first step of a half the body's
    reset test holds, the accumulators' buffers may hold anything, and the body leaves the update of zero: the
    recurrence's reset equation. At any other step the test fails, the buffers hold what the step before left, and the
    body leaves the update of that: the recurrence's step equation. The invariant and what is owed pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 50 = 0
  · rw [accAt0_reset V c t h0]
    iintro ⟨HΦ, Ho, ⟨%d0, H0⟩, ⟨%d1, H1⟩, ⟨%d2, H2⟩, ⟨%d3, H3⟩, ⟨%d4, H4⟩⟩
    iapply (run_reset c Set.univ (grid0.coords t) _ _ _ _ _ _ _ _ _ _ ((hcond0_0 t).mpr h0) (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt0_step V c t h0]
    simp only [before0_2_step V c t h0, before0_3_step V c t h0, before0_4_step V c t h0]
    iintro ⟨HΦ, Ho, ⟨%d0, H0⟩, ⟨%d1, H1⟩, ⟨%d2, H2⟩, ⟨%d3, H3⟩, ⟨%d4, H4⟩⟩
    iapply (run_step c Set.univ (grid0.coords t) _ _ _ _ _ _ _ _ _ _ (fun h => h0 ((hcond0_0 t).mp h)) (iblk0 V c 0 t) (iblk0 V c 1 t)
      (accAt0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for the first launch, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.RegCFrame.lean ====
/-
  The second launch's body meets its proof data: at every point, from the blocks in the inputs' buffers, the body
  stores the result tile `out1_7`.
-/
import proofs.«412429_j58076547777199_3_alg».proof.Proof.K.RegCDefs
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks

An input window's buffer at a point holds the window's block there whether or not the pipeline fetched it at that
point: the tile and the ids are fetched at every point; the five tables are fetched at the first point only, and at a
later point their block index has not moved, so the block the body left in place is still this point's block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

/-- The offsets of a rank-2 whole-block access are zero. -/
theorem off2_zero : (![0, 0] : Fin 2 → Nat) = fun _ => 0 := funext fun a => by fin_cases a <;> rfl

/-- One store through the whole-block rectangle covers the block. -/
theorem cover1_7 (p : Vec F S2000x480 .f32) (y : S2000x480.Idx) :
    ∃ pc ∈ ([⟨Rect.unit (s := S2000x480) ![0, 0] S2000x480.size inb_S2000x480_S2000x480_0_0, p⟩] : List (View.Piece (Elt F) S2000x480 .f32)), y ∈ pc.1.set :=
  ⟨_, List.mem_singleton_self _, View.mem_set_unit_zero off2_zero inb_S2000x480_S2000x480_0_0 y⟩

set_option maxHeartbeats 1000000 in
/-- The body on whole buffers, the seven inputs' at contents `x0 … x6` and the output's at anything, runs to the
    continuation holding the inputs' as they were and the output's at the body's arithmetic on `x0 … x6`: every load
    is of a whole block, so reads its buffer's contents; the one store is of a whole block, so leaves its payload. -/
theorem sound_kernel1 (c : Dev nD) (E : Set ℕ) (i : grid1.Coords)
    (arg1 : Memref sig .tc .vmem S2000x480 .f32) (harg1 : arg1.IsWhole) (arg2 : Memref sig .tc .vmem S2000x1 .i32) (harg2 : arg2.IsWhole)
    (arg3 : Memref sig .tc .vmem S64x480 .f32) (harg3 : arg3.IsWhole) (arg4 : Memref sig .tc .vmem S64x480 .f32) (harg4 : arg4.IsWhole)
    (arg5 : Memref sig .tc .vmem S64x480 .f32) (harg5 : arg5.IsWhole) (arg6 : Memref sig .tc .vmem S64x480 .f32) (harg6 : arg6.IsWhole)
    (arg7 : Memref sig .tc .vmem S1x480 .f32) (harg7 : arg7.IsWhole) (arg8 : Memref sig .tc .vmem S2000x480 .f32) (harg8 : arg8.IsWhole)
    (x0 : Vec F S2000x480 .f32) (x1 : Vec F S2000x1 .i32) (x2 : Vec F S64x480 .f32) (x3 : Vec F S64x480 .f32)
    (x4 : Vec F S64x480 .f32) (x5 : Vec F S64x480 .f32) (x6 : Vec F S1x480 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k1_pay1 x0 x1 x2 x3 x4 x5 x6)) -∗ K ⟨⟩))
      ⊢ wp frame (wpE (defs₀ (F := F)) Variants.none c none) E (cc1__kernelC i arg1 harg1 arg2 harg2 arg3 harg3 arg4 harg4 arg5 harg5 arg6 harg6 arg7 harg7 arg8 harg8) K := by
  simp only [cc1__kernelC_eq_skeleton]; unfold cc1__kernelC_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover1_7 _), View.canon_unit_zero off2_zero]
  simp only [View.readAt_eq_ld, View.ld_unit_zero (S := S2000x480) off2_zero, View.ld_unit_zero (S := S2000x1) off2_zero,
    View.ld_unit_zero (S := S64x480) off2_zero, View.ld_unit_zero (S := S1x480) off2_zero]

/-! ## The proof data's inputs at every point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, the core's debts, and each window's current buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies at those blocks; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold out1_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the second launch, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program, at any float instance: the five items of @main — the reshape of the segment ids, the
  first launch, the host arithmetic up to the statement boundary, the rest of it, the second launch — as segments over
  one thread state, "every unscoped buffer at the boundary's contents, the random-number register at some state, nothing
  owed". The contents at each boundary are the fold W0 … W5; the final memory agrees with W5 at every unscoped buffer,
  and each of the four argument arrays walks back through the fold to what the launch memory held.
-/
import proofs.«412429_j58076547777199_3_alg».proof.Proof.K.RunDefs
import proofs.«412429_j58076547777199_3_alg».proof.Proof.K.RegAFrame
import proofs.«412429_j58076547777199_3_alg».proof.Proof.K.RegCFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a launch leaves: its arrays at the folded write-backs, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ## No host operation writes an argument array

Each host operation writes one buffer, its result, and no result is one of the four arguments: so a stretch of host
operations leaves an argument's buffer at what it held. -/

/-- The reshape of the segment ids writes its own result only. -/
theorem keeps_part0_ops0 (W : Valuation τ sig (Elt F)) (b : Ref sig .tc)
    (hb : b = main_arg0 ∨ b = main_arg1 ∨ b = main_arg2 ∨ b = main_arg3) :
    StableHlo.after main_part0_ops0 W (Proc.devRef .tc b) = W (Proc.devRef .tc b) := by
  rcases hb with rfl | rfl | rfl | rfl <;>
  · refine StableHlo.after_of_forall_not_mem _ _ (List.forall_iff_forall_mem.mp ?_)
    simp only [main_part0_ops0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-- The 58 operations from the first launch to the statement boundary write their own results only. -/
theorem keeps_part0_ops1 (W : Valuation τ sig (Elt F)) (b : Ref sig .tc)
    (hb : b = main_arg0 ∨ b = main_arg1 ∨ b = main_arg2 ∨ b = main_arg3) :
    StableHlo.after main_part0_ops1 W (Proc.devRef .tc b) = W (Proc.devRef .tc b) := by
  rcases hb with rfl | rfl | rfl | rfl <;>
  · refine StableHlo.after_of_forall_not_mem _ _ (List.forall_iff_forall_mem.mp ?_)
    simp only [main_part0_ops1, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-- The 27 operations from the statement boundary to the second launch write their own results only. -/
theorem keeps_part1_ops0 (W : Valuation τ sig (Elt F)) (b : Ref sig .tc)
    (hb : b = main_arg0 ∨ b = main_arg1 ∨ b = main_arg2 ∨ b = main_arg3) :
    StableHlo.after main_part1_ops0 W (Proc.devRef .tc b) = W (Proc.devRef .tc b) := by
  rcases hb with rfl | rfl | rfl | rfl <;>
  · refine StableHlo.after_of_forall_not_mem _ _ (List.forall_iff_forall_mem.mp ?_)
    simp only [main_part1_ops0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-! ## The arguments end as launched

The input array is window 0 of both launches, an input window: a launch's fold of write-backs leaves an input's array
as entered. The segment ids, the scale vector and the shift vector are no window of either launch (each is read by a
host operation only). So the fold at an argument walks back through the five boundaries to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat1 (V4 m) c).arrAt_in 0 rfl _).trans (A_eq1 (V4 m) c 0))
    _ = W3 m c (Proc.devRef .tc main_arg0) := keeps_part1_ops0 _ _ (.inl rfl)
    _ = W2 m c (Proc.devRef .tc main_arg0) := keeps_part0_ops1 _ _ (.inl rfl)
    _ = W1 m c (Proc.devRef .tc main_arg0) := (W2_arr m c 0).trans (((dat0 (V1 m) c).arrAt_in 0 rfl _).trans (A_eq0 (V1 m) c 0))
    _ = W0 m c (Proc.devRef .tc main_arg0) := keeps_part0_ops0 _ _ (.inl rfl)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := keeps_part1_ops0 _ _ (.inr (.inl rfl))
    _ = W2 m c (Proc.devRef .tc main_arg1) := keeps_part0_ops1 _ _ (.inr (.inl rfl))
    _ = W1 m c (Proc.devRef .tc main_arg1) := W2_of_ne m c main_arg1 (by decide)
    _ = W0 m c (Proc.devRef .tc main_arg1) := keeps_part0_ops0 _ _ (.inr (.inl rfl))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := keeps_part1_ops0 _ _ (.inr (.inr (.inl rfl)))
    _ = W2 m c (Proc.devRef .tc main_arg2) := keeps_part0_ops1 _ _ (.inr (.inr (.inl rfl)))
    _ = W1 m c (Proc.devRef .tc main_arg2) := W2_of_ne m c main_arg2 (by decide)
    _ = W0 m c (Proc.devRef .tc main_arg2) := keeps_part0_ops0 _ _ (.inr (.inr (.inl rfl)))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := keeps_part1_ops0 _ _ (.inr (.inr (.inr rfl)))
    _ = W2 m c (Proc.devRef .tc main_arg3) := keeps_part0_ops1 _ _ (.inr (.inr (.inr rfl)))
    _ = W1 m c (Proc.devRef .tc main_arg3) := W2_of_ne m c main_arg3 (by decide)
    _ = W0 m c (Proc.devRef .tc main_arg3) := keeps_part0_ops0 _ _ (.inr (.inr (.inr rfl)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Each launch's proof data at the contents its launch is entered with: the first at W1, the second at W4. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its
    tally of what it owes, at nothing. -/
abbrev R (c : Dev nD) : sProp 𝕄 := iprop((∃ r, prngReg c r) ∗ ∃ W, owes (c : Thread nD τ) (0 : CellTallies nD τ sig Unit) W)
/-- A stretch of host operations as a segment: over the unscoped buffers from the contents W to the contents after
    the operations, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tally: every unscoped buffer at W5, the random-number register at some state. -/
abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- The first launch over the thread state: entered from every unscoped buffer at W1, left at W2. Its arrays are split
    out of the unscoped buffers and put back at the exit contents; the random-number register goes into the launch's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at W4, left at W5 — the last thread
    state beside the core owing nothing. The same four entailments as the first launch's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch of the program -/

/-- @main's five segments in order: a host segment per stretch of operations from its boundary's contents, a region
    per launch. -/
abbrev segs : List (Pipeline.Seg (pcfgs (F := F)) adm (pdats m) () defs₀ 𝒱₀ L lv) :=
  [ .host (hseg main_part0_ops0 main_part0_ops0_sub main_part0_ops0_fresh (W0 m)),
    .region (reg0 m),
    .host (hseg main_part0_ops1 main_part0_ops1_sub main_part0_ops1_fresh (W2 m)),
    .host (hseg main_part1_ops0 main_part1_ops0_sub main_part1_ops0_fresh (W3 m)),
    .region (reg1 m) ]

/-- @main is the run of the segments: it is the chain of its five items, and so is the segments' run. -/
theorem main_run (c : Dev nD) : main (F := F) c = Pipeline.Seg.run (segs m) := by
  rewrite [main_chain_windows c, Pipeline.Seg.run_eq_chain,
    show (segs m).map Pipeline.Seg.prog = [
      StableHlo.seq main_part0_ops0,
      Prog.lift (.customCall (Pipeline.entry 0) ()),
      StableHlo.seq main_part0_ops1,
      StableHlo.seq main_part1_ops0,
      Prog.lift (.customCall (Pipeline.entry 1) ()) ] from rfl]
  rfl

set_option backward.isDefEq.respectTransparency.types false in
/-- The run: at the compiled mesh, from any memory with zero counters, every weakly fair execution of @main on the
    TensorCores terminates, nothing faulting, and the final memory agrees with W5 at every unscoped buffer of every
    core. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every weakly fair execution of @main terminates, nothing faulting, and every final memory has the four
    argument arrays as launched — the run's post read at each argument's buffer, which the fold walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (run_main m ρ).mono fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩

end Cert.Kernel.Hand

end
-- ==== Proof.KI.RegADefs.lean ====
/-
  The first launch (the statistics pass) as proof data, at any float instance.

  The grid has 100 points: point t is (half, step) = (t / 50, t % 50). At each point the body reads a tile of 2000 rows
  of the input and of the segment ids, and adds into three per-half accumulators — the per-graph sums of the first 128
  columns, the per-graph sums of squares of all 480 columns, and the per-graph row counts — each the one-hot matrix of
  the tile's segment ids contracted with the tile's values. At step 0 of a half the accumulators are first reset to zero.
  So what the three output blocks hold after point t is a recurrence over the points: `stepA` of the tile at t applied to
  zero (step 0 of a half) or to what the point before left.
-/
import proofs.«412429_j58076547777199_3_alg».proof.Proof.Gen.KernelIdeal.Launch
import proofs.«412429_j58076547777199_3_alg».proof.Proof.Gen.KernelIdeal.Skeleton
import proofs.«412429_j58076547777199_3_alg».proof.Proof.Gen.KernelIdeal.Points
import Idealize.ShloMosaic.Lib.Pipeline.FrameBody
set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

-- the buffers' contents when the launch is entered: a parameter
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulator blocks: sums (64 graphs × 128 columns), sums of squares (64 × 480), counts (64 × 1). -/
abbrev Acc (F : FTy → Type) [FloatOps F] : Type := Vec F S1x64x128 .f32 × Vec F S1x64x480 .f32 × Vec F S1x64x1 .f32

/-- The accumulators after a reset: all zero. -/
def acc0 : Acc F := (k0_pay2, k0_pay3, k0_pay4)

/-- One point's update: each accumulator plus the one-hot matrix of the tile's segment ids `s` contracted with the
    tile's first 128 columns, with its squares, and with a column of ones. -/
def stepA (x : Vec F S2000x480 .f32) (s : Vec F S2000x1 .i32) (p : Acc F) : Acc F :=
  (k0_pay6 x s p.1, k0_pay7 x s p.2.1, k0_pay1 (k0_pay5 s) k0_pay8 (k0_pay9 p.2.2) (constant S64x1 .f32 0x00000000#32))

/-- What the accumulators hold after the body at position `n`: the update of the tile at `n`, from zero at step 0 of a
    half and else from what position `n - 1` left. -/
def accAt0 (c : Dev nD) : (n : ℕ) → n < cfg0.N → Acc F
  | 0, hn => stepA (iblk0 V c 0 ⟨0, hn⟩) (iblk0 V c 1 ⟨0, hn⟩) acc0
  | n + 1, hn =>
    if (n + 1) % 50 = 0 then stepA (iblk0 V c 0 ⟨n + 1, hn⟩) (iblk0 V c 1 ⟨n + 1, hn⟩) acc0
    else stepA (iblk0 V c 0 ⟨n + 1, hn⟩) (iblk0 V c 1 ⟨n + 1, hn⟩) (accAt0 c n (Nat.lt_of_succ_lt hn))

/-- At step 0 of a half the update starts from zero. -/
theorem accAt0_reset (c : Dev nD) (t : Fin cfg0.N) (h0 : t.val % 50 = 0) :
    accAt0 V c t.val t.isLt = stepA (iblk0 V c 0 t) (iblk0 V c 1 t) acc0 := by
  obtain ⟨n, hn⟩ := t
  cases n with
  | zero => rfl
  | succ n => exact (if_pos h0).trans rfl

/-- At a later step it starts from what the point before left. -/
theorem accAt0_step (c : Dev nD) (t : Fin cfg0.N) (h0 : ¬t.val % 50 = 0) :
    accAt0 V c t.val t.isLt = stepA (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the first launch on core `c`: the arrays as the launch finds them; after the body at point `t`
    each input's buffer at its block and the three outputs' at the accumulators; nothing else kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2.1
    | ⟨4, _⟩ => (accAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2.1 := by dsimp only [dat0]
theorem after0_4 (c : Dev nD) (t : Fin cfg0.N) : (dat0 V c).after 4 t = (accAt0 V c t.val t.isLt).2.2 := by dsimp only [dat0]

end Cert.KernelIdeal.Hand

end
-- ==== Proof.KI.RegCDefs.lean ====
/-
  The second launch (normalise and shift) as proof data, at any float instance.

  The grid has 100 points; at point t the body reads a tile of 2000 rows of the input and of the segment ids and the
  five small tables whole (two 64 × 480 halves of the per-graph means, two of the per-graph scales, the 1 × 480 shift),
  and stores one 2000 × 480 tile of the result: one pure function of what it read.
-/
import proofs.«412429_j58076547777199_3_alg».proof.Proof.Gen.KernelIdeal.Launch
import proofs.«412429_j58076547777199_3_alg».proof.Proof.Gen.KernelIdeal.Skeleton
import proofs.«412429_j58076547777199_3_alg».proof.Proof.Gen.KernelIdeal.Points
import Idealize.ShloMosaic.Lib.Pipeline.FrameBody
set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

-- the buffers' contents when the launch is entered: a parameter
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result tile the body stores at point `t`: the body's arithmetic on the blocks it read. -/
def out1_7 (c : Dev nD) (t : Fin cfg1.N) : Vec F S2000x480 .f32 :=
  k1_pay1 (iblk1 V c 0 t) (iblk1 V c 1 t) (iblk1 V c 2 t) (iblk1 V c 3 t) (iblk1 V c 4 t) (iblk1 V c 5 t) (iblk1 V c 6 t)

/-- The proof data of the second launch on core `c`: the arrays as the launch finds them; after the body at point `t`
    each input's buffer at its block and the output's at the result tile; nothing else kept, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 V c t := by dsimp only [dat1]

end Cert.KernelIdeal.Hand

end
-- ==== Proof.KI.RunDefs.lean ====
/-
  The contents of the unscoped buffers at each boundary of the program, folded from the launch memory: after the one
  host operation before the first launch; after the first launch (its arrays at what its write-backs leave, every other
  buffer as entered); after the two stretches of host operations between the launches; after the second launch.
-/
import proofs.«412429_j58076547777199_3_alg».proof.Proof.KI.RegADefs
import proofs.«412429_j58076547777199_3_alg».proof.Proof.KI.RegCDefs
import Idealize.ShloMosaic.Lib.Pipeline.FrameSuffix
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the reshape of the segment ids (the first launch's entry). -/
abbrev W1 : Dev nD → Valuation τ sig (Elt F) := fun c => StableHlo.after main_part0_ops0 (W0 m c)
abbrev V1 : (c : Dev nD) → (b : Ref sig .tc) → Buf (Elt F) ((c : Thread nD τ).loc b) := fun c b => W1 m c b
/-- At the first launch's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the host operations up to the statement window's end, -/
abbrev W3 : Dev nD → Valuation τ sig (Elt F) := fun c => StableHlo.after main_part0_ops1 (W2 m c)
/-- and after the rest of them (the second launch's entry). -/
abbrev W4 : Dev nD → Valuation τ sig (Elt F) := fun c => StableHlo.after main_part1_ops0 (W3 m c)
abbrev V4 : (c : Dev nD) → (b : Ref sig .tc) → Buf (Elt F) ((c : Thread nD τ).loc b) := fun c b => W4 m c b
/-- At the second launch's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b

/-- The result array ends at what the second launch's write-backs leave. -/
theorem W5_result (c : Dev nD) : W5 m c (Proc.devRef .tc main_v70) = (dat1 (V4 m) c).arrAt 7 cfg1.N :=
  W5_arr m c 7

end Cert.KernelIdeal.Hand

end
-- ==== Proof.KI.RegAFrame.lean ====
/-
  The first launch's body meets its proof data: at every point, from the tiles in the inputs' buffers and the
  accumulators as the point before left them, the body runs to the accumulators of `accAt0`.

  The body has two control cases, told apart by its test "the step inside the half is zero". Where the test holds the
  body first stores zeros into the three accumulator blocks and then, reading each block back, adds the tile's
  contribution: it leaves `stepA x s acc0` whatever the blocks held. Where it fails the body reads the blocks as they
  are and adds: it leaves `stepA x s p` from the contents `p`. Every load and store is of a whole block, so a load reads
  the buffer's contents (or, after a store, that store's payload) and the last store's payload is what the buffer ends
  holding. The pipeline hands the body the accumulators' buffers unchanged between the steps of a half, and that is the
  recurrence `accAt0`.
-/
import proofs.«412429_j58076547777199_3_alg».proof.Proof.KI.RegADefs
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The reset test

The body resets the accumulators under a test of the second grid coordinate (the step inside a half) against zero. -/

/-- The body's reset test at coordinates `i`: the step inside the half is zero. -/
abbrev cond0_0 (i : grid0.Coords) : Prop :=
  (Scalar.cmpi .ne (Scalar.extui (Scalar.cmpi .eq (BitVec.ofNat 32 (i 1).val) 0#32)) 0#32) = 1#1

/-- Point `t` is step `t % 50` of half `t / 50`, so the test holds exactly where `t % 50 = 0`: decided over the
    hundred points. -/
theorem hcond0_0 : ∀ t : Fin cfg0.N, cond0_0 (grid0.coords t) ↔ t.val % 50 = 0 :=
  (by decide +kernel : ∀ t : Fin grid0.N, cond0_0 (grid0.coords t) ↔ t.val % 50 = 0)

/-- The offsets of a whole-block access are all zero (rank 2, rank 3). -/
theorem acc_off2_zero : (![0, 0] : Fin 2 → Nat) = fun _ => 0 := funext fun a => by fin_cases a <;> rfl
theorem acc_off3_zero : (![0, 0, 0] : Fin 3 → Nat) = fun _ => 0 := funext fun a => by fin_cases a <;> rfl

/-! ## The body on any whole buffers, case by case

In both cases the tile's and the ids' buffers hold `x` and `s` and are handed back as they were. What an accumulator's
buffer ends holding is read off its stores: the last one is through the whole-block rectangle, so it covers the block
and its payload is the contents; inside the payload a whole-block load of a buffer reads that buffer's contents, and a
whole-block load after the zeroing store reads the zeros. -/

set_option maxHeartbeats 1000000 in
/-- THE RESET CASE (the test holds): whatever the three accumulator buffers hold, the body leaves in them the update of
    the zero accumulators by the tile `x` and the ids `s`. -/
theorem run_reset (c : Dev nD) (E : Set ℕ) (i : grid0.Coords) (arg2 : Memref sig .tc .vmem S2000x480 .f32) (harg2 : arg2.IsWhole) (arg3 : Memref sig .tc .vmem S2000x1 .i32) (harg3 : arg3.IsWhole)
    (arg4 : Memref sig .tc .vmem S1x64x128 .f32) (harg4 : arg4.IsWhole) (arg5 : Memref sig .tc .vmem S1x64x480 .f32) (harg5 : arg5.IsWhole)
    (arg6 : Memref sig .tc .vmem S1x64x1 .f32) (harg6 : arg6.IsWhole) (hc0 : cond0_0 i)
    (x : Vec F S2000x480 .f32) (s : Vec F S2000x1 .i32) (K : PUnit → sProp 𝕄) :
    iprop(owns (c : Thread nD τ) arg2 fullShare x ∗ owns (c : Thread nD τ) arg3 fullShare s
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x ∗ owns (c : Thread nD τ) arg3 fullShare s
            ∗ owns (c : Thread nD τ) arg4 fullShare (stepA x s acc0).1 ∗ owns (c : Thread nD τ) arg5 fullShare (stepA x s acc0).2.1
            ∗ owns (c : Thread nD τ) arg6 fullShare (stepA x s acc0).2.2) -∗ K ⟨⟩))
      ⊢ wp frame (wpE (defs₀ (F := F)) Variants.none c none) E (cc0__kernelA i arg2 harg2 arg3 harg3 arg4 harg4 arg5 harg5 arg6 harg6) K := by
  simp only [cc0__kernelA_eq_skeleton]; unfold cc0__kernelA_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons.mpr (Or.inl rfl), View.mem_set_unit_zero acc_off3_zero inb_S1x64x128_S1x64x128_0_0_0 y⟩)]
    sl_unfold_words
    rw [View.canon_cons_unit_zero (S := S1x64x128) acc_off3_zero, View.readCov_unit_zero (S := S1x64x128) _ acc_off3_zero]
    simp only [View.readAt_eq_ld, harg2.read_unread, harg3.read_unread, View.ld_unit_zero (S := S2000x480) acc_off2_zero,
      View.ld_unit_zero (S := S2000x1) acc_off2_zero]
    rfl
  isplitl [H3]
  · iexists _; isplitr
    swap; · iexact H3
    ipureintro
    rw [View.read_writes_eq_canon _ _ _ (fun y => ⟨_, List.mem_cons.mpr (Or.inl rfl), View.mem_set_unit_zero acc_off3_zero inb_S1x64x480_S1x64x480_0_0_0 y⟩)]
    sl_unfold_words
    rw [View.canon_cons_unit_zero (S := S1x64x480) acc_off3_zero, View.readCov_unit_zero (S := S1x64x480) _ acc_off3_zero]
    simp only [View.readAt_eq_ld, harg2.read_unread, harg3.read_unread, View.ld_unit_zero (S := S2000x480) acc_off2_zero,
      View.ld_unit_zero (S := S2000x1) acc_off2_zero]
    rfl
  iexists _; isplitr
  swap; · iexact H4
  ipureintro
  rw [View.read_writes_eq_canon _ _ _ (fun y => ⟨_, List.mem_cons.mpr (Or.inl rfl), View.mem_set_unit_zero acc_off3_zero inb_S1x64x1_S1x64x1_0_0_0 y⟩)]
  sl_unfold_words
  rw [View.canon_cons_unit_zero (S := S1x64x1) acc_off3_zero, View.readCov_unit_zero (S := S1x64x1) _ acc_off3_zero]
  simp only [View.readAt_eq_ld, harg3.read_unread, View.ld_unit_zero (S := S2000x1) acc_off2_zero]
  rfl

set_option maxHeartbeats 1000000 in
/-- THE STEP CASE (the test fails): from accumulator buffers holding `p`, the body leaves in them the update of `p` by
    the tile `x` and the ids `s`. -/
theorem run_step (c : Dev nD) (E : Set ℕ) (i : grid0.Coords) (arg2 : Memref sig .tc .vmem S2000x480 .f32) (harg2 : arg2.IsWhole) (arg3 : Memref sig .tc .vmem S2000x1 .i32) (harg3 : arg3.IsWhole)
    (arg4 : Memref sig .tc .vmem S1x64x128 .f32) (harg4 : arg4.IsWhole) (arg5 : Memref sig .tc .vmem S1x64x480 .f32) (harg5 : arg5.IsWhole)
    (arg6 : Memref sig .tc .vmem S1x64x1 .f32) (harg6 : arg6.IsWhole) (hc0 : ¬cond0_0 i)
    (x : Vec F S2000x480 .f32) (s : Vec F S2000x1 .i32) (p : Acc F) (K : PUnit → sProp 𝕄) :
    iprop(owns (c : Thread nD τ) arg2 fullShare x ∗ owns (c : Thread nD τ) arg3 fullShare s
        ∗ owns (c : Thread nD τ) arg4 fullShare p.1 ∗ owns (c : Thread nD τ) arg5 fullShare p.2.1 ∗ owns (c : Thread nD τ) arg6 fullShare p.2.2
        ∗ (iprop(owns (c : Thread nD τ) arg2 fullShare x ∗ owns (c : Thread nD τ) arg3 fullShare s
            ∗ owns (c : Thread nD τ) arg4 fullShare (stepA x s p).1 ∗ owns (c : Thread nD τ) arg5 fullShare (stepA x s p).2.1
            ∗ owns (c : Thread nD τ) arg6 fullShare (stepA x s p).2.2) -∗ K ⟨⟩))
      ⊢ wp frame (wpE (defs₀ (F := F)) Variants.none c none) E (cc0__kernelA i arg2 harg2 arg3 harg3 arg4 harg4 arg5 harg5 arg6 harg6) K := by
  simp only [cc0__kernelA_eq_skeleton]; unfold cc0__kernelA_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons.mpr (Or.inl rfl), View.mem_set_unit_zero acc_off3_zero inb_S1x64x128_S1x64x128_0_0_0 y⟩)]
    rw [View.canon_unit_zero (S := S1x64x128) acc_off3_zero]
    simp only [View.readAt_eq_ld, harg2.read_unread, harg3.read_unread, harg4.read_unread, View.ld_unit_zero (S := S2000x480) acc_off2_zero,
      View.ld_unit_zero (S := S2000x1) acc_off2_zero, View.ld_unit_zero (S := S1x64x128) acc_off3_zero]
    rfl
  isplitl [H3]
  · iexists _; isplitr
    swap; · iexact H3
    ipureintro
    rw [View.read_writes_eq_canon _ _ _ (fun y => ⟨_, List.mem_cons.mpr (Or.inl rfl), View.mem_set_unit_zero acc_off3_zero inb_S1x64x480_S1x64x480_0_0_0 y⟩)]
    rw [View.canon_unit_zero (S := S1x64x480) acc_off3_zero]
    simp only [View.readAt_eq_ld, harg2.read_unread, harg3.read_unread, harg5.read_unread, View.ld_unit_zero (S := S2000x480) acc_off2_zero,
      View.ld_unit_zero (S := S2000x1) acc_off2_zero, View.ld_unit_zero (S := S1x64x480) acc_off3_zero]
    rfl
  iexists _; isplitr
  swap; · iexact H4
  ipureintro
  rw [View.read_writes_eq_canon _ _ _ (fun y => ⟨_, List.mem_cons.mpr (Or.inl rfl), View.mem_set_unit_zero acc_off3_zero inb_S1x64x1_S1x64x1_0_0_0 y⟩)]
  sl_unfold_words
  rw [View.canon_unit_zero (S := S1x64x1) acc_off3_zero]
  simp only [View.readAt_eq_ld, harg3.read_unread, harg6.read_unread, View.ld_unit_zero (S := S2000x1) acc_off2_zero,
    View.ld_unit_zero (S := S1x64x1) acc_off3_zero]
  rfl

variable (V : (c : Dev nD) → (b : Ref sig .tc) → Buf (Elt F) ((c : Thread nD τ).loc b))

/-! ## What each window's buffer holds when the body is called

The two inputs are fetched at every point, so their buffers hold the point's tile and ids. The three accumulator
blocks belong to a half: their block index moves only between the halves, they are written back at the last step of a
half only, so at any step but the first of a half the buffer still holds what the step before left. -/

/-- The tile's buffer holds the point's tile. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The ids' buffer holds the point's ids. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Past the first step of a half the sums' buffer holds the sums the step before left. -/
theorem before0_2_step (c : Dev nD) (t : Fin cfg0.N) (h0 : ¬t.val % 50 = 0) (d) :
    (dat0 V c).before 2 t d = (accAt0 V c (t.val - 1) (Nat.lt_of_le_of_lt (Nat.sub_le _ _) t.isLt)).1 := by
  have hN : t.val < 100 := lt_of_lt_of_eq t.isLt (show cfg0.N = 100 from N_0)
  rw [Dat.before_out_kept _ 2 rfl t (by omega) (Bool.eq_false_iff.mpr fun h => by have := (flush0_2 _).mp h; dsimp only at this; omega)
    (fun _ => rfl) (fun _ _ => rfl)]
  dsimp only [dat0]

/-- Likewise the sums of squares, -/
theorem before0_3_step (c : Dev nD) (t : Fin cfg0.N) (h0 : ¬t.val % 50 = 0) (d) :
    (dat0 V c).before 3 t d = (accAt0 V c (t.val - 1) (Nat.lt_of_le_of_lt (Nat.sub_le _ _) t.isLt)).2.1 := by
  have hN : t.val < 100 := lt_of_lt_of_eq t.isLt (show cfg0.N = 100 from N_0)
  rw [Dat.before_out_kept _ 3 rfl t (by omega) (Bool.eq_false_iff.mpr fun h => by have := (flush0_3 _).mp h; dsimp only at this; omega)
    (fun _ => rfl) (fun _ _ => rfl)]
  dsimp only [dat0]

/-- and the counts. -/
theorem before0_4_step (c : Dev nD) (t : Fin cfg0.N) (h0 : ¬t.val % 50 = 0) (d) :
    (dat0 V c).before 4 t d = (accAt0 V c (t.val - 1) (Nat.lt_of_le_of_lt (Nat.sub_le _ _) t.isLt)).2.2 := by
  have hN : t.val < 100 := lt_of_lt_of_eq t.isLt (show cfg0.N = 100 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body at a generic point -/

/-- What the body is called with at point `t`: the invariant, what is owed, and the five buffers at what they hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, the five buffers at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point. The inputs' buffers hold the point's tile and ids. At the first step of a half the body's
    reset test holds, the accumulators' buffers may hold anything, and the body leaves the update of zero: the
    recurrence's reset equation. At any other step the test fails, the buffers hold what the step before left, and the
    body leaves the update of that: the recurrence's step equation. The invariant and what is owed pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 50 = 0
  · rw [accAt0_reset V c t h0]
    iintro ⟨HΦ, Ho, ⟨%d0, H0⟩, ⟨%d1, H1⟩, ⟨%d2, H2⟩, ⟨%d3, H3⟩, ⟨%d4, H4⟩⟩
    iapply (run_reset c Set.univ (grid0.coords t) _ _ _ _ _ _ _ _ _ _ ((hcond0_0 t).mpr h0) (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt0_step V c t h0]
    simp only [before0_2_step V c t h0, before0_3_step V c t h0, before0_4_step V c t h0]
    iintro ⟨HΦ, Ho, ⟨%d0, H0⟩, ⟨%d1, H1⟩, ⟨%d2, H2⟩, ⟨%d3, H3⟩, ⟨%d4, H4⟩⟩
    iapply (run_step c Set.univ (grid0.coords t) _ _ _ _ _ _ _ _ _ _ (fun h => h0 ((hcond0_0 t).mp h)) (iblk0 V c 0 t) (iblk0 V c 1 t)
      (accAt0 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for the first launch, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegCFrame.lean ====
/-
  The second launch's body meets its proof data: at every point, from the blocks in the inputs' buffers, the body
  stores the result tile `out1_7`.
-/
import proofs.«412429_j58076547777199_3_alg».proof.Proof.KI.RegCDefs
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks

An input window's buffer at a point holds the window's block there whether or not the pipeline fetched it at that
point: the tile and the ids are fetched at every point; the five tables are fetched at the first point only, and at a
later point their block index has not moved, so the block the body left in place is still this point's block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

/-- The offsets of a rank-2 whole-block access are zero. -/
theorem off2_zero : (![0, 0] : Fin 2 → Nat) = fun _ => 0 := funext fun a => by fin_cases a <;> rfl

/-- One store through the whole-block rectangle covers the block. -/
theorem cover1_7 (p : Vec F S2000x480 .f32) (y : S2000x480.Idx) :
    ∃ pc ∈ ([⟨Rect.unit (s := S2000x480) ![0, 0] S2000x480.size inb_S2000x480_S2000x480_0_0, p⟩] : List (View.Piece (Elt F) S2000x480 .f32)), y ∈ pc.1.set :=
  ⟨_, List.mem_singleton_self _, View.mem_set_unit_zero off2_zero inb_S2000x480_S2000x480_0_0 y⟩

set_option maxHeartbeats 1000000 in
/-- The body on whole buffers, the seven inputs' at contents `x0 … x6` and the output's at anything, runs to the
    continuation holding the inputs' as they were and the output's at the body's arithmetic on `x0 … x6`: every load
    is of a whole block, so reads its buffer's contents; the one store is of a whole block, so leaves its payload. -/
theorem sound_kernel1 (c : Dev nD) (E : Set ℕ) (i : grid1.Coords)
    (arg1 : Memref sig .tc .vmem S2000x480 .f32) (harg1 : arg1.IsWhole) (arg2 : Memref sig .tc .vmem S2000x1 .i32) (harg2 : arg2.IsWhole)
    (arg3 : Memref sig .tc .vmem S64x480 .f32) (harg3 : arg3.IsWhole) (arg4 : Memref sig .tc .vmem S64x480 .f32) (harg4 : arg4.IsWhole)
    (arg5 : Memref sig .tc .vmem S64x480 .f32) (harg5 : arg5.IsWhole) (arg6 : Memref sig .tc .vmem S64x480 .f32) (harg6 : arg6.IsWhole)
    (arg7 : Memref sig .tc .vmem S1x480 .f32) (harg7 : arg7.IsWhole) (arg8 : Memref sig .tc .vmem S2000x480 .f32) (harg8 : arg8.IsWhole)
    (x0 : Vec F S2000x480 .f32) (x1 : Vec F S2000x1 .i32) (x2 : Vec F S64x480 .f32) (x3 : Vec F S64x480 .f32)
    (x4 : Vec F S64x480 .f32) (x5 : Vec F S64x480 .f32) (x6 : Vec F S1x480 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k1_pay1 x0 x1 x2 x3 x4 x5 x6)) -∗ K ⟨⟩))
      ⊢ wp frame (wpE (defs₀ (F := F)) Variants.none c none) E (cc1__kernelC i arg1 harg1 arg2 harg2 arg3 harg3 arg4 harg4 arg5 harg5 arg6 harg6 arg7 harg7 arg8 harg8) K := by
  simp only [cc1__kernelC_eq_skeleton]; unfold cc1__kernelC_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover1_7 _), View.canon_unit_zero off2_zero]
  simp only [View.readAt_eq_ld, View.ld_unit_zero (S := S2000x480) off2_zero, View.ld_unit_zero (S := S2000x1) off2_zero,
    View.ld_unit_zero (S := S64x480) off2_zero, View.ld_unit_zero (S := S1x480) off2_zero]

/-! ## The proof data's inputs at every point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, the core's debts, and each window's current buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies at those blocks; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold out1_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the second launch, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program, at any float instance: the five items of @main — the reshape of the segment ids, the
  first launch, the host arithmetic up to the statement boundary, the rest of it, the second launch — as segments over
  one thread state, "every unscoped buffer at the boundary's contents, the random-number register at some state, nothing
  owed". The contents at each boundary are the fold W0 … W5; the final memory agrees with W5 at every unscoped buffer,
  and each of the four argument arrays walks back through the fold to what the launch memory held.
-/
import proofs.«412429_j58076547777199_3_alg».proof.Proof.KI.RunDefs
import proofs.«412429_j58076547777199_3_alg».proof.Proof.KI.RegAFrame
import proofs.«412429_j58076547777199_3_alg».proof.Proof.KI.RegCFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a launch leaves: its arrays at the folded write-backs, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-! ## No host operation writes an argument array

Each host operation writes one buffer, its result, and no result is one of the four arguments: so a stretch of host
operations leaves an argument's buffer at what it held. -/

/-- The reshape of the segment ids writes its own result only. -/
theorem keeps_part0_ops0 (W : Valuation τ sig (Elt F)) (b : Ref sig .tc)
    (hb : b = main_arg0 ∨ b = main_arg1 ∨ b = main_arg2 ∨ b = main_arg3) :
    StableHlo.after main_part0_ops0 W (Proc.devRef .tc b) = W (Proc.devRef .tc b) := by
  rcases hb with rfl | rfl | rfl | rfl <;>
  · refine StableHlo.after_of_forall_not_mem _ _ (List.forall_iff_forall_mem.mp ?_)
    simp only [main_part0_ops0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-- The 58 operations from the first launch to the statement boundary write their own results only. -/
theorem keeps_part0_ops1 (W : Valuation τ sig (Elt F)) (b : Ref sig .tc)
    (hb : b = main_arg0 ∨ b = main_arg1 ∨ b = main_arg2 ∨ b = main_arg3) :
    StableHlo.after main_part0_ops1 W (Proc.devRef .tc b) = W (Proc.devRef .tc b) := by
  rcases hb with rfl | rfl | rfl | rfl <;>
  · refine StableHlo.after_of_forall_not_mem _ _ (List.forall_iff_forall_mem.mp ?_)
    simp only [main_part0_ops1, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-- The 27 operations from the statement boundary to the second launch write their own results only. -/
theorem keeps_part1_ops0 (W : Valuation τ sig (Elt F)) (b : Ref sig .tc)
    (hb : b = main_arg0 ∨ b = main_arg1 ∨ b = main_arg2 ∨ b = main_arg3) :
    StableHlo.after main_part1_ops0 W (Proc.devRef .tc b) = W (Proc.devRef .tc b) := by
  rcases hb with rfl | rfl | rfl | rfl <;>
  · refine StableHlo.after_of_forall_not_mem _ _ (List.forall_iff_forall_mem.mp ?_)
    simp only [main_part1_ops0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)

/-! ## The arguments end as launched

The input array is window 0 of both launches, an input window: a launch's fold of write-backs leaves an input's array
as entered. The segment ids, the scale vector and the shift vector are no window of either launch (each is read by a
host operation only). So the fold at an argument walks back through the five boundaries to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat1 (V4 m) c).arrAt_in 0 rfl _).trans (A_eq1 (V4 m) c 0))
    _ = W3 m c (Proc.devRef .tc main_arg0) := keeps_part1_ops0 _ _ (.inl rfl)
    _ = W2 m c (Proc.devRef .tc main_arg0) := keeps_part0_ops1 _ _ (.inl rfl)
    _ = W1 m c (Proc.devRef .tc main_arg0) := (W2_arr m c 0).trans (((dat0 (V1 m) c).arrAt_in 0 rfl _).trans (A_eq0 (V1 m) c 0))
    _ = W0 m c (Proc.devRef .tc main_arg0) := keeps_part0_ops0 _ _ (.inl rfl)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := keeps_part1_ops0 _ _ (.inr (.inl rfl))
    _ = W2 m c (Proc.devRef .tc main_arg1) := keeps_part0_ops1 _ _ (.inr (.inl rfl))
    _ = W1 m c (Proc.devRef .tc main_arg1) := W2_of_ne m c main_arg1 (by decide)
    _ = W0 m c (Proc.devRef .tc main_arg1) := keeps_part0_ops0 _ _ (.inr (.inl rfl))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := keeps_part1_ops0 _ _ (.inr (.inr (.inl rfl)))
    _ = W2 m c (Proc.devRef .tc main_arg2) := keeps_part0_ops1 _ _ (.inr (.inr (.inl rfl)))
    _ = W1 m c (Proc.devRef .tc main_arg2) := W2_of_ne m c main_arg2 (by decide)
    _ = W0 m c (Proc.devRef .tc main_arg2) := keeps_part0_ops0 _ _ (.inr (.inr (.inl rfl)))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := keeps_part1_ops0 _ _ (.inr (.inr (.inr rfl)))
    _ = W2 m c (Proc.devRef .tc main_arg3) := keeps_part0_ops1 _ _ (.inr (.inr (.inr rfl)))
    _ = W1 m c (Proc.devRef .tc main_arg3) := W2_of_ne m c main_arg3 (by decide)
    _ = W0 m c (Proc.devRef .tc main_arg3) := keeps_part0_ops0 _ _ (.inr (.inr (.inr rfl)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Each launch's proof data at the contents its launch is entered with: the first at W1, the second at W4. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and its
    tally of what it owes, at nothing. -/
abbrev R (c : Dev nD) : sProp 𝕄 := iprop((∃ r, prngReg c r) ∗ ∃ W, owes (c : Thread nD τ) (0 : CellTallies nD τ sig Unit) W)
/-- A stretch of host operations as a segment: over the unscoped buffers from the contents W to the contents after
    the operations, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tally: every unscoped buffer at W5, the random-number register at some state. -/
abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- The first launch over the thread state: entered from every unscoped buffer at W1, left at W2. Its arrays are split
    out of the unscoped buffers and put back at the exit contents; the random-number register goes into the launch's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at W4, left at W5 — the last thread
    state beside the core owing nothing. The same four entailments as the first launch's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch of the program -/

/-- @main's five segments in order: a host segment per stretch of operations from its boundary's contents, a region
    per launch. -/
abbrev segs : List (Pipeline.Seg (pcfgs (F := F)) adm (pdats m) () defs₀ 𝒱₀ L lv) :=
  [ .host (hseg main_part0_ops0 main_part0_ops0_sub main_part0_ops0_fresh (W0 m)),
    .region (reg0 m),
    .host (hseg main_part0_ops1 main_part0_ops1_sub main_part0_ops1_fresh (W2 m)),
    .host (hseg main_part1_ops0 main_part1_ops0_sub main_part1_ops0_fresh (W3 m)),
    .region (reg1 m) ]

/-- @main is the run of the segments: it is the chain of its five items, and so is the segments' run. -/
theorem main_run (c : Dev nD) : main (F := F) c = Pipeline.Seg.run (segs m) := by
  rewrite [main_chain_windows c, Pipeline.Seg.run_eq_chain,
    show (segs m).map Pipeline.Seg.prog = [
      StableHlo.seq main_part0_ops0,
      Prog.lift (.customCall (Pipeline.entry 0) ()),
      StableHlo.seq main_part0_ops1,
      StableHlo.seq main_part1_ops0,
      Prog.lift (.customCall (Pipeline.entry 1) ()) ] from rfl]
  rfl

set_option backward.isDefEq.respectTransparency.types false in
/-- The run: at the compiled mesh, from any memory with zero counters, every weakly fair execution of @main on the
    TensorCores terminates, nothing faulting, and the final memory agrees with W5 at every unscoped buffer of every
    core. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: every weakly fair execution of @main terminates, nothing faulting, and every final memory has the four
    argument arrays as launched — the run's post read at each argument's buffer, which the fold walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (run_main m ρ).mono fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩

end Cert.KernelIdeal.Hand

end
-- ==== Proof.KI.Entry.lean ====
/-
  What the launches find on entry, over the extended reals: the one host operation before the first launch only reshapes the
  segment ids [200000] into a column [200000, 1]; it writes no argument, and the first launch writes neither the weight nor
  the bias (it does not read them).
-/
import proofs.«412429_j58076547777199_3_alg».proof.Proof.KI.RunDefs
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal.Gen

variable (m : (ℓ : Loc nD τ sig) → Buf (Elt Ideal) ℓ)

/-- The segment ids on core `c` as a plain function of the row. -/
abbrev sk (c : Dev nD) : Fin 200000 → BitVec 32 := fun n => (m ((c : Thread nD τ).loc main_arg1) : IVec S200000 32) (ix1 n)

/-- The reshape writes the column of ids only: the tile array is as launched. -/
theorem V1_arg0 (c : Dev nD) : V1 m c main_arg0 = m ((c : Thread nD τ).loc main_arg0) := by
  show StableHlo.after main_part0_ops0 (W0 m c) (Proc.devRef .tc main_arg0) = _
  after_results

/-- The column of ids at row `n` is the id of row `n`: entry (n, 0) of [200000, 1] and entry n of [200000] have the
    same row-major position, n · 1 + 0 = n. -/
theorem V1_v0 (c : Dev nD) (n : Fin 200000) : (V1 m c main_v0 : IVec S200000x1 32) (ix2 n 0) = sk m c n := by
  show (StableHlo.after main_part0_ops0 (W0 m c) (Proc.devRef .tc main_v0) : IVec S200000x1 32) (ix2 n 0) = _
  after_results
  show shapeCast S200000x1 (m ((c : Thread nD τ).loc main_arg1) : IVec S200000 32) shapeCasts_S200000_S200000x1 (ix2 n 0) = _
  exact shapeCast_apply _ _ _ (ix1 n) (by
    rw [Shape.rowMajor_val_one, Shape.rowMajor_val_two]
    show n.val = n.val * 1 + 0
    omega)

/-- The weight is no array of the first launch and the reshape does not write it: after the first launch it is as
    launched. -/
theorem W2_arg2 (c : Dev nD) : W2 m c (Proc.devRef .tc main_arg2) = m ((c : Thread nD τ).loc main_arg2) := by
  refine (W2_of_ne m c main_arg2 (by decide)).trans ?_
  show StableHlo.after main_part0_ops0 (W0 m c) (Proc.devRef .tc main_arg2) = _
  after_results

/-- Likewise the bias. -/
theorem W2_arg3 (c : Dev nD) : W2 m c (Proc.devRef .tc main_arg3) = m ((c : Thread nD τ).loc main_arg3) := by
  refine (W2_of_ne m c main_arg3 (by decide)).trans ?_
  show StableHlo.after main_part0_ops0 (W0 m c) (Proc.devRef .tc main_arg3) = _
  after_results

end Cert.KernelIdeal.Hand

end
-- ==== Proof.Spec.lean ====
/-
  The mathematics both programs compute, over the extended reals, on plain index types.

  Rows n < 200000 carry a segment id s n (a 32-bit word) naming one of 64 graphs; `oh (s n) g` is 1 when row n is of
  graph g and 0 otherwise, and `segsum s f g` is the sum of f over the rows of graph g. Columns come in three groups:
  128 scalar columns j < 128; 64 triples, column 128 + 3 i + k; 32 quintuples, column 320 + 5 i + k.

  One program gathers its statistics from per-half accumulators A2, A3, A4 (sums, sums of squares, counts over rows
  < 100000 and rows ≥ 100000) into per-graph tables of 480 columns: `tmeanFull` (the mean of a scalar column, zero
  elsewhere) and `tscaleFull` (the inverse root of the variance — second moment minus squared mean, clamped at zero —
  of a scalar column, or of the mean square of a triple or quintuple, times the column group's weight).
  The other computes, per row, the mean of its graph, the deviation, the graph's mean squared deviation, and the same
  inverse root and weight (`rout`).
-/
import Idealize.ShloMosaic.PureOps.Ideal
import Idealize.ShloMosaic.Lib.ValueIdx

noncomputable section

open scoped BigOperators

namespace Cert.Spec

open Idealize.ShloMosaic

/-- 1 when the word is the graph's number, else 0. -/
def oh (s : BitVec 32) (g : Fin 64) : EReal := if s = BitVec.ofNat 32 g.val then 1 else 0

/-- The sum of `f` over the rows whose segment id is graph `g`. -/
def segsum (s : Fin 200000 → BitVec 32) (f : Fin 200000 → EReal) (g : Fin 64) : EReal := ∑ n : Fin 200000, oh (s n) g * f n

/-- The float literals both programs carry, as their words. -/
def eps : EReal := Ideal.ofBits .f32 0x3727C5AC#32
def nhalf : EReal := Ideal.ofBits .f32 0xBF000000#32
def three : EReal := Ideal.ofBits .f32 0x40400000#32
def five : EReal := Ideal.ofBits .f32 0x40A00000#32

/-- Column 128 + 3 i + k of a triple, column 320 + 5 i + k of a quintuple, a scalar column as one of the 480. -/
def col3 (i : Fin 64) (k : Fin 3) : Fin 480 := ⟨128 + 3 * i.val + k.val, by omega⟩
def col5 (i : Fin 32) (k : Fin 5) : Fin 480 := ⟨320 + 5 * i.val + k.val, by omega⟩
def col1 (j : Fin 128) : Fin 480 := ⟨j.val, by omega⟩
/-- The weight's entry of a triple's and of a quintuple's multiplicity. -/
def wcol1 (j : Fin 128) : Fin 224 := ⟨j.val, by omega⟩
def wcol3 (i : Fin 64) : Fin 224 := ⟨128 + i.val, by omega⟩
def wcol5 (i : Fin 32) : Fin 224 := ⟨192 + i.val, by omega⟩

/-! ## From the per-half accumulators to the per-graph tables -/

section Tables

variable (A2 : Fin 2 → Fin 64 → Fin 128 → EReal) (A3 : Fin 2 → Fin 64 → Fin 480 → EReal) (A4 : Fin 2 → Fin 64 → EReal)
variable (w : Fin 224 → EReal) (b : Fin 128 → EReal)

def tsum (g : Fin 64) (j : Fin 128) : EReal := 0 + ∑ h : Fin 2, A2 h g j
def tsq (g : Fin 64) (j : Fin 480) : EReal := 0 + ∑ h : Fin 2, A3 h g j
def tcnt (g : Fin 64) : EReal := max (0 + ∑ h : Fin 2, A4 h g) 1
def tmean (g : Fin 64) (j : Fin 128) : EReal := Ideal.div (tsum A2 g j) (tcnt A4 g)
def tvar (g : Fin 64) (j : Fin 128) : EReal :=
  max (Ideal.div (tsq A3 g (col1 j)) (tcnt A4 g) - tmean A2 A4 g j * tmean A2 A4 g j) 0
def tm3 (g : Fin 64) (i : Fin 64) : EReal :=
  Ideal.div (Ideal.div (0 + ∑ k : Fin 3, tsq A3 g (col3 i k)) three) (tcnt A4 g)
def tm5 (g : Fin 64) (i : Fin 32) : EReal :=
  Ideal.div (Ideal.div (0 + ∑ k : Fin 5, tsq A3 g (col5 i k)) five) (tcnt A4 g)

/-- The table of means: a scalar column's mean, zero in every other column. -/
def tmeanFull (g : Fin 64) (j : Fin 480) : EReal :=
  if h : j.val < 128 then tmean A2 A4 g ⟨j.val, h⟩ else 0

/-- The table of scales, by column group. -/
def tscaleFull (g : Fin 64) (j : Fin 480) : EReal :=
  if h : j.val < 128 then Ideal.pow (tvar A2 A3 A4 g ⟨j.val, h⟩ + eps) nhalf * w (wcol1 ⟨j.val, h⟩)
  else if h' : j.val < 320 then
    Ideal.pow (tm3 A3 A4 g ⟨(j.val - 128) / 3, by omega⟩ + eps) nhalf * w (wcol3 ⟨(j.val - 128) / 3, by omega⟩)
  else
    Ideal.pow (tm5 A3 A4 g ⟨(j.val - 320) / 5, by have := j.isLt; omega⟩ + eps) nhalf * w (wcol5 ⟨(j.val - 320) / 5, by have := j.isLt; omega⟩)

/-- The shift row: the bias on a scalar column, zero elsewhere. -/
def tbiasFull (j : Fin 480) : EReal := if h : j.val < 128 then b ⟨j.val, h⟩ else 0

end Tables

/-- What the second launch computes at row n, column j, from the row's entry, its segment id and five tables: the
    entry minus the one-hot row's products with the two mean tables, times its products with the two scale tables,
    plus the shift. -/
def kout (xnj : EReal) (sn : BitVec 32) (T2 T3 T4 T5 : Fin 64 → EReal) (t6 : EReal) : EReal :=
  (xnj - ((∑ g : Fin 64, oh sn g * T2 g) + ∑ g : Fin 64, oh sn g * T3 g))
    * ((∑ g : Fin 64, oh sn g * T4 g) + ∑ g : Fin 64, oh sn g * T5 g) + t6

/-! ## The per-row computation of the other program -/

section Rows

variable (x : Fin 200000 → Fin 480 → EReal) (s : Fin 200000 → BitVec 32) (w : Fin 224 → EReal) (b : Fin 128 → EReal)

/-- The table row a gather by the segment id reads: a negative id wrapped by 64, then clamped into 0..63. -/
def grow (sn : BitVec 32) : Fin 64 :=
  let v : Int := (if sn.slt 0 then sn + 64 else sn).toInt
  ⟨(max 0 (min v 63)).toNat, by omega⟩

def rcnt (g : Fin 64) : EReal := max (0 + segsum s (fun _ => 1) g) 1
def rmean (g : Fin 64) (j : Fin 128) : EReal := Ideal.div (0 + segsum s (fun n => x n (col1 j)) g) (rcnt s g)
/-- A scalar entry minus the mean of its row's graph. -/
def dev (n : Fin 200000) (j : Fin 128) : EReal := x n (col1 j) - rmean x s (grow (s n)) j
def rvar (g : Fin 64) (j : Fin 128) : EReal :=
  Ideal.div (0 + segsum s (fun n => Ideal.div (0 + ∑ _k : Fin 1, dev x s n j * dev x s n j) 1) g) (rcnt s g)
def rm3 (g : Fin 64) (i : Fin 64) : EReal :=
  Ideal.div (0 + segsum s (fun n => Ideal.div (0 + ∑ k : Fin 3, x n (col3 i k) * x n (col3 i k)) three) g) (rcnt s g)
def rm5 (g : Fin 64) (i : Fin 32) : EReal :=
  Ideal.div (0 + segsum s (fun n => Ideal.div (0 + ∑ k : Fin 5, x n (col5 i k) * x n (col5 i k)) five) g) (rcnt s g)

/-- The result at row n, by column group. -/
def rout1 (n : Fin 200000) (j : Fin 128) : EReal :=
  dev x s n j * (Ideal.pow (rvar x s (grow (s n)) j + eps) nhalf * w (wcol1 j)) + b j
def rout3 (n : Fin 200000) (i : Fin 64) (k : Fin 3) : EReal :=
  x n (col3 i k) * (Ideal.pow (rm3 x s (grow (s n)) i + eps) nhalf * w (wcol3 i))
def rout5 (n : Fin 200000) (i : Fin 32) (k : Fin 5) : EReal :=
  x n (col5 i k) * (Ideal.pow (rm5 x s (grow (s n)) i + eps) nhalf * w (wcol5 i))

def rout (n : Fin 200000) (j : Fin 480) : EReal :=
  if h : j.val < 128 then rout1 x s w b n ⟨j.val, h⟩
  else if h' : j.val < 320 then rout3 x s w n ⟨(j.val - 128) / 3, by omega⟩ ⟨(j.val - 128) % 3, Nat.mod_lt _ (by decide)⟩
  else rout5 x s w n ⟨(j.val - 320) / 5, by have := j.isLt; omega⟩ ⟨(j.val - 320) % 5, Nat.mod_lt _ (by decide)⟩

end Rows

end Cert.Spec

end
-- ==== Proof.Consts.lean ====
/-
  The float words this certificate's programs spell, as the extended reals they denote: one module states them all.
  0.0 is 0, 1.0 is 1, 3.0 is 3, 5.0 is 5, -0.5 is -1/2, and the small additive constant is a positive real.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_five : Ideal.ofBits .f32 0x40A00000#32 = ((5 : ℝ) : EReal) := by
  simp [Ideal.ofBits, Ideal.ieee, -EReal.coe_mul]; norm_num

theorem ofBits_nhalf : Ideal.ofBits .f32 0xBF000000#32 = ((-(1 / 2) : ℝ) : EReal) := by
  simp [Ideal.ofBits, Ideal.ieee, -EReal.coe_mul]; norm_num

/-- The additive constant under the root is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.Consts

end
-- ==== Proof.KI.RegAValueAux.lean ====
/-
  The first launch's three result arrays as what the last point of each half left in the accumulators: block h of a
  result array is written back once, after step 49 of half h, and the two blocks fill the array. And the launch writes
  neither of the two arrays it reads.
-/
import proofs.«412429_j58076547777199_3_alg».proof.Proof.KI.RegADefs
import proofs.«412429_j58076547777199_3_alg».proof.Proof.Spec
import proofs.«412429_j58076547777199_3_alg».proof.Proof.Consts
import Idealize.ShloMosaic.Lib.Pipeline.Value
import Idealize.ShloMosaic.Lib.ValueIdx
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

variable (V : (c : Dev nD) → (b : Ref sig .tc) → Buf (Elt Ideal) ((c : Thread nD τ).loc b))

/-- The last point of half h is a point of the grid. -/
theorem lastA_lt (h : Fin 2) : 50 * h.val + 49 < cfg0.N := by
  have := h.isLt
  rw [show cfg0.N = 100 from N_0]; omega

/-- The accumulators at equal positions are equal. -/
theorem accAt0_congr (c : Dev nD) {n n' : ℕ} (hn : n < cfg0.N) (hn' : n' < cfg0.N) (e : n = n') :
    accAt0 V c n hn = accAt0 V c n' hn' := by
  subst e; rfl

/-- The result blocks' places, decided over the grid: at point t each of the three result windows is on block
    t / 50 (the half) along the first axis, and on its one block along the other two. -/
theorem blockIndexA : ∀ t : Fin cfg0.N,
    win0_2.index t (0 : Fin 3) = t.val / 50 ∧ win0_2.index t (1 : Fin 3) = 0 ∧ win0_2.index t (2 : Fin 3) = 0
    ∧ win0_3.index t (0 : Fin 3) = t.val / 50 ∧ win0_3.index t (1 : Fin 3) = 0 ∧ win0_3.index t (2 : Fin 3) = 0
    ∧ win0_4.index t (0 : Fin 3) = t.val / 50 ∧ win0_4.index t (1 : Fin 3) = 0 ∧ win0_4.index t (2 : Fin 3) = 0 :=
  (by decide +kernel : ∀ t : Fin grid0.N, _)

/-! ### Window 2: the sums -/

/-- The result array as one function of the accumulators: block h is what the last point of half h left. -/
def resA2 (c : Dev nD) : FVec Ideal S2x64x128 .f32 := fun i =>
  (accAt0 V c (50 * (i 0).val + 49) (lastA_lt (i 0))).1 (ix3 (n0 := 1) (n1 := 64) (n2 := 128) 0 (i 1) (i 2))

/-- WHAT A POINT THAT WRITES BACK writes back (the last point of a half) is its block of that function. -/
theorem flushedA2 (c : Dev nD) (t : Fin cfg0.N) (hf : (cfg0.win 2).flush t = true) :
    (dat0 V c).flushed 2 t = ((cfg0.win 2).blk t).view.read (Elt Ideal) (resA2 V c) := by
  have h49 : t.val % 50 = 49 := (flush0_2 t).mp hf
  show (cfg0.win 2).cut (grid0.coords t) ((dat0 V c).after 2 t) = _
  rw [after0_2]
  funext y
  show (accAt0 V c t.val t.isLt).1 y = resA2 V c (((cfg0.win 2).blk t).view.emb y)
  obtain ⟨e0, e1, e2, -⟩ := blockIndexA t
  have hy0 : (y 0).val < 1 := (y 0).isLt
  have h0 : ((((cfg0.win 2).blk t).view.emb y) 0).val = t.val / 50 := by
    show win0_2.index t (0 : Fin 3) * 1 + 1 * (y 0).val = _
    rw [e0]; omega
  have h1 : ((((cfg0.win 2).blk t).view.emb y) 1).val = (y 1).val := by
    show win0_2.index t (1 : Fin 3) * 64 + 1 * (y 1).val = _
    rw [e1]; omega
  have h2 : ((((cfg0.win 2).blk t).view.emb y) 2).val = (y 2).val := by
    show win0_2.index t (2 : Fin 3) * 128 + 1 * (y 2).val = _
    rw [e2]; omega
  unfold resA2
  have hn : t.val = 50 * ((((cfg0.win 2).blk t).view.emb y) 0).val + 49 := by rw [h0]; omega
  have hy : (y : S1x64x128.Idx) = ix3 (n0 := 1) (n1 := 64) (n2 := 128) 0 ((((cfg0.win 2).blk t).view.emb y) 1) ((((cfg0.win 2).blk t).view.emb y) 2) := by
    funext a; apply Fin.ext
    match a with
    | ⟨0, _⟩ => show (y 0).val = 0; omega
    | ⟨1, _⟩ => exact h1.symm
    | ⟨2, _⟩ => exact h2.symm
  exact (congrArg (fun a : Acc Ideal => a.1 y) (accAt0_congr V c t.isLt (lastA_lt _) hn)).trans
    (congrArg (accAt0 V c _ (lastA_lt _)).1 hy)

/-- An index of the result array is in point t's block iff each coordinate is in the block's range on its axis. -/
theorem mem_blkA2 (t : Fin cfg0.N) (i : S2x64x128.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v1_0).slice (win0_2.rect t)).set ↔ _
  rw [View.set_slice_whole, Rect.mem_set_unit]
  exact Iff.rfl

/-- Every index is in the block of its half's last point. -/
theorem coverA2 (i : S2x64x128.Idx) :
    ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 128 := (i 2).isLt
  have ht : 50 * (i 0).val + 49 < cfg0.N := lastA_lt (i 0)
  refine ⟨⟨50 * (i 0).val + 49, ht⟩, (flush0_2 _).mpr (by show (50 * (i 0).val + 49) % 50 = 49; omega), ?_⟩
  rw [mem_blkA2]
  obtain ⟨e0, e1, e2, -⟩ := blockIndexA ⟨50 * (i 0).val + 49, ht⟩
  intro a
  match a with
  | ⟨0, _⟩ =>
    show win0_2.index ⟨50 * (i 0).val + 49, ht⟩ (0 : Fin 3) * 1 ≤ (i 0).val ∧ (i 0).val < win0_2.index ⟨50 * (i 0).val + 49, ht⟩ (0 : Fin 3) * 1 + 1
    rw [e0]; show (50 * (i 0).val + 49) / 50 * 1 ≤ (i 0).val ∧ (i 0).val < (50 * (i 0).val + 49) / 50 * 1 + 1; omega
  | ⟨1, _⟩ =>
    show win0_2.index ⟨50 * (i 0).val + 49, ht⟩ (1 : Fin 3) * 64 ≤ (i 1).val ∧ (i 1).val < win0_2.index ⟨50 * (i 0).val + 49, ht⟩ (1 : Fin 3) * 64 + 64
    rw [e1]; omega
  | ⟨2, _⟩ =>
    show win0_2.index ⟨50 * (i 0).val + 49, ht⟩ (2 : Fin 3) * 128 ≤ (i 2).val ∧ (i 2).val < win0_2.index ⟨50 * (i 0).val + 49, ht⟩ (2 : Fin 3) * 128 + 128
    rw [e2]; omega

/-- THE RESULT ARRAY after the run is that function of the accumulators. -/
theorem finalA2 (c : Dev nD) : (dat0 V c).arrAt 2 cfg0.N = resA2 V c :=
  (dat0 V c).arrAt_eq_of_cover 2 (resA2 V c) (flushedA2 V c) coverA2

/-! ### Window 3: the sums of squares -/

/-- The result array as one function of the accumulators: block h is what the last point of half h left. -/
def resA3 (c : Dev nD) : FVec Ideal S2x64x480 .f32 := fun i =>
  (accAt0 V c (50 * (i 0).val + 49) (lastA_lt (i 0))).2.1 (ix3 (n0 := 1) (n1 := 64) (n2 := 480) 0 (i 1) (i 2))

/-- WHAT A POINT THAT WRITES BACK writes back (the last point of a half) is its block of that function. -/
theorem flushedA3 (c : Dev nD) (t : Fin cfg0.N) (hf : (cfg0.win 3).flush t = true) :
    (dat0 V c).flushed 3 t = ((cfg0.win 3).blk t).view.read (Elt Ideal) (resA3 V c) := by
  have h49 : t.val % 50 = 49 := (flush0_3 t).mp hf
  show (cfg0.win 3).cut (grid0.coords t) ((dat0 V c).after 3 t) = _
  rw [after0_3]
  funext y
  show (accAt0 V c t.val t.isLt).2.1 y = resA3 V c (((cfg0.win 3).blk t).view.emb y)
  obtain ⟨-, -, -, e0, e1, e2, -⟩ := blockIndexA t
  have hy0 : (y 0).val < 1 := (y 0).isLt
  have h0 : ((((cfg0.win 3).blk t).view.emb y) 0).val = t.val / 50 := by
    show win0_3.index t (0 : Fin 3) * 1 + 1 * (y 0).val = _
    rw [e0]; omega
  have h1 : ((((cfg0.win 3).blk t).view.emb y) 1).val = (y 1).val := by
    show win0_3.index t (1 : Fin 3) * 64 + 1 * (y 1).val = _
    rw [e1]; omega
  have h2 : ((((cfg0.win 3).blk t).view.emb y) 2).val = (y 2).val := by
    show win0_3.index t (2 : Fin 3) * 480 + 1 * (y 2).val = _
    rw [e2]; omega
  unfold resA3
  have hn : t.val = 50 * ((((cfg0.win 3).blk t).view.emb y) 0).val + 49 := by rw [h0]; omega
  have hy : (y : S1x64x480.Idx) = ix3 (n0 := 1) (n1 := 64) (n2 := 480) 0 ((((cfg0.win 3).blk t).view.emb y) 1) ((((cfg0.win 3).blk t).view.emb y) 2) := by
    funext a; apply Fin.ext
    match a with
    | ⟨0, _⟩ => show (y 0).val = 0; omega
    | ⟨1, _⟩ => exact h1.symm
    | ⟨2, _⟩ => exact h2.symm
  exact (congrArg (fun a : Acc Ideal => a.2.1 y) (accAt0_congr V c t.isLt (lastA_lt _) hn)).trans
    (congrArg (accAt0 V c _ (lastA_lt _)).2.1 hy)

/-- An index of the result array is in point t's block iff each coordinate is in the block's range on its axis. -/
theorem mem_blkA3 (t : Fin cfg0.N) (i : S2x64x480.Idx) :
    i ∈ ((cfg0.win 3).blk t).view.set ↔ ∀ a : Fin 3, win0_3.index t a * S1x64x480.size a ≤ (i a).val ∧ (i a).val < win0_3.index t a * S1x64x480.size a + S1x64x480.size a := by
  show i ∈ ((View.whole main_v1_1).slice (win0_3.rect t)).set ↔ _
  rw [View.set_slice_whole, Rect.mem_set_unit]
  exact Iff.rfl

/-- Every index is in the block of its half's last point. -/
theorem coverA3 (i : S2x64x480.Idx) :
    ∃ t : Fin cfg0.N, (cfg0.win 3).flush t = true ∧ i ∈ ((cfg0.win 3).blk t).view.set := by
  have hi0 : (i 0).val < 2 := (i 0).isLt
  have hi1 : (i 1).val < 64 := (i 1).isLt
  have hi2 : (i 2).val < 480 := (i 2).isLt
  have ht : 50 * (i 0).val + 49 < cfg0.N := lastA_lt (i 0)
  refine ⟨⟨50 * (i 0).val + 49, ht⟩, (flush0_3 _).mpr (by show (50 * (i 0).val + 49) % 50 = 49; omega), ?_⟩
  rw [mem_blkA3]
  obtain ⟨-, -, -, e0, e1, e2, -⟩ := blockIndexA ⟨50 * (i 0).val + 49, ht⟩
  intro a
  match a with
  | ⟨0, _⟩ =>
    show win0_3.index ⟨50 * (i 0).val + 49, ht⟩ (0 : Fin 3) * 1 ≤ (i 0).val ∧ (i 0).val < win0_3.index ⟨50 * (i 0).val + 49, ht⟩ (0 : Fin 3) * 1 + 1
    rw [e0]; show (50 * (i 0).val + 49) / 50 * 1 ≤ (i 0).val ∧ (i 0).val < (50 * (i 0).val + 49) / 50 * 1 + 1; omega
  | ⟨1, _⟩ =>
    show win0_3.index ⟨50 * (i 0).val + 49, ht⟩ (1 : Fin 3) * 64 ≤ (i 1).val ∧ (i 1).val < win0_3.index ⟨50 * (i 0).val + 49, ht⟩ (1 : Fin 3) * 64 + 64
    rw [e1]; omega
  | ⟨2, _⟩ =>
    show win0_3.index ⟨50 * (i 0).val + 49, ht⟩ (2 : Fin 3) * 480 ≤ (i 2).val ∧ (i 2).val < win0_3.index ⟨50 * (i 0).val + 49, ht⟩ (2 : Fin 3) * 480 + 480
    rw [e2]; omega

/-- THE RESULT ARRAY after the run is that function of the accumulators. -/
theorem finalA3 (c : Dev nD) : (dat0 V c).arrAt 3 cfg0.N = resA3 V c :=
  (dat0 V c).arrAt_eq_of_cover 3 (resA3 V c) (flushedA3 V c) coverA3

/-! ### Window 4: the counts -/

/-- The result array as one function of the accumulators: block h is what the last point of half h left. -/
def resA4 (c : Dev nD) : FVec Ideal S2x64x1 .f32 := fun i =>
  (accAt0 V c (50 * (i 0).val + 49) (lastA_lt (i 0))).2.2 (ix3 (n0 := 1) (n1 := 64) (n2 := 1) 0 (i 1) (i 2))

/-- WHAT A POINT THAT WRITES BACK writes back (the last point of a half) is its block of that function. -/
theorem flushedA4 (c : Dev nD) (t : Fin cfg0.N) (hf : (cfg0.win 4).flush t = true) :
    (dat0 V c).flushed 4 t = ((cfg0.win 4).blk t).view.read (Elt Ideal) (resA4 V c) := by
  have h49 : t.val % 50 = 49 := (flush0_4 t).mp hf
  show (cfg0.win 4).cut (grid0.coords t) ((dat0 V c).after 4 t) = _
  rw [after0_4]
  funext y
  show (accAt0 V c t.val t.isLt).2.2 y = resA4 V c (((cfg0.win 4).blk t).view.emb y)
  obtain ⟨-, -, -, -, -, -, e0, e1, e2⟩ := blockIndexA t
  have hy0 : (y 0).val < 1 := (y 0).isLt
  have h0 : ((((cfg0.win 4).blk t).view.emb y) 0).val = t.val / 50 := by
    show win0_4.index t (0 : Fin 3) * 1 + 1 * (y 0).val = _
    rw [e0]; omega
  have h1 : ((((cfg0.win 4).blk t).view.emb y) 1).val = (y 1).val := by
    show win0_4.index t (1 : Fin 3) * 64 + 1 * (y 1).val = _
    rw [e1]; omega
  have h2 : ((((cfg0.win 4).blk t).view.emb y) 2).val = (y 2).val := by
    show win0_4.index t (2 : Fin 3) * 1 + 1 * (y 2).val = _
    rw [e2]; omega
  unfold resA4
  have hn : t.val = 50 * ((((cfg0.win 4).blk t).view.emb y) 0).val + 49 := by rw [h0]; omega
  have hy : (y : S1x64x1.Idx) = ix3 (n0 := 1) (n1 := 64) (n2 := 1) 0 ((((cfg0.win 4).blk t).view.emb y) 1) ((((cfg0.win 4).blk t).view.emb y) 2) := by
    funext a; apply Fin.ext
    match a with
    | ⟨0, _⟩ => show (y 0).val = 0; omega
    | ⟨1, _⟩ => exact h1.symm
    | ⟨2, _⟩ => exact h2.symm
  exact (congrArg (fun a : Acc Ideal => a.2.2 y) (accAt0_congr V c t.isLt (lastA_lt _) hn)).trans
    (congrArg (accAt0 V c _ (lastA_lt _)).2.2 hy)

/-- An index of the result array is in point t's block iff each coordinate is in the block's range on its axis. -/
theorem mem_blkA4 (t : Fin cfg0.N) (i : S2x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v1_2).slice (win0_4.rect t)).set ↔ _
  rw [View.set_slice_whole, Rect.mem_set_unit]
  exact Iff.rfl

/-- Every index is in the block of its half's last point. -/
theorem coverA4 (i : S2x64x1.Idx) :
    ∃ t : Fin cfg0.N, (cfg0.win 4).flush t = true ∧ i ∈ ((cfg0.win 4).blk t).view.set := by
  have hi0 : (i 0).val < 2 := (i 0).isLt
  have hi1 : (i 1).val < 64 := (i 1).isLt
  have hi2 : (i 2).val < 1 := (i 2).isLt
  have ht : 50 * (i 0).val + 49 < cfg0.N := lastA_lt (i 0)
  refine ⟨⟨50 * (i 0).val + 49, ht⟩, (flush0_4 _).mpr (by show (50 * (i 0).val + 49) % 50 = 49; omega), ?_⟩
  rw [mem_blkA4]
  obtain ⟨-, -, -, -, -, -, e0, e1, e2⟩ := blockIndexA ⟨50 * (i 0).val + 49, ht⟩
  intro a
  match a with
  | ⟨0, _⟩ =>
    show win0_4.index ⟨50 * (i 0).val + 49, ht⟩ (0 : Fin 3) * 1 ≤ (i 0).val ∧ (i 0).val < win0_4.index ⟨50 * (i 0).val + 49, ht⟩ (0 : Fin 3) * 1 + 1
    rw [e0]; show (50 * (i 0).val + 49) / 50 * 1 ≤ (i 0).val ∧ (i 0).val < (50 * (i 0).val + 49) / 50 * 1 + 1; omega
  | ⟨1, _⟩ =>
    show win0_4.index ⟨50 * (i 0).val + 49, ht⟩ (1 : Fin 3) * 64 ≤ (i 1).val ∧ (i 1).val < win0_4.index ⟨50 * (i 0).val + 49, ht⟩ (1 : Fin 3) * 64 + 64
    rw [e1]; omega
  | ⟨2, _⟩ =>
    show win0_4.index ⟨50 * (i 0).val + 49, ht⟩ (2 : Fin 3) * 1 ≤ (i 2).val ∧ (i 2).val < win0_4.index ⟨50 * (i 0).val + 49, ht⟩ (2 : Fin 3) * 1 + 1
    rw [e2]; omega

/-- THE RESULT ARRAY after the run is that function of the accumulators. -/
theorem finalA4 (c : Dev nD) : (dat0 V c).arrAt 4 cfg0.N = resA4 V c :=
  (dat0 V c).arrAt_eq_of_cover 4 (resA4 V c) (flushedA4 V c) coverA4

/-! ## The three result arrays, entry by entry -/

theorem arrA_sum (c : Dev nD) (h : Fin 2) (g : Fin 64) (j : Fin 128) :
    ((dat0 V c).arrAt 2 cfg0.N : FVec Ideal S2x64x128 .f32) (ix3 h g j)
      = (accAt0 V c (50 * h.val + 49) (lastA_lt h)).1 (ix3 0 g j) :=
  congrFun (finalA2 V c) (ix3 h g j)

theorem arrA_sq (c : Dev nD) (h : Fin 2) (g : Fin 64) (j : Fin 480) :
    ((dat0 V c).arrAt 3 cfg0.N : FVec Ideal S2x64x480 .f32) (ix3 h g j)
      = (accAt0 V c (50 * h.val + 49) (lastA_lt h)).2.1 (ix3 0 g j) :=
  congrFun (finalA3 V c) (ix3 h g j)

theorem arrA_cnt (c : Dev nD) (h : Fin 2) (g : Fin 64) (j : Fin 1) :
    ((dat0 V c).arrAt 4 cfg0.N : FVec Ideal S2x64x1 .f32) (ix3 h g j)
      = (accAt0 V c (50 * h.val + 49) (lastA_lt h)).2.2 (ix3 0 g j) :=
  congrFun (finalA4 V c) (ix3 h g j)

/-! ## The launch writes none of its two input arrays -/

theorem arrA_arg0 (c : Dev nD) : (dat0 V c).arrAt 0 cfg0.N = V c main_arg0 :=
  ((dat0 V c).arrAt_in 0 rfl _).trans (A_eq0 V c 0)
theorem arrA_v0 (c : Dev nD) : (dat0 V c).arrAt 1 cfg0.N = V c main_v0 :=
  ((dat0 V c).arrAt_in 1 rfl _).trans (A_eq0 V c 1)

end Cert.KernelIdeal.Hand

end
-- ==== Proof.KI.RegAValue.lean ====
/-
  What the first launch leaves in its three result arrays, over the extended reals: for half h, graph g and a column,
  the sum over the half's 50 tiles and each tile's 2000 rows of the one-hot entry of the row's segment id at g times the
  row's entry (sums), times its square (sums of squares), times one (counts).

  One point's update adds, to each accumulator entry, the one-hot matrix of the tile's segment ids contracted over the
  tile's rows with the tile's columns (a product contracted over the first axis of both factors, read at an entry as a
  sum over the rows); the tile at point t is rows 2000 t .. 2000 t + 1999 of the input; so by induction on the step
  inside a half the accumulators after step i hold the sum over the tiles 0 .. i of the half; and the result arrays'
  block h is what the half's last point left.
-/
import proofs.«412429_j58076547777199_3_alg».proof.Proof.KI.RegADefs
import proofs.«412429_j58076547777199_3_alg».proof.Proof.KI.RegAValueAux
import proofs.«412429_j58076547777199_3_alg».proof.Proof.Spec
import proofs.«412429_j58076547777199_3_alg».proof.Proof.Consts
import Idealize.ShloMosaic.Lib.Pipeline.Value
import Idealize.ShloMosaic.Lib.ValueIdx
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

/-- A product contracted over the FIRST axis of both factors, [K, M] and [K, C] into [M, C], accumulated into zero:
    entry (a, b) is the sum over c of A (c, a) * B (c, b). -/
theorem matmulT_apply {K M C : Nat} (w : DotDims.WF ⟨2, ![K, M]⟩ ⟨2, ![K, C]⟩ ⟨2, ![M, C]⟩ [0] [0] [1] [1] [] [])
    (A : FVec Ideal ⟨2, ![K, M]⟩ .f32) (B : FVec Ideal ⟨2, ![K, C]⟩ .f32) (a : Fin M) (b : Fin C) :
    matmul (⟨[0], [0], [1], [1], [], [], w⟩ : DotDims _ _ _) none A B (constant (F := Ideal) ⟨2, ![M, C]⟩ .f32 0x00000000#32) (ix2 a b)
      = ∑ c : Fin K, A (ix2 c a) * B (ix2 c b) := by
  show FloatOps.matmul _ none A B _ (ix2 a b) = _
  rw [Ideal.matmul_constant_zero_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, M]⟩ ⟨2, ![K, C]⟩ ⟨2, ![M, C]⟩) K rfl rfl c
  have l2 : (⟨[0], [0], [1], [1], [], [], w⟩ : DotDims ⟨2, ![K, M]⟩ ⟨2, ![K, C]⟩ ⟨2, ![M, C]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, M]⟩ ⟨2, ![K, C]⟩ ⟨2, ![M, C]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The one-hot matrix of a tile's segment ids: entry (r, g) is 1 when row r's id is g, else 0. -/
theorem onehot_apply (s : Vec Ideal S2000x1 .i32) (r : Fin 2000) (g : Fin 64) :
    k0_pay5 (F := Ideal) s (ix2 r g) = Spec.oh (s (ix2 r 0)) g := by
  unfold k0_pay5
  rw [sitofp_apply, extui_apply]
  show FloatOps.sitofp .f32 ((IntOp.cmpi .eq (broadcastTo S2000x64 (shapeCast S2000x1 s shapeCasts_S2000x1_S2000x1) broadcasts_S2000x1_S2000x64 (ix2 r g))
    (iota .tc S2000x64 32 [1] iota_S2000x64_d1_w32 (ix2 r g))).setWidth 32) = _
  rw [broadcastTo_apply _ _ (ix2 r g) (ix2 r (0 : Fin 1)) (fun a => by
    match a with
    | ⟨0, _⟩ => rfl
    | ⟨1, _⟩ => rfl), shapeCast_self, iota_single_apply]
  show FloatOps.sitofp .f32 ((IntOp.cmpi .eq (s (ix2 r 0)) (BitVec.ofNat 32 g.val)).setWidth 32) = _
  unfold Spec.oh IntOp.cmpi
  by_cases h : s (ix2 r 0) = BitVec.ofNat 32 g.val
  · rw [if_pos h]
    have hb : (s (ix2 r 0) == BitVec.ofNat 32 g.val) = true := beq_iff_eq.mpr h
    show (((((BitVec.ofBool (s (ix2 r 0) == BitVec.ofNat 32 g.val)).setWidth 32).toInt : ℤ) : ℝ) : EReal) = 1
    rw [hb, show ((BitVec.ofBool true).setWidth 32).toInt = 1 from by decide]
    simp
  · rw [if_neg h]
    have hb : (s (ix2 r 0) == BitVec.ofNat 32 g.val) = false := beq_eq_false_iff_ne.mpr h
    show (((((BitVec.ofBool (s (ix2 r 0) == BitVec.ofNat 32 g.val)).setWidth 32).toInt : ℤ) : ℝ) : EReal) = 0
    rw [hb, show ((BitVec.ofBool false).setWidth 32).toInt = 0 from by decide]
    simp

/-- A [1, 64, C] block seen as [64, C]: entry (g, j) is the block's entry (0, g, j); -/
theorem dropUnit64_apply {C : Nat} {α : Type} (v : (⟨3, ![1, 64, C]⟩ : Shape).Idx → α)
    (h : (⟨3, ![1, 64, C]⟩ : Shape).ShapeCasts ⟨2, ![64, C]⟩) (g : Fin 64) (j : Fin C) :
    shapeCast ⟨2, ![64, C]⟩ v h (ix2 g j) = v (ix3 0 g j) :=
  shapeCast_apply v h (ix2 g j) (ix3 0 g j) (by
    rw [Shape.rowMajor_val_three, Shape.rowMajor_val_two]
    show (0 * 64 + g.val) * C + j.val = g.val * C + j.val
    rw [Nat.zero_mul, Nat.zero_add])

/-- and a [64, C] matrix stored as a [1, 64, C] block: entry (0, g, j) is the matrix's entry (g, j). -/
theorem addUnit64_apply {C : Nat} {α : Type} (v : (⟨2, ![64, C]⟩ : Shape).Idx → α)
    (h : (⟨2, ![64, C]⟩ : Shape).ShapeCasts ⟨3, ![1, 64, C]⟩) (g : Fin 64) (j : Fin C) :
    shapeCast ⟨3, ![1, 64, C]⟩ v h (ix3 0 g j) = v (ix2 g j) :=
  shapeCast_apply v h (ix3 0 g j) (ix2 g j) (by
    rw [Shape.rowMajor_val_three, Shape.rowMajor_val_two]
    show g.val * C + j.val = (0 * 64 + g.val) * C + j.val
    rw [Nat.zero_mul, Nat.zero_add])

/-- One point's update of the sums: entry (g, j) grows by the sum over the tile's rows of the one-hot entry times the
    row's entry in column j. -/
theorem stepA_sum (x : Vec Ideal S2000x480 .f32) (s : Vec Ideal S2000x1 .i32) (p : Acc Ideal) (g : Fin 64) (j : Fin 128) :
    (stepA x s p).1 (ix3 0 g j)
      = p.1 (ix3 0 g j) + ∑ r : Fin 2000, Spec.oh (s (ix2 r 0)) g * x (ix2 r (Spec.col1 j)) := by
  show k0_pay6 x s p.1 (ix3 0 g j) = _
  unfold k0_pay6
  rw [addUnit64_apply, addf_apply, dropUnit64_apply]
  congr 1
  refine (matmulT_apply dot_S2000x64_S2000x128_S64x128_0_0_1_1_n_n_wf (k0_pay5 s) _ g j).trans ?_
  refine Finset.sum_congr rfl fun r _ => ?_
  rw [onehot_apply, extractStridedSlice_apply _ _ _ (ix2 r j) (ix2 r (Spec.col1 j)) (fun a => by
    match a with
    | ⟨0, _⟩ => show r.val = 0 + r.val; omega
    | ⟨1, _⟩ => show j.val = 0 + j.val; omega)]

/-- One point's update of the sums of squares. -/
theorem stepA_sq (x : Vec Ideal S2000x480 .f32) (s : Vec Ideal S2000x1 .i32) (p : Acc Ideal) (g : Fin 64) (j : Fin 480) :
    (stepA x s p).2.1 (ix3 0 g j)
      = p.2.1 (ix3 0 g j) + ∑ r : Fin 2000, Spec.oh (s (ix2 r 0)) g * (x (ix2 r j) * x (ix2 r j)) := by
  show k0_pay7 x s p.2.1 (ix3 0 g j) = _
  unfold k0_pay7
  rw [addUnit64_apply, addf_apply, dropUnit64_apply]
  congr 1
  refine (matmulT_apply dot_S2000x64_S2000x480_S64x480_0_0_1_1_n_n_wf (k0_pay5 s) _ g j).trans ?_
  refine Finset.sum_congr rfl fun r _ => ?_
  rw [onehot_apply, mulf_apply]

set_option maxRecDepth 65536 in
/-- One point's update of the counts. -/
theorem stepA_cnt (x : Vec Ideal S2000x480 .f32) (s : Vec Ideal S2000x1 .i32) (p : Acc Ideal) (g : Fin 64) :
    (stepA x s p).2.2 (ix3 0 g 0)
      = p.2.2 (ix3 0 g 0) + ∑ r : Fin 2000, Spec.oh (s (ix2 r 0)) g * 1 := by
  show k0_pay1 (k0_pay5 s) k0_pay8 (k0_pay9 p.2.2) (constant S64x1 .f32 0x00000000#32) (ix3 0 g 0) = _
  unfold k0_pay1 k0_pay9
  rw [addUnit64_apply, addf_apply, dropUnit64_apply]
  congr 1
  refine (matmulT_apply dot_S2000x64_S2000x1_S64x1_0_0_1_1_n_n_wf (k0_pay5 s) _ g 0).trans ?_
  refine Finset.sum_congr rfl fun r _ => ?_
  rw [onehot_apply]
  congr 1
  exact Cert.Consts.ofBits_one

/-- After a reset every accumulator entry is zero. -/
theorem acc0_sum (g : Fin 64) (j : Fin 128) : (acc0 (F := Ideal)).1 (ix3 0 g j) = 0 := Cert.Consts.ofBits_zero
theorem acc0_sq (g : Fin 64) (j : Fin 480) : (acc0 (F := Ideal)).2.1 (ix3 0 g j) = 0 := Cert.Consts.ofBits_zero
theorem acc0_cnt (g : Fin 64) : (acc0 (F := Ideal)).2.2 (ix3 0 g 0) = 0 := Cert.Consts.ofBits_zero

variable (V : (c : Dev nD) → (b : Ref sig .tc) → Buf (Elt Ideal) ((c : Thread nD τ).loc b))

/-- The input and the segment ids as the launch finds them, as arrays of their literal shapes. -/
abbrev xarrA (c : Dev nD) : FVec Ideal S200000x480 .f32 := V c main_arg0
abbrev sarrA (c : Dev nD) : IVec S200000x1 32 := V c main_v0

/-- The row of the whole input that is row r of the tile at step i of half h. -/
def rowA (h : Fin 2) (i : Fin 50) (r : Fin 2000) : Fin 200000 := ⟨h.val * 100000 + i.val * 2000 + r.val, by omega⟩

/-- The row of the whole input that is row r of the tile at point n: 2000 n + r (taken below the row count, where it
    is at every point of the grid). -/
def rowN (n : ℕ) (r : Fin 2000) : Fin 200000 := ⟨(2000 * n + r.val) % 200000, Nat.mod_lt _ (by decide)⟩

/-- The two inputs' blocks at point t are at block index (t, 0). -/
theorem idxA_in : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

theorem lt100 (t : Fin cfg0.N) : t.val < 100 := by
  exact Nat.lt_of_lt_of_eq t.isLt N_0

/-- The input's tile at point t, entry (r, q), is the input's entry at row 2000 t + r, column q. -/
theorem tileX_apply (c : Dev nD) (t : Fin cfg0.N) (r : Fin 2000) (q : Fin 480) :
    (iblk0 V c 0 t : Vec Ideal S2000x480 .f32) (ix2 r q) = xarrA V c (ix2 (rowN t.val r) q) := by
  have hi := (idxA_in t).1
  have ht := lt100 t
  unfold iblk0
  rw [View.read_apply]
  show V c main_arg0 _ = V c main_arg0 _
  congr 1
  funext a
  apply Fin.ext
  match a with
  | ⟨0, _⟩ => show win0_0.index t 0 * 2000 + 1 * r.val = (2000 * t.val + r.val) % 200000; rw [hi.1]; omega
  | ⟨1, _⟩ => show win0_0.index t 1 * 480 + 1 * q.val = q.val; rw [hi.2]; omega

/-- The segment ids' tile at point t, row r, is the id of row 2000 t + r. -/
theorem tileS_apply (c : Dev nD) (t : Fin cfg0.N) (r : Fin 2000) :
    (iblk0 V c 1 t : Vec Ideal S2000x1 .i32) (ix2 r 0) = sarrA V c (ix2 (rowN t.val r) 0) := by
  have hi := (idxA_in t).2
  have ht := lt100 t
  unfold iblk0
  rw [View.read_apply]
  show V c main_v0 _ = V c main_v0 _
  congr 1
  funext a
  apply Fin.ext
  match a with
  | ⟨0, _⟩ => show win0_1.index t 0 * 2000 + 1 * r.val = (2000 * t.val + r.val) % 200000; rw [hi.1]; omega
  | ⟨1, _⟩ => show win0_1.index t 1 * 1 + 1 * 0 = 0; rw [hi.2]

/-- A quantity read off the accumulators (`proj`, at a place k) that is zero after a reset and grows at point t by an
    addend M t: after step i of the run of 50 points from b it is the sum of the addends of points b .. b + i. By
    induction on the step. -/
theorem fold_run {ι : Type} (c : Dev nD) (proj : Acc Ideal → ι → EReal) (M : ℕ → ι → EReal)
    (hz : ∀ k, proj acc0 k = 0)
    (hstep : ∀ (t : Fin cfg0.N) (p : Acc Ideal) (k : ι),
      proj (stepA (iblk0 V c 0 t) (iblk0 V c 1 t) p) k = proj p k + M t.val k)
    (b : ℕ) (hb : b % 50 = 0) (k : ι) :
    ∀ (i : ℕ) (hi : i < 50) (hn : b + i < cfg0.N),
      proj (accAt0 V c (b + i) hn) k = ∑ i' ∈ Finset.range (i + 1), M (b + i') k
  | 0, _, hn => by
    rw [show accAt0 V c (b + 0) hn = _ from accAt0_reset V c ⟨b + 0, hn⟩ (by show (b + 0) % 50 = 0; omega)]
    rw [hstep, hz, zero_add, Finset.sum_range_one]
  | i + 1, hi, hn => by
    have hne : ¬(b + (i + 1)) % 50 = 0 := by omega
    rw [show accAt0 V c (b + (i + 1)) hn = _ from accAt0_step V c ⟨b + (i + 1), hn⟩ hne]
    rw [hstep, Finset.sum_range_succ]
    congr 1
    rw [accAt0_congr V c _ (show b + i < cfg0.N by omega)
      (show (⟨b + (i + 1), hn⟩ : Fin cfg0.N).val - 1 = b + i from by show b + (i + 1) - 1 = b + i; omega)]
    exact fold_run c proj M hz hstep b hb k i (by omega) (by omega)

/-- Row r of the tile of point 50 h + i is row r of the tile at step i of half h. -/
theorem rowN_half (h : Fin 2) (i : Fin 50) (r : Fin 2000) : rowN (50 * h.val + i.val) r = rowA h i r :=
  Fin.ext (by
    have := h.isLt; have := i.isLt; have := r.isLt
    show (2000 * (50 * h.val + i.val) + r.val) % 200000 = h.val * 100000 + i.val * 2000 + r.val
    omega)

/-- The addends of point n: to the sums at (g, j), to the sums of squares at (g, j), to the counts at g. -/
def addSum (c : Dev nD) (n : ℕ) (k : Fin 64 × Fin 128) : EReal :=
  ∑ r : Fin 2000, Spec.oh (sarrA V c (ix2 (rowN n r) 0)) k.1 * xarrA V c (ix2 (rowN n r) (Spec.col1 k.2))
def addSq (c : Dev nD) (n : ℕ) (k : Fin 64 × Fin 480) : EReal :=
  ∑ r : Fin 2000, Spec.oh (sarrA V c (ix2 (rowN n r) 0)) k.1 * (xarrA V c (ix2 (rowN n r) k.2) * xarrA V c (ix2 (rowN n r) k.2))
def addCnt (c : Dev nD) (n : ℕ) (g : Fin 64) : EReal :=
  ∑ r : Fin 2000, Spec.oh (sarrA V c (ix2 (rowN n r) 0)) g * 1

/-- The sums' entry (g, j), the sums of squares' entry (g, j), the counts' entry g, read off the accumulators. -/
def pSum (p : Acc Ideal) (k : Fin 64 × Fin 128) : EReal := p.1 (ix3 0 k.1 k.2)
def pSq (p : Acc Ideal) (k : Fin 64 × Fin 480) : EReal := p.2.1 (ix3 0 k.1 k.2)
def pCnt (p : Acc Ideal) (g : Fin 64) : EReal := p.2.2 (ix3 0 g 0)

/-- After a reset each is zero. -/
theorem pSum_zero (k : Fin 64 × Fin 128) : pSum acc0 k = 0 := Cert.Consts.ofBits_zero
theorem pSq_zero (k : Fin 64 × Fin 480) : pSq acc0 k = 0 := Cert.Consts.ofBits_zero
theorem pCnt_zero (g : Fin 64) : pCnt acc0 g = 0 := Cert.Consts.ofBits_zero

/-- At point u each grows by the point's addend: the update at an entry, its tile read off the arrays. -/
theorem pSum_step (c : Dev nD) (u : Fin cfg0.N) (p : Acc Ideal) (k : Fin 64 × Fin 128) :
    pSum (stepA (iblk0 V c 0 u) (iblk0 V c 1 u) p) k = pSum p k + addSum V c u.val k := by
  refine (stepA_sum (iblk0 V c 0 u) (iblk0 V c 1 u) p k.1 k.2).trans ?_
  congr 1
  exact Finset.sum_congr rfl fun r _ => by rw [tileS_apply, tileX_apply]

theorem pSq_step (c : Dev nD) (u : Fin cfg0.N) (p : Acc Ideal) (k : Fin 64 × Fin 480) :
    pSq (stepA (iblk0 V c 0 u) (iblk0 V c 1 u) p) k = pSq p k + addSq V c u.val k := by
  refine (stepA_sq (iblk0 V c 0 u) (iblk0 V c 1 u) p k.1 k.2).trans ?_
  congr 1
  exact Finset.sum_congr rfl fun r _ => by rw [tileS_apply, tileX_apply]

theorem pCnt_step (c : Dev nD) (u : Fin cfg0.N) (p : Acc Ideal) (g : Fin 64) :
    pCnt (stepA (iblk0 V c 0 u) (iblk0 V c 1 u) p) g = pCnt p g + addCnt V c u.val g := by
  refine (stepA_cnt (iblk0 V c 0 u) (iblk0 V c 1 u) p g).trans ?_
  congr 1
  exact Finset.sum_congr rfl fun r _ => by rw [tileS_apply]

/-- What the last point of half h leaves in the sums: the sum over the half's 50 tiles. -/
theorem sum_half (c : Dev nD) (h : Fin 2) (g : Fin 64) (j : Fin 128) (hn : 50 * h.val + 49 < cfg0.N) :
    (accAt0 V c (50 * h.val + 49) hn).1 (ix3 0 g j)
      = ∑ i : Fin 50, ∑ r : Fin 2000,
          Spec.oh (sarrA V c (ix2 (rowA h i r) 0)) g * xarrA V c (ix2 (rowA h i r) (Spec.col1 j)) := by
  have key := fold_run V c pSum (addSum V c) pSum_zero (pSum_step V c) (50 * h.val) (by omega) (g, j) 49 (by omega) hn
  show pSum (accAt0 V c (50 * h.val + 49) hn) (g, j) = _
  rw [key, Finset.sum_range]
  refine Finset.sum_congr rfl fun i _ => Finset.sum_congr rfl fun r _ => ?_
  show Spec.oh (sarrA V c (ix2 (rowN (50 * h.val + i.val) r) 0)) g * xarrA V c (ix2 (rowN (50 * h.val + i.val) r) (Spec.col1 j)) = _
  rw [rowN_half]

/-- The same for the sums of squares; -/
theorem sq_half (c : Dev nD) (h : Fin 2) (g : Fin 64) (j : Fin 480) (hn : 50 * h.val + 49 < cfg0.N) :
    (accAt0 V c (50 * h.val + 49) hn).2.1 (ix3 0 g j)
      = ∑ i : Fin 50, ∑ r : Fin 2000,
          Spec.oh (sarrA V c (ix2 (rowA h i r) 0)) g * (xarrA V c (ix2 (rowA h i r) j) * xarrA V c (ix2 (rowA h i r) j)) := by
  have key := fold_run V c pSq (addSq V c) pSq_zero (pSq_step V c) (50 * h.val) (by omega) (g, j) 49 (by omega) hn
  show pSq (accAt0 V c (50 * h.val + 49) hn) (g, j) = _
  rw [key, Finset.sum_range]
  refine Finset.sum_congr rfl fun i _ => Finset.sum_congr rfl fun r _ => ?_
  show Spec.oh (sarrA V c (ix2 (rowN (50 * h.val + i.val) r) 0)) g
    * (xarrA V c (ix2 (rowN (50 * h.val + i.val) r) j) * xarrA V c (ix2 (rowN (50 * h.val + i.val) r) j)) = _
  rw [rowN_half]

/-- and for the counts. -/
theorem cnt_half (c : Dev nD) (h : Fin 2) (g : Fin 64) (hn : 50 * h.val + 49 < cfg0.N) :
    (accAt0 V c (50 * h.val + 49) hn).2.2 (ix3 0 g 0)
      = ∑ i : Fin 50, ∑ r : Fin 2000, Spec.oh (sarrA V c (ix2 (rowA h i r) 0)) g * 1 := by
  have key := fold_run V c pCnt (addCnt V c) pCnt_zero (pCnt_step V c) (50 * h.val) (by omega) g 49 (by omega) hn
  show pCnt (accAt0 V c (50 * h.val + 49) hn) g = _
  rw [key, Finset.sum_range]
  refine Finset.sum_congr rfl fun i _ => Finset.sum_congr rfl fun r _ => ?_
  show Spec.oh (sarrA V c (ix2 (rowN (50 * h.val + i.val) r) 0)) g * 1 = _
  rw [rowN_half]

theorem sumA (c : Dev nD) (h : Fin 2) (g : Fin 64) (j : Fin 128) :
    ((dat0 V c).arrAt 2 cfg0.N : FVec Ideal S2x64x128 .f32) (ix3 h g j)
      = ∑ i : Fin 50, ∑ r : Fin 2000,
          Spec.oh (sarrA V c (ix2 (rowA h i r) 0)) g * xarrA V c (ix2 (rowA h i r) (Spec.col1 j)) :=
  (arrA_sum V c h g j).trans (sum_half V c h g j (lastA_lt h))

theorem sqA (c : Dev nD) (h : Fin 2) (g : Fin 64) (j : Fin 480) :
    ((dat0 V c).arrAt 3 cfg0.N : FVec Ideal S2x64x480 .f32) (ix3 h g j)
      = ∑ i : Fin 50, ∑ r : Fin 2000,
          Spec.oh (sarrA V c (ix2 (rowA h i r) 0)) g * (xarrA V c (ix2 (rowA h i r) j) * xarrA V c (ix2 (rowA h i r) j)) :=
  (arrA_sq V c h g j).trans (sq_half V c h g j (lastA_lt h))

theorem cntA (c : Dev nD) (h : Fin 2) (g : Fin 64) :
    ((dat0 V c).arrAt 4 cfg0.N : FVec Ideal S2x64x1 .f32) (ix3 h g 0)
      = ∑ i : Fin 50, ∑ r : Fin 2000, Spec.oh (sarrA V c (ix2 (rowA h i r) 0)) g * 1 :=
  (arrA_cnt V c h g 0).trans (cnt_half V c h g (lastA_lt h))

/-- The launch writes none of its two input arrays. -/
theorem keepA_arg0 (c : Dev nD) : (dat0 V c).arrAt 0 cfg0.N = V c main_arg0 := arrA_arg0 V c
theorem keepA_v0 (c : Dev nD) : (dat0 V c).arrAt 1 cfg0.N = V c main_v0 := arrA_v0 V c

end Cert.KernelIdeal.Hand

end
-- ==== Proof.KI.RegCValue.lean ====
/-
  What the second launch leaves in the result array, over the extended reals: at row n and column j the row's entry
  minus the one-hot row's products with the two mean tables, times its products with the two scale tables, plus the shift.
-/
import proofs.«412429_j58076547777199_3_alg».proof.Proof.KI.RegCDefs
import proofs.«412429_j58076547777199_3_alg».proof.Proof.Spec
import proofs.«412429_j58076547777199_3_alg».proof.Proof.Consts
import Idealize.ShloMosaic.Lib.Pipeline.Value
import Idealize.ShloMosaic.Lib.ValueIdx
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

/-! ## The one-hot product at an index

The body multiplies the tile's 2000 × 64 one-hot matrix of segment ids into a 64 × 480 table; the product contracts
the 64 graphs. -/

/-- The product's dimension numbers: the left operand's axis 1 against the right operand's axis 0. -/
abbrev dotC := dot_S2000x64_S64x480_S2000x480_1_0_0_1_n_n

theorem dotC_lhs_0 (j : S2000x480.Idx) (k : dotC.contr.Idx) : (dotC.lhsIdx j k 0 : ℕ) = j 0 := by
  simp [DotDims.lhsIdx, dotC, dot_S2000x64_S64x480_S2000x480_1_0_0_1_n_n]; rfl
theorem dotC_lhs_1 (j : S2000x480.Idx) (k : dotC.contr.Idx) : (dotC.lhsIdx j k 1 : ℕ) = k ⟨0, by decide⟩ :=
  DotDims.lhsIdx_val_of_single dotC (cl := 1) rfl j k
theorem dotC_rhs_0 (j : S2000x480.Idx) (k : dotC.contr.Idx) : (dotC.rhsIdx j k 0 : ℕ) = k ⟨0, by decide⟩ :=
  DotDims.rhsIdx_val_of_single dotC (cr := 0) rfl j k
theorem dotC_rhs_1 (j : S2000x480.Idx) (k : dotC.contr.Idx) : (dotC.rhsIdx j k 1 : ℕ) = j 1 := by
  simp [DotDims.rhsIdx, dotC, dot_S2000x64_S64x480_S2000x480_1_0_0_1_n_n]; rfl

/-- The contraction index is the graph's number. -/
abbrev graphEquiv : dotC.contr.Idx ≃ Fin 64 := contrEquiv1 dotC 64 rfl rfl

/-- The product into the zero tile, read at row p and column q: the sum over the graphs. -/
theorem mm_apply (L : FVec Ideal S2000x64 .f32) (R : FVec Ideal S64x480 .f32) (p : Fin 2000) (q : Fin 480) :
    matmul dotC none L R (constant (F := Ideal) S2000x480 .f32 0x00000000#32) (ix2 p q)
      = ∑ g : Fin 64, L (ix2 p g) * R (ix2 g q) := by
  simp only [matmul]
  rw [Ideal.matmul_constant_zero_apply, ← Equiv.sum_comp graphEquiv.symm]
  refine Finset.sum_congr rfl fun g _ => ?_
  have hl : dotC.lhsIdx (ix2 p q) (graphEquiv.symm g) = ix2 p g :=
    Shape.idx_ext₂ (dotC_lhs_0 _ _) ((dotC_lhs_1 _ _).trans (contrEquiv1_symm_val dotC 64 rfl rfl g))
  have hr : dotC.rhsIdx (ix2 p q) (graphEquiv.symm g) = ix2 g q :=
    Shape.idx_ext₂ ((dotC_rhs_0 _ _).trans (contrEquiv1_symm_val dotC 64 rfl rfl g)) (dotC_rhs_1 _ _)
  rw [hl, hr]

/-- The tile's one-hot matrix: entry (p, g) compares row p's segment id with g. -/
abbrev ohTile (s : Vec Ideal S2000x1 .i32) : FVec Ideal S2000x64 .f32 :=
  sitofp .f32 (extui 32 (cmpi .eq (broadcastTo S2000x64 s broadcasts_S2000x1_S2000x64)
    (iota .tc S2000x64 32 [1] iota_S2000x64_d1_w32)) natLt_1_32)

/-- Its entry (p, g) is 1 when row p's segment id is g, else 0. -/
theorem ohTile_apply (s : Vec Ideal S2000x1 .i32) (p : Fin 2000) (g : Fin 64) :
    ohTile s (ix2 p g) = Spec.oh (s (ix2 p 0)) g := by
  have hb : broadcastTo S2000x64 s broadcasts_S2000x1_S2000x64 (ix2 p g) = s (ix2 p 0) :=
    broadcastTo_apply s broadcasts_S2000x1_S2000x64 (ix2 p g) (ix2 p 0) fun a => by
      match a with
      | ⟨0, _⟩ => rfl
      | ⟨1, _⟩ => rfl
  have hi : iota .tc S2000x64 32 [1] iota_S2000x64_d1_w32 (ix2 p g) = BitVec.ofNat 32 g.val :=
    iota_single_apply .tc S2000x64 32 1 iota_S2000x64_d1_w32 (ix2 p g)
  show ((((IntOp.cmpi .eq (broadcastTo S2000x64 s broadcasts_S2000x1_S2000x64 (ix2 p g))
      (iota .tc S2000x64 32 [1] iota_S2000x64_d1_w32 (ix2 p g))).setWidth 32).toInt : ℝ) : EReal) = _
  rw [hb, hi]
  unfold Spec.oh
  by_cases h : s (ix2 p 0) = BitVec.ofNat 32 g.val
  · have hc : IntOp.cmpi .eq (s (ix2 p 0)) (BitVec.ofNat 32 g.val) = 1#1 := by
      show BitVec.ofBool (s (ix2 p 0) == BitVec.ofNat 32 g.val) = 1#1
      rw [beq_iff_eq.mpr h]; rfl
    have h1 : ((1#1 : BitVec 1).setWidth 32).toInt = 1 := by decide
    rw [if_pos h, hc, h1]; norm_num
  · have hc : IntOp.cmpi .eq (s (ix2 p 0)) (BitVec.ofNat 32 g.val) = 0#1 := by
      show BitVec.ofBool (s (ix2 p 0) == BitVec.ofNat 32 g.val) = 0#1
      rw [beq_eq_false_iff_ne.mpr h]; rfl
    have h0 : ((0#1 : BitVec 1).setWidth 32).toInt = 0 := by decide
    rw [if_neg h, hc, h0]; norm_num

/-! ## The body's arithmetic at an index -/

/-- The tile the body stores, read at row p and column q: the specification's entry of row p's entry, its segment id,
    the five tables' column q. -/
theorem pay_apply (x0 : Vec Ideal S2000x480 .f32) (x1 : Vec Ideal S2000x1 .i32) (x2 x3 x4 x5 : Vec Ideal S64x480 .f32)
    (x6 : Vec Ideal S1x480 .f32) (p : Fin 2000) (q : Fin 480) :
    k1_pay1 x0 x1 x2 x3 x4 x5 x6 (ix2 p q)
      = Spec.kout (x0 (ix2 p q)) (x1 (ix2 p 0)) (fun g => x2 (ix2 g q)) (fun g => x3 (ix2 g q)) (fun g => x4 (ix2 g q))
          (fun g => x5 (ix2 g q)) (x6 (ix2 0 q)) := by
  have hs : ∀ R : Vec Ideal S64x480 .f32, matmul dotC none (ohTile x1) R (constant (F := Ideal) S2000x480 .f32 0x00000000#32) (ix2 p q)
      = ∑ g : Fin 64, Spec.oh (x1 (ix2 p 0)) g * R (ix2 g q) := fun R => by
    rw [mm_apply]
    exact Finset.sum_congr rfl fun g _ => by rw [ohTile_apply]
  have hb : broadcastTo S2000x480 x6 broadcasts_S1x480_S2000x480 (ix2 p q) = x6 (ix2 0 q) :=
    broadcastTo_apply x6 broadcasts_S1x480_S2000x480 (ix2 p q) (ix2 0 q) fun a => by
      match a with
      | ⟨0, _⟩ => rfl
      | ⟨1, _⟩ => rfl
  unfold k1_pay1
  simp only [shapeCast_self]
  show (x0 (ix2 p q) - (matmul dotC none (ohTile x1) x2 (constant (F := Ideal) S2000x480 .f32 0x00000000#32) (ix2 p q)
        + matmul dotC none (ohTile x1) x3 (constant (F := Ideal) S2000x480 .f32 0x00000000#32) (ix2 p q)))
      * (matmul dotC none (ohTile x1) x4 (constant (F := Ideal) S2000x480 .f32 0x00000000#32) (ix2 p q)
        + matmul dotC none (ohTile x1) x5 (constant (F := Ideal) S2000x480 .f32 0x00000000#32) (ix2 p q))
      + broadcastTo S2000x480 x6 broadcasts_S1x480_S2000x480 (ix2 p q) = _
  rw [hs, hs, hs, hs, hb]
  rfl

variable (V : (c : Dev nD) → (b : Ref sig .tc) → Buf (Elt Ideal) ((c : Thread nD τ).loc b))

/-- The arrays the launch reads, as it finds them, at their literal shapes. -/
abbrev xarrC (c : Dev nD) : FVec Ideal S200000x480 .f32 := V c main_arg0
abbrev sarrC (c : Dev nD) : IVec S200000x1 32 := V c main_v0
abbrev t2C (c : Dev nD) : FVec Ideal S64x480 .f32 := V c main_v65
abbrev t3C (c : Dev nD) : FVec Ideal S64x480 .f32 := V c main_v66
abbrev t4C (c : Dev nD) : FVec Ideal S64x480 .f32 := V c main_v68
abbrev t5C (c : Dev nD) : FVec Ideal S64x480 .f32 := V c main_v69
abbrev t6C (c : Dev nD) : FVec Ideal S1x480 .f32 := V c main_v63

/-! ## From the tiles to the array -/

/-- The result array as one function of the seven arrays the launch reads: the specification's entry, index by index. -/
def resC (c : Dev nD) : FVec Ideal S200000x480 .f32 := fun i =>
  Spec.kout (xarrC V c (ix2 (n0 := 200000) (n1 := 480) (i 0) (i 1))) (sarrC V c (ix2 (n0 := 200000) (n1 := 1) (i 0) 0))
    (fun g => t2C V c (ix2 (n0 := 64) (n1 := 480) g (i 1))) (fun g => t3C V c (ix2 (n0 := 64) (n1 := 480) g (i 1)))
    (fun g => t4C V c (ix2 (n0 := 64) (n1 := 480) g (i 1))) (fun g => t5C V c (ix2 (n0 := 64) (n1 := 480) g (i 1)))
    (t6C V c (ix2 (n0 := 1) (n1 := 480) 0 (i 1)))

/-- The tiles' places, decided over the grid: the tile of rows, the tile of ids and the result tile at point t are
    block t along the rows; the five tables are their one block. -/
theorem blockIndexC : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The tile of rows at point t, read at (p, q), is the input at row 2000 t + p, column q. -/
theorem xblk_apply (c : Dev nD) (t : Fin cfg1.N) (x : S2000x480.Idx) (k : S200000x480.Idx)
    (hk0 : (k 0).val = t.val * 2000 + (x 0).val) (hk1 : (k 1).val = (x 1).val) :
    (iblk1 V c 0 t : Vec Ideal S2000x480 .f32) x = xarrC V c k := by
  obtain ⟨e0, e1, -⟩ := blockIndexC t
  unfold iblk1
  rw [View.read_apply]
  show V c main_arg0 _ = V c main_arg0 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 480 + 1 * (x 1).val = (k 1).val; rw [e1, hk1]; omega

/-- The specification's entry is a function of its arguments' values. -/
theorem kout_congr {a a' : EReal} {s s' : BitVec 32} {T2 T2' T3 T3' T4 T4' T5 T5' : Fin 64 → EReal} {u u' : EReal}
    (ha : a = a') (hs : s = s') (h2 : ∀ g, T2 g = T2' g) (h3 : ∀ g, T3 g = T3' g) (h4 : ∀ g, T4 g = T4' g)
    (h5 : ∀ g, T5 g = T5' g) (hu : u = u') :
    Spec.kout a s T2 T3 T4 T5 u = Spec.kout a' s' T2' T3' T4' T5' u' := by
  obtain rfl := ha
  obtain rfl := hs
  obtain rfl := hu
  obtain rfl : T2 = T2' := funext h2
  obtain rfl : T3 = T3' := funext h3
  obtain rfl : T4 = T4' := funext h4
  obtain rfl : T5 = T5' := funext h5
  rfl

/-- The tile of ids at point t, read at (p, 0), is the segment id of row 2000 t + p. -/
theorem sblk_apply (c : Dev nD) (t : Fin cfg1.N) (x : S2000x1.Idx) (k : S200000x1.Idx)
    (hk0 : (k 0).val = t.val * 2000 + (x 0).val) (hk1 : (k 1).val = (x 1).val) :
    (iblk1 V c 1 t : Vec Ideal S2000x1 .i32) x = sarrC V c k := by
  obtain ⟨-, -, e0, e1, -⟩ := blockIndexC t
  unfold iblk1
  rw [View.read_apply]
  show V c main_v0 _ = V c main_v0 _
  congr 1
  funext a
  apply Fin.ext
  match a with
  | ⟨0, _⟩ => show win1_1.index t (0 : Fin 2) * 2000 + 1 * (x 0).val = (k 0).val; rw [e0, hk0]; omega
  | ⟨1, _⟩ => show win1_1.index t (1 : Fin 2) * 1 + 1 * (x 1).val = (k 1).val; rw [e1, hk1]; omega

/-! Each table's one block is the table. -/

theorem t2blk_apply (c : Dev nD) (t : Fin cfg1.N) (x : S64x480.Idx) :
    (iblk1 V c 2 t : Vec Ideal S64x480 .f32) x = t2C V c x := by
  obtain ⟨-, -, -, -, e0, e1, -⟩ := blockIndexC t
  unfold iblk1
  rw [View.read_apply]
  show V c main_v65 _ = V c main_v65 _
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 480 + 1 * (x 1).val = (x 1).val; rw [e1]; omega

theorem t3blk_apply (c : Dev nD) (t : Fin cfg1.N) (x : S64x480.Idx) :
    (iblk1 V c 3 t : Vec Ideal S64x480 .f32) x = t3C V c x := by
  obtain ⟨-, -, -, -, -, -, e0, e1, -⟩ := blockIndexC t
  unfold iblk1
  rw [View.read_apply]
  show V c main_v66 _ = V c main_v66 _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 480 + 1 * (x 1).val = (x 1).val; rw [e1]; omega

theorem t4blk_apply (c : Dev nD) (t : Fin cfg1.N) (x : S64x480.Idx) :
    (iblk1 V c 4 t : Vec Ideal S64x480 .f32) x = t4C V c x := by
  obtain ⟨-, -, -, -, -, -, -, -, e0, e1, -⟩ := blockIndexC t
  unfold iblk1
  rw [View.read_apply]
  show V c main_v68 _ = V c main_v68 _
  congr 1
  funext a
  apply Fin.ext
  match a with
  | ⟨0, _⟩ => show win1_4.index t (0 : Fin 2) * 64 + 1 * (x 0).val = (x 0).val; rw [e0]; omega
  | ⟨1, _⟩ => show win1_4.index t (1 : Fin 2) * 480 + 1 * (x 1).val = (x 1).val; rw [e1]; omega

theorem t5blk_apply (c : Dev nD) (t : Fin cfg1.N) (x : S64x480.Idx) :
    (iblk1 V c 5 t : Vec Ideal S64x480 .f32) x = t5C V c x := by
  obtain ⟨-, -, -, -, -, -, -, -, -, -, e0, e1, -⟩ := blockIndexC t
  unfold iblk1
  rw [View.read_apply]
  show V c main_v69 _ = V c main_v69 _
  congr 1
  funext a
  apply Fin.ext
  match a with
  | ⟨0, _⟩ => show win1_5.index t (0 : Fin 2) * 64 + 1 * (x 0).val = (x 0).val; rw [e0]; omega
  | ⟨1, _⟩ => show win1_5.index t (1 : Fin 2) * 480 + 1 * (x 1).val = (x 1).val; rw [e1]; omega

theorem t6blk_apply (c : Dev nD) (t : Fin cfg1.N) (x : S1x480.Idx) :
    (iblk1 V c 6 t : Vec Ideal S1x480 .f32) x = t6C V c x := by
  obtain ⟨-, -, -, -, -, -, -, -, -, -, -, -, e0, e1, -⟩ := blockIndexC t
  unfold iblk1
  rw [View.read_apply]
  show V c main_v63 _ = V c main_v63 _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 480 + 1 * (x 1).val = (x 1).val; rw [e1]; omega

/-- The body's tile at a general index, by its two coordinates. -/
theorem pay_apply_idx (x0 : Vec Ideal S2000x480 .f32) (x1 : Vec Ideal S2000x1 .i32) (x2 x3 x4 x5 : Vec Ideal S64x480 .f32)
    (x6 : Vec Ideal S1x480 .f32) (y : S2000x480.Idx) :
    k1_pay1 x0 x1 x2 x3 x4 x5 x6 y
      = Spec.kout (x0 y) (x1 (ix2 (n0 := 2000) (n1 := 1) (y 0) 0)) (fun g => x2 (ix2 (n0 := 64) (n1 := 480) g (y 1)))
          (fun g => x3 (ix2 (n0 := 64) (n1 := 480) g (y 1))) (fun g => x4 (ix2 (n0 := 64) (n1 := 480) g (y 1)))
          (fun g => x5 (ix2 (n0 := 64) (n1 := 480) g (y 1))) (x6 (ix2 (n0 := 1) (n1 := 480) 0 (y 1))) := by
  obtain ⟨p, q, rfl⟩ : ∃ (p : Fin 2000) (q : Fin 480), y = ix2 p q := ⟨y 0, y 1, eq_ix2 y⟩
  exact pay_apply x0 x1 x2 x3 x4 x5 x6 p q

/-- WHAT POINT t WRITES BACK is block t of the result array's function. -/
theorem flushedC (c : Dev nD) (t : Fin cfg1.N) :
    (dat1 V c).flushed 7 t = ((cfg1.win 7).blk t).view.read (Elt Ideal) (resC V c) := by
  show (cfg1.win 7).cut (grid1.coords t) ((dat1 V c).after 7 t) = _
  rw [after1_7]
  unfold out1_7
  funext y
  show k1_pay1 (iblk1 V c 0 t) (iblk1 V c 1 t) (iblk1 V c 2 t) (iblk1 V c 3 t) (iblk1 V c 4 t) (iblk1 V c 5 t) (iblk1 V c 6 t) y
    = resC V c (((cfg1.win 7).blk t).view.emb y)
  refine (pay_apply_idx (iblk1 V c 0 t) (iblk1 V c 1 t) (iblk1 V c 2 t) (iblk1 V c 3 t) (iblk1 V c 4 t) (iblk1 V c 5 t) (iblk1 V c 6 t) y).trans ?_
  obtain ⟨-, -, -, -, -, -, -, -, -, -, -, -, -, -, e0, e1⟩ := blockIndexC t
  have h0 : ((((cfg1.win 7).blk t).view.emb y) 0).val = t.val * 2000 + (y 0).val := by
    show win1_7.index t (0 : Fin 2) * 2000 + 1 * (y 0).val = _
    rw [e0]; omega
  have h1 : ((((cfg1.win 7).blk t).view.emb y) 1).val = (y 1).val := by
    show win1_7.index t (1 : Fin 2) * 480 + 1 * (y 1).val = _
    rw [e1]; omega
  unfold resC
  refine kout_congr ?_ ?_ (fun g => ?_) (fun g => ?_) (fun g => ?_) (fun g => ?_) ?_
  · exact xblk_apply V c t y _ h0 h1
  · exact sblk_apply V c t _ _ h0 rfl
  · exact (t2blk_apply V c t _).trans (congrArg (t2C V c) (Shape.idx_ext₂ rfl h1.symm))
  · exact (t3blk_apply V c t _).trans (congrArg (t3C V c) (Shape.idx_ext₂ rfl h1.symm))
  · exact (t4blk_apply V c t _).trans (congrArg (t4C V c) (Shape.idx_ext₂ rfl h1.symm))
  · exact (t5blk_apply V c t _).trans (congrArg (t5C V c) (Shape.idx_ext₂ rfl h1.symm))
  · exact (t6blk_apply V c t _).trans (congrArg (t6C V c) (Shape.idx_ext₂ rfl h1.symm))

/-- An index of the result array is in point t's block iff each coordinate is in the block's range on its axis. -/
theorem mem_blkC (t : Fin cfg1.N) (i : S200000x480.Idx) :
    i ∈ ((cfg1.win 7).blk t).view.set ↔ ∀ a : Fin 2, win1_7.index t a * S2000x480.size a ≤ (i a).val ∧ (i a).val < win1_7.index t a * S2000x480.size a + S2000x480.size a := by
  show i ∈ ((View.whole main_v70).slice (win1_7.rect t)).set ↔ _
  rw [View.set_slice_whole, Rect.mem_set_unit]
  exact Iff.rfl

/-- Every row is in some point's block: row n in that of point n / 2000. -/
theorem coverC (i : S200000x480.Idx) :
    ∃ t : Fin cfg1.N, (cfg1.win 7).flush t = true ∧ i ∈ ((cfg1.win 7).blk t).view.set := by
  have hi0 : (i 0).val < 200000 := (i 0).isLt
  have hi1 : (i 1).val < 480 := (i 1).isLt
  have hN : cfg1.N = 100 := N_1
  have ht : (i 0).val / 2000 < cfg1.N := by rw [hN]; omega
  refine ⟨⟨(i 0).val / 2000, ht⟩, flush1_7 _, ?_⟩
  rw [mem_blkC]
  obtain ⟨-, -, -, -, -, -, -, -, -, -, -, -, -, -, e0, e1⟩ := blockIndexC ⟨(i 0).val / 2000, ht⟩
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 480 ≤ (i 1).val ∧ (i 1).val < win1_7.index ⟨(i 0).val / 2000, ht⟩ (1 : Fin 2) * 480 + 480
    rw [e1]; omega

/-- THE RESULT ARRAY after the run is that function of the arrays the launch read. -/
theorem finalC (c : Dev nD) : (dat1 V c).arrAt 7 cfg1.N = resC V c :=
  (dat1 V c).arrAt_eq_of_cover 7 (resC V c) (fun t _ => flushedC V c t) coverC

theorem outC (c : Dev nD) (n : Fin 200000) (j : Fin 480) :
    ((dat1 V c).arrAt 7 cfg1.N : FVec Ideal S200000x480 .f32) (ix2 n j)
      = Spec.kout (xarrC V c (ix2 n j)) (sarrC V c (ix2 n 0))
          (fun g => t2C V c (ix2 g j)) (fun g => t3C V c (ix2 g j)) (fun g => t4C V c (ix2 g j)) (fun g => t5C V c (ix2 g j))
          (t6C V c (ix2 0 j)) :=
  congrFun (finalC V c) (ix2 n j)

end Cert.KernelIdeal.Hand

end
-- ==== Proof.KI.HostMidTerms.lean ====
/-
  What the host operations between the two launches compute, written as terms over the contents `W` the first launch
  left: the clamped counts, the means, the second moments, the three column groups' scales, and the five tables the
  second launch reads, each composed exactly as the operations compose. Definitions only.
-/
import proofs.«412429_j58076547777199_3_alg».proof.Proof.Gen.KernelIdeal.Launch
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

variable (W : Valuation τ sig (Elt Ideal))

/-- The counts summed over the two halves, clamped below at one: [64, 1]. -/
def term_cnt : FVec Ideal S64x1 .f32 :=
  maximumf
    (Host.reduceAdd (W (Proc.devRef .tc main_v1_2) : FVec Ideal S2x64x1 .f32) (constant (F := Ideal) S_ .f32 0x00000000#32)
      reducesTo_S2x64x1_S64x1_d0 h_S_)
    (broadcastInDim S64x1 ![] bcast_S_S64x1 (constant (F := Ideal) S_ .f32 0x3F800000#32))

/-- The sums over the two halves divided by the clamped counts: the means of the scalar columns, [64, 128]. -/
def term_mean : FVec Ideal S64x128 .f32 :=
  Host.divf
    (Host.reduceAdd (W (Proc.devRef .tc main_v1_0) : FVec Ideal S2x64x128 .f32) (constant (F := Ideal) S_ .f32 0x00000000#32)
      reducesTo_S2x64x128_S64x128_d0 h_S_)
    (broadcastInDim S64x128 ![0, 1] bcast_S64x1_S64x128_0_1 (term_cnt W))

/-- The sums of squares over the two halves, all 480 columns: [64, 480]. -/
def term_sq : FVec Ideal S64x480 .f32 :=
  Host.reduceAdd (W (Proc.devRef .tc main_v1_1) : FVec Ideal S2x64x480 .f32) (constant (F := Ideal) S_ .f32 0x00000000#32)
    reducesTo_S2x64x480_S64x480_d0 h_S_

/-- The variance of a scalar column: second moment minus squared mean, clamped below at zero, [64, 128]. -/
def term_var : FVec Ideal S64x128 .f32 :=
  maximumf
    (subf
      (Host.divf (extractStridedSlice S64x128 ![0, 0] (term_sq W) slices_S64x480_S64x128_0_0)
        (broadcastInDim S64x128 ![0, 1] bcast_S64x1_S64x128_0_1 (term_cnt W)))
      (mulf (term_mean W) (term_mean W)))
    (broadcastInDim S64x128 ![] bcast_S_S64x128 (constant (F := Ideal) S_ .f32 0x00000000#32))

/-- The mean square of a triple: its three columns' sums of squares added, divided by three, then by the counts, [64, 64]. -/
def term_m3 : FVec Ideal S64x64 .f32 :=
  Host.divf
    (Host.divf
      (Host.reduceAdd
        (shapeCast S64x64x3 (extractStridedSlice S64x192 ![0, 128] (term_sq W) slices_S64x480_S64x192_0_128) shapeCasts_S64x192_S64x64x3)
        (constant (F := Ideal) S_ .f32 0x00000000#32) reducesTo_S64x64x3_S64x64_d2 h_S_)
      (broadcastInDim S64x64 ![] bcast_S_S64x64 (constant (F := Ideal) S_ .f32 0x40400000#32)))
    (broadcastInDim S64x64 ![0, 1] bcast_S64x1_S64x64_0_1 (term_cnt W))

/-- The mean square of a quintuple: its five columns' sums of squares added, divided by five, then by the counts, [64, 32]. -/
def term_m5 : FVec Ideal S64x32 .f32 :=
  Host.divf
    (Host.divf
      (Host.reduceAdd
        (shapeCast S64x32x5 (extractStridedSlice S64x160 ![0, 320] (term_sq W) slices_S64x480_S64x160_0_320) shapeCasts_S64x160_S64x32x5)
        (constant (F := Ideal) S_ .f32 0x00000000#32) reducesTo_S64x32x5_S64x32_d2 h_S_)
      (broadcastInDim S64x32 ![] bcast_S_S64x32 (constant (F := Ideal) S_ .f32 0x40A00000#32)))
    (broadcastInDim S64x32 ![0, 1] bcast_S64x1_S64x32_0_1 (term_cnt W))

/-- The scalar columns' scale: the variance plus the small constant, to the power minus one half, times the weight's
    first 128 entries broadcast down the rows, [64, 128]. -/
def term_scale1 : FVec Ideal S64x128 .f32 :=
  mulf
    (Host.powf
      (addf (term_var W) (broadcastInDim S64x128 ![] bcast_S_S64x128 (constant (F := Ideal) S_ .f32 0x3727C5AC#32)))
      (broadcastInDim S64x128 ![] bcast_S_S64x128 (constant (F := Ideal) S_ .f32 0xBF000000#32)))
    (broadcastInDim S64x128 ![0, 1] bcast_S1x128_S64x128_0_1
      (broadcastInDim S1x128 ![1] bcast_S128_S1x128_1
        (extractStridedSlice S128 ![0] (W (Proc.devRef .tc main_arg2) : FVec Ideal S224 .f32) slices_S224_S128_0)))

/-- The triples' scale, with the weight's entries 128 … 191, [64, 64]. -/
def term_scale3 : FVec Ideal S64x64 .f32 :=
  mulf
    (Host.powf
      (addf (term_m3 W) (broadcastInDim S64x64 ![] bcast_S_S64x64 (constant (F := Ideal) S_ .f32 0x3727C5AC#32)))
      (broadcastInDim S64x64 ![] bcast_S_S64x64 (constant (F := Ideal) S_ .f32 0xBF000000#32)))
    (broadcastInDim S64x64 ![0, 1] bcast_S1x64_S64x64_0_1
      (broadcastInDim S1x64 ![1] bcast_S64_S1x64_1
        (extractStridedSlice S64 ![128] (W (Proc.devRef .tc main_arg2) : FVec Ideal S224 .f32) slices_S224_S64_128)))

/-- The quintuples' scale, with the weight's entries 192 … 223, [64, 32]. -/
def term_scale5 : FVec Ideal S64x32 .f32 :=
  mulf
    (Host.powf
      (addf (term_m5 W) (broadcastInDim S64x32 ![] bcast_S_S64x32 (constant (F := Ideal) S_ .f32 0x3727C5AC#32)))
      (broadcastInDim S64x32 ![] bcast_S_S64x32 (constant (F := Ideal) S_ .f32 0xBF000000#32)))
    (broadcastInDim S64x32 ![0, 1] bcast_S1x32_S64x32_0_1
      (broadcastInDim S1x32 ![1] bcast_S32_S1x32_1
        (extractStridedSlice S32 ![192] (W (Proc.devRef .tc main_arg2) : FVec Ideal S224 .f32) slices_S224_S32_192)))

/-- The scale table: the three groups' scales side by side, a triple's repeated over its three columns and a
    quintuple's over its five, [64, 480]. -/
def term_v58 : FVec Ideal S64x480 .f32 :=
  concatenate S64x480 1
    [⟨S64x128, term_scale1 W⟩,
     ⟨S64x192, shapeCast S64x192 (broadcastInDim S64x64x3 ![0, 1] bcast_S64x64_S64x64x3_0_1 (term_scale3 W)) shapeCasts_S64x64x3_S64x192⟩,
     ⟨S64x160, shapeCast S64x160 (broadcastInDim S64x32x5 ![0, 1] bcast_S64x32_S64x32x5_0_1 (term_scale5 W)) shapeCasts_S64x32x5_S64x160⟩]
    concatenates_S64x128_S64x192_S64x160_S64x480_d1

/-- The mean table: the means, then 352 columns of zeros, [64, 480]. -/
def term_v60 : FVec Ideal S64x480 .f32 :=
  concatenate S64x480 1
    [⟨S64x128, term_mean W⟩,
     ⟨S64x352, broadcastInDim S64x352 ![] bcast_S_S64x352 (constant (F := Ideal) S_ .f32 0x00000000#32)⟩]
    concatenates_S64x128_S64x352_S64x480_d1

/-- The shift row: the bias as one row, then 352 zeros, [1, 480]. -/
def term_v63 : FVec Ideal S1x480 .f32 :=
  concatenate S1x480 1
    [⟨S1x128, shapeCast S1x128 (W (Proc.devRef .tc main_arg3) : FVec Ideal S128 .f32) shapeCasts_S128_S1x128⟩,
     ⟨S1x352, broadcastInDim S1x352 ![] bcast_S_S1x352 (constant (F := Ideal) S_ .f32 0x00000000#32)⟩]
    concatenates_S1x128_S1x352_S1x480_d1

/-- The mean table narrowed to the shorter float format and widened back. -/
def term_v65 : FVec Ideal S64x480 .f32 :=
  extf .f32 (truncf .bf16 (term_v60 W) bitsLt_bf16_f32 : FVec Ideal S64x480 .bf16) bitsLt_bf16_f32
/-- The mean table minus that. -/
def term_v66 : FVec Ideal S64x480 .f32 := subf (term_v60 W) (term_v65 W)
/-- The scale table narrowed to the shorter float format and widened back. -/
def term_v68 : FVec Ideal S64x480 .f32 :=
  extf .f32 (truncf .bf16 (term_v58 W) bitsLt_bf16_f32 : FVec Ideal S64x480 .bf16) bitsLt_bf16_f32
/-- The scale table minus that. -/
def term_v69 : FVec Ideal S64x480 .f32 := subf (term_v58 W) (term_v68 W)

end Cert.KernelIdeal.Hand

end
-- ==== Proof.KI.HostMidEqs.lean ====
/-
  The host operations between the two launches, one stretch at a time: what the first stretch leaves in the few buffers
  the second reads (the means, the quintuples' mean squares, the scalar columns' and the triples' scales, the small
  additive constant, the weight and the bias untouched), what the second stretch makes of any such contents, and, put
  together, that each of the five tables the second launch reads — and the two tables before the change of float
  format — is the term that composes the operations over the contents the first launch left.
-/
import proofs.«412429_j58076547777199_3_alg».proof.Proof.KI.HostMidTerms
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

-- the unscoped buffers' contents when the first launch has ended: a parameter
variable (W : Valuation τ sig (Elt Ideal))

/-- The three-operand operation's result at its own buffer: the three buffers' contents laid side by side. -/
theorem v58_result (hxs hy) (G : Valuation τ sig (Elt Ideal)) :
    (StableHlo.nary (τ := τ) ![main_v37, main_v55, main_v57] main_v58
        (fun u => concatenate S64x480 1 [⟨S64x128, u 0⟩, ⟨S64x192, u 1⟩, ⟨S64x160, u 2⟩] concatenates_S64x128_S64x192_S64x160_S64x480_d1)
        hxs hy).result G (no_index (Proc.devRef .tc main_v58))
      = concatenate S64x480 1 [⟨S64x128, G (Proc.devRef .tc main_v37)⟩, ⟨S64x192, G (Proc.devRef .tc main_v55)⟩,
          ⟨S64x160, G (Proc.devRef .tc main_v57)⟩] concatenates_S64x128_S64x192_S64x160_S64x480_d1 := by
  rw [StableHlo.nary_result]; rfl

/-- Each operation's result at its own buffer is its function's value, and at any other buffer what was there: one pass. -/
macro "host_results" : tactic =>
  `(tactic| (simp (disch := decide) only [StableHlo.after_cons, StableHlo.after_nil,
      StableHlo.nullary_result', StableHlo.unary_result', StableHlo.binary_result', StableHlo.reshape_result', v58_result,
      StableHlo.nullary_result_ne', StableHlo.unary_result_ne', StableHlo.binary_result_ne', StableHlo.reshape_result_ne',
      StableHlo.nary_result_ne']))

/-! ## The second stretch, from any contents -/

/-- The contents after the first stretch of host operations. -/
abbrev bef : Valuation τ sig (Elt Ideal) := StableHlo.after main_part0_ops1 W

variable (V : Valuation τ sig (Elt Ideal))
/-- The contents after the second stretch, from contents `V`. -/
abbrev aft : Valuation τ sig (Elt Ideal) := StableHlo.after main_part1_ops0 V

/-- The quintuples' scale, the scale table and the mean table as the second stretch computes them from `V`. -/
abbrev sc5 : FVec Ideal S64x32 .f32 :=
  mulf (Host.powf (addf (V (Proc.devRef .tc main_v29) : FVec Ideal S64x32 .f32)
            (broadcastInDim S64x32 ![] bcast_S_S64x32 (V (Proc.devRef .tc main_cst_12) : FVec Ideal S_ .f32)))
          (broadcastInDim S64x32 ![] bcast_S_S64x32 (constant (F := Ideal) S_ .f32 0xBF000000#32)))
    (broadcastInDim S64x32 ![0, 1] bcast_S1x32_S64x32_0_1 (broadcastInDim S1x32 ![1] bcast_S32_S1x32_1
      (extractStridedSlice S32 ![192] (V (Proc.devRef .tc main_arg2) : FVec Ideal S224 .f32) slices_S224_S32_192)))
abbrev t58 : FVec Ideal S64x480 .f32 :=
  concatenate S64x480 1 [⟨S64x128, (V (Proc.devRef .tc main_v37) : FVec Ideal S64x128 .f32)⟩,
    ⟨S64x192, shapeCast S64x192 (broadcastInDim S64x64x3 ![0, 1] bcast_S64x64_S64x64x3_0_1 (V (Proc.devRef .tc main_v45) : FVec Ideal S64x64 .f32)) shapeCasts_S64x64x3_S64x192⟩,
    ⟨S64x160, shapeCast S64x160 (broadcastInDim S64x32x5 ![0, 1] bcast_S64x32_S64x32x5_0_1 (sc5 V)) shapeCasts_S64x32x5_S64x160⟩]
    concatenates_S64x128_S64x192_S64x160_S64x480_d1
abbrev t60 : FVec Ideal S64x480 .f32 :=
  concatenate S64x480 1 [⟨S64x128, (V (Proc.devRef .tc main_v8) : FVec Ideal S64x128 .f32)⟩,
    ⟨S64x352, broadcastInDim S64x352 ![] bcast_S_S64x352 (constant (F := Ideal) S_ .f32 0x00000000#32)⟩] concatenates_S64x128_S64x352_S64x480_d1

theorem s2_v58 : (aft V (Proc.devRef .tc main_v58) : FVec Ideal S64x480 .f32) = t58 V := by
  dsimp only [aft, t58, sc5, main_part1_ops0]
  host_results
  all_goals rfl
theorem s2_v60 : (aft V (Proc.devRef .tc main_v60) : FVec Ideal S64x480 .f32) = t60 V := by
  dsimp only [aft, t60, main_part1_ops0]
  host_results
  all_goals rfl
theorem s2_v63 : (aft V (Proc.devRef .tc main_v63) : FVec Ideal S1x480 .f32)
      = concatenate S1x480 1 [⟨S1x128, shapeCast S1x128 (V (Proc.devRef .tc main_arg3) : FVec Ideal S128 .f32) shapeCasts_S128_S1x128⟩,
          ⟨S1x352, broadcastInDim S1x352 ![] bcast_S_S1x352 (constant (F := Ideal) S_ .f32 0x00000000#32)⟩] concatenates_S1x128_S1x352_S1x480_d1 := by
  dsimp only [aft, main_part1_ops0]
  host_results
  all_goals rfl
theorem s2_v65 : (aft V (Proc.devRef .tc main_v65) : FVec Ideal S64x480 .f32)
      = (extf .f32 (truncf .bf16 (t60 V) bitsLt_bf16_f32 : FVec Ideal S64x480 .bf16) bitsLt_bf16_f32 : FVec Ideal S64x480 .f32) := by
  dsimp only [aft, t60, main_part1_ops0]
  host_results
  all_goals rfl
theorem s2_v66 : (aft V (Proc.devRef .tc main_v66) : FVec Ideal S64x480 .f32)
      = (subf (t60 V) (extf .f32 (truncf .bf16 (t60 V) bitsLt_bf16_f32 : FVec Ideal S64x480 .bf16) bitsLt_bf16_f32 : FVec Ideal S64x480 .f32) : FVec Ideal S64x480 .f32) := by
  dsimp only [aft, t60, main_part1_ops0]
  host_results
  all_goals rfl
theorem s2_v68 : (aft V (Proc.devRef .tc main_v68) : FVec Ideal S64x480 .f32)
      = (extf .f32 (truncf .bf16 (t58 V) bitsLt_bf16_f32 : FVec Ideal S64x480 .bf16) bitsLt_bf16_f32 : FVec Ideal S64x480 .f32) := by
  dsimp only [aft, t58, sc5, main_part1_ops0]
  host_results
  all_goals rfl
theorem s2_v69 : (aft V (Proc.devRef .tc main_v69) : FVec Ideal S64x480 .f32)
      = (subf (t58 V) (extf .f32 (truncf .bf16 (t58 V) bitsLt_bf16_f32 : FVec Ideal S64x480 .bf16) bitsLt_bf16_f32 : FVec Ideal S64x480 .f32) : FVec Ideal S64x480 .f32) := by
  dsimp only [aft, t58, sc5, main_part1_ops0]
  host_results
  all_goals rfl

/-! ## The first stretch: the buffers the second stretch reads -/

theorem s1_mean : (bef W (Proc.devRef .tc main_v8) : FVec Ideal S64x128 .f32) = term_mean W := by
  unfold term_mean term_cnt
  dsimp only [bef, main_part0_ops1]
  after_results_simp
  all_goals rfl
theorem s1_m5 : (bef W (Proc.devRef .tc main_v29) : FVec Ideal S64x32 .f32) = term_m5 W := by
  unfold term_m5 term_sq term_cnt
  dsimp only [bef, main_part0_ops1]
  after_results_simp
  all_goals rfl
theorem s1_scale1 : (bef W (Proc.devRef .tc main_v37) : FVec Ideal S64x128 .f32) = term_scale1 W := by
  unfold term_scale1 term_var term_mean term_sq term_cnt
  dsimp only [bef, main_part0_ops1]
  after_results_simp
  all_goals rfl
theorem s1_scale3 : (bef W (Proc.devRef .tc main_v45) : FVec Ideal S64x64 .f32) = term_scale3 W := by
  unfold term_scale3 term_m3 term_sq term_cnt
  dsimp only [bef, main_part0_ops1]
  after_results_simp
  all_goals rfl
theorem s1_eps : (bef W (Proc.devRef .tc main_cst_12) : FVec Ideal S_ .f32) = constant (F := Ideal) S_ .f32 0x3727C5AC#32 := by
  dsimp only [bef, main_part0_ops1]
  after_results_simp
  all_goals rfl
theorem s1_arg2 : bef W (Proc.devRef .tc main_arg2) = W (Proc.devRef .tc main_arg2) := by
  dsimp only [bef, main_part0_ops1]
  after_results_simp
  all_goals rfl
theorem s1_arg3 : bef W (Proc.devRef .tc main_arg3) = W (Proc.devRef .tc main_arg3) := by
  dsimp only [bef, main_part0_ops1]
  after_results_simp
  all_goals rfl

/-! ## The two stretches together -/

theorem mid_v60 : (StableHlo.after main_part1_ops0 (StableHlo.after main_part0_ops1 W) (Proc.devRef .tc main_v60) : FVec Ideal S64x480 .f32) = term_v60 W := by
  refine (s2_v60 (bef W)).trans ?_
  unfold term_v60
  dsimp only [t60]
  rw [s1_mean W]
theorem mid_v58 : (StableHlo.after main_part1_ops0 (StableHlo.after main_part0_ops1 W) (Proc.devRef .tc main_v58) : FVec Ideal S64x480 .f32) = term_v58 W := by
  refine (s2_v58 (bef W)).trans ?_
  unfold term_v58 term_scale5
  dsimp only [t58, sc5]
  rw [s1_scale1 W, s1_scale3 W, s1_m5 W, s1_eps W, s1_arg2 W]
theorem mid_v65 : (StableHlo.after main_part1_ops0 (StableHlo.after main_part0_ops1 W) (Proc.devRef .tc main_v65) : FVec Ideal S64x480 .f32) = term_v65 W := by
  refine (s2_v65 (bef W)).trans ?_
  unfold term_v65 term_v60
  dsimp only [t60]
  rw [s1_mean W]
theorem mid_v66 : (StableHlo.after main_part1_ops0 (StableHlo.after main_part0_ops1 W) (Proc.devRef .tc main_v66) : FVec Ideal S64x480 .f32) = term_v66 W := by
  refine (s2_v66 (bef W)).trans ?_
  unfold term_v66 term_v65 term_v60
  dsimp only [t60]
  rw [s1_mean W]
theorem mid_v68 : (StableHlo.after main_part1_ops0 (StableHlo.after main_part0_ops1 W) (Proc.devRef .tc main_v68) : FVec Ideal S64x480 .f32) = term_v68 W := by
  refine (s2_v68 (bef W)).trans ?_
  unfold term_v68 term_v58 term_scale5
  dsimp only [t58, sc5]
  rw [s1_scale1 W, s1_scale3 W, s1_m5 W, s1_eps W, s1_arg2 W]
theorem mid_v69 : (StableHlo.after main_part1_ops0 (StableHlo.after main_part0_ops1 W) (Proc.devRef .tc main_v69) : FVec Ideal S64x480 .f32) = term_v69 W := by
  refine (s2_v69 (bef W)).trans ?_
  unfold term_v69 term_v68 term_v58 term_scale5
  dsimp only [t58, sc5]
  rw [s1_scale1 W, s1_scale3 W, s1_m5 W, s1_eps W, s1_arg2 W]
theorem mid_v63 : (StableHlo.after main_part1_ops0 (StableHlo.after main_part0_ops1 W) (Proc.devRef .tc main_v63) : FVec Ideal S1x480 .f32) = term_v63 W := by
  refine (s2_v63 (bef W)).trans ?_
  unfold term_v63
  rw [s1_arg3 W]

end Cert.KernelIdeal.Hand

end
-- ==== Proof.KI.HostMidReadMean.lean ====
/-
  The mean table and the shift row the host operations between the two launches build, read at one entry: the mean
  table is a scalar column's mean (the two halves' sums over the two halves' clamped counts) and zero elsewhere; the
  change of float format and back is the identity over the extended reals, so the "high" table is the mean table and the
  "low" table is the mean table minus itself; the shift row is the bias on a scalar column and zero elsewhere.
-/
import proofs.«412429_j58076547777199_3_alg».proof.Proof.KI.HostMidTerms
import proofs.«412429_j58076547777199_3_alg».proof.Proof.Spec
import proofs.«412429_j58076547777199_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

/-! ## The operations met, each read at explicit coordinates, at any extents -/

namespace MeanRead

/-- The host's sum over the LEADING axis of a rank-3 array, at (g, j): the initial value plus the sum over that axis. -/
theorem reduceAdd_lead {n0 n1 n2 : Nat} {u : Shape} (x : FVec Ideal ⟨3, ![n0, n1, n2]⟩ .f32) (init : FVec Ideal u .f32)
    (h : (⟨3, ![n0, n1, n2]⟩ : Shape).ReducesTo [0] ⟨2, ![n1, n2]⟩) (hr : (⟨3, ![n0, n1, n2]⟩ : Shape).Reduces [0] ⟨2, ![n1, n2]⟩)
    (hu : 0 < u.numel) (g : Fin n1) (j : Fin n2) :
    Host.reduceAdd x init h hu (ix2 g j) = init (Shape.Idx.first hu) + ∑ a : Fin n0, x (ix3 a g j) := by
  simp only [Host.reduceAdd, Ideal.hostReduceAdd_def]
  rw [Ideal.hostReduceAdd_single h hr]
  refine congrArg (_ + ·) (Finset.sum_congr rfl fun k _ => ?_)
  exact congrArg x (funext fun a => Fin.ext (by match a with | ⟨0, _⟩ => rfl | ⟨1, _⟩ => rfl | ⟨2, _⟩ => rfl))

/-- The host's quotient at an index is the extended reals' division of the entries. -/
theorem hostDivf_apply {s : Shape} {φ : FTy} (a b : FVec Ideal s φ) (i : s.Idx) : Host.divf a b i = Ideal.div (a i) (b i) := rfl

section Layout
variable {α : Type}

/-- A scalar broadcast reads the scalar. -/
theorem bcast_scalar {t : Shape} (h : (⟨0, ![]⟩ : Shape).BroadcastsInDim t ![]) (v : (⟨0, ![]⟩ : Shape).Idx → α) (j : t.Idx) :
    broadcastInDim t ![] h v j = v ix0 :=
  broadcastInDim_apply _ h v j ix0 (fun a => a.elim0)

/-- A column [n, 1] broadcast along the rows of [n, m] reads, at (g, j), the column at g. -/
theorem bcast_col {n m : Nat} (h : (⟨2, ![n, 1]⟩ : Shape).BroadcastsInDim ⟨2, ![n, m]⟩ ![0, 1])
    (v : (⟨2, ![n, 1]⟩ : Shape).Idx → α) (g : Fin n) (j : Fin m) :
    broadcastInDim ⟨2, ![n, m]⟩ ![0, 1] h v (ix2 g j) = v (ix2 g 0) :=
  broadcastInDim_apply _ h v _ _ (fun a => match a with
    | ⟨0, _⟩ => by
      show g.val = if n = 1 then 0 else g.val
      split
      · have := g.isLt; omega
      · rfl
    | ⟨1, _⟩ => by
      show (0 : Nat) = if (1 : Nat) = 1 then 0 else j.val
      rw [if_pos rfl])

/-- Two blocks of columns side by side, read in the first block. -/
theorem concat2_left {n m1 m2 m : Nat} (x1 : (⟨2, ![n, m1]⟩ : Shape).Idx → α) (x2 : (⟨2, ![n, m2]⟩ : Shape).Idx → α)
    (h : Shape.Concatenates [⟨2, ![n, m1]⟩, ⟨2, ![n, m2]⟩] ⟨2, ![n, m]⟩ 1) (g : Fin n) (j : Fin m) (q : Fin m1)
    (hq : q.val = j.val) :
    concatenate ⟨2, ![n, m]⟩ 1 [⟨⟨2, ![n, m1]⟩, x1⟩, ⟨⟨2, ![n, m2]⟩, x2⟩] h (ix2 g j) = x1 (ix2 g q) :=
  concatenate_pair_apply_left 1 x1 x2 h (ix2 g j) rfl (ix2 g q) (fun b => match b with
    | ⟨0, _⟩ => rfl
    | ⟨1, _⟩ => hq)

/-- Two blocks of columns side by side, read in the second block. -/
theorem concat2_right {n m1 m2 m : Nat} (x1 : (⟨2, ![n, m1]⟩ : Shape).Idx → α) (x2 : (⟨2, ![n, m2]⟩ : Shape).Idx → α)
    (h : Shape.Concatenates [⟨2, ![n, m1]⟩, ⟨2, ![n, m2]⟩] ⟨2, ![n, m]⟩ 1) (g : Fin n) (j : Fin m) (q : Fin m2)
    (hq : q.val + m1 = j.val) :
    concatenate ⟨2, ![n, m]⟩ 1 [⟨⟨2, ![n, m1]⟩, x1⟩, ⟨⟨2, ![n, m2]⟩, x2⟩] h (ix2 g j) = x2 (ix2 g q) :=
  concatenate_pair_apply_right 1 x1 x2 h (ix2 g j) rfl rfl (ix2 g q) (fun b hb => match b, hb with
    | ⟨0, _⟩, _ => rfl
    | ⟨1, _⟩, hb => absurd rfl hb) hq

end Layout

end MeanRead

open MeanRead

-- the unscoped buffers' contents when the first launch has ended: a parameter
variable (W : Valuation τ sig (Elt Ideal))

/-- The clamped count of graph g: the two halves' counts added from zero, or one if that is less. -/
theorem mean_cnt (g : Fin 64) :
    term_cnt W (ix2 g 0)
      = Spec.tcnt (fun h g => (W (Proc.devRef .tc main_v1_2) : FVec Ideal S2x64x1 .f32) (ix3 h g 0)) g := by
  unfold term_cnt Spec.tcnt
  rw [maximumf_apply, reduceAdd_lead _ _ reducesTo_S2x64x1_S64x1_d0 (by decide) h_S_ g 0, bcast_scalar, constant_apply,
    constant_apply, Consts.ofBits_zero, Consts.ofBits_one]

/-- The mean of scalar column j of graph g. -/
theorem mean_mean (g : Fin 64) (j : Fin 128) :
    term_mean W (ix2 g j)
      = Spec.tmean (fun h g j => (W (Proc.devRef .tc main_v1_0) : FVec Ideal S2x64x128 .f32) (ix3 h g j))
          (fun h g => (W (Proc.devRef .tc main_v1_2) : FVec Ideal S2x64x1 .f32) (ix3 h g 0)) g j := by
  unfold term_mean Spec.tmean Spec.tsum
  rw [hostDivf_apply, reduceAdd_lead _ _ reducesTo_S2x64x128_S64x128_d0 (by decide) h_S_ g j, bcast_col, mean_cnt, constant_apply,
    Consts.ofBits_zero]

/-- The mean table before the change of format: a scalar column's mean, zero in every other column. -/
theorem mean_v60 (g : Fin 64) (j : Fin 480) :
    term_v60 W (ix2 g j)
      = Spec.tmeanFull (fun h g j => (W (Proc.devRef .tc main_v1_0) : FVec Ideal S2x64x128 .f32) (ix3 h g j))
          (fun h g => (W (Proc.devRef .tc main_v1_2) : FVec Ideal S2x64x1 .f32) (ix3 h g 0)) g j := by
  unfold term_v60 Spec.tmeanFull
  by_cases hj : j.val < 128
  · rw [dif_pos hj, concat2_left _ _ concatenates_S64x128_S64x352_S64x480_d1 g j ⟨j.val, hj⟩ rfl]
    exact mean_mean W g ⟨j.val, hj⟩
  · rw [dif_neg hj, concat2_right _ _ concatenates_S64x128_S64x352_S64x480_d1 g j ⟨j.val - 128, by have := j.isLt; omega⟩
      (by show j.val - 128 + 128 = j.val; omega), bcast_scalar, constant_apply, Consts.ofBits_zero]

/-- The "high" mean table: narrowing to the shorter format and widening back changes nothing over the extended reals. -/
theorem mean_v65 (g : Fin 64) (j : Fin 480) :
    term_v65 W (ix2 g j)
      = Spec.tmeanFull (fun h g j => (W (Proc.devRef .tc main_v1_0) : FVec Ideal S2x64x128 .f32) (ix3 h g j))
          (fun h g => (W (Proc.devRef .tc main_v1_2) : FVec Ideal S2x64x1 .f32) (ix3 h g 0)) g j := by
  unfold term_v65
  rw [extf_apply, truncf_apply]
  exact mean_v60 W g j

/-- The "low" mean table: the mean table minus the "high" one. -/
theorem mean_v66 (g : Fin 64) (j : Fin 480) :
    term_v66 W (ix2 g j)
      = Spec.tmeanFull (fun h g j => (W (Proc.devRef .tc main_v1_0) : FVec Ideal S2x64x128 .f32) (ix3 h g j))
          (fun h g => (W (Proc.devRef .tc main_v1_2) : FVec Ideal S2x64x1 .f32) (ix3 h g 0)) g j
        - Spec.tmeanFull (fun h g j => (W (Proc.devRef .tc main_v1_0) : FVec Ideal S2x64x128 .f32) (ix3 h g j))
          (fun h g => (W (Proc.devRef .tc main_v1_2) : FVec Ideal S2x64x1 .f32) (ix3 h g 0)) g j := by
  unfold term_v66
  rw [subf_apply, mean_v60, mean_v65]

/-- The shift row: the bias on a scalar column, zero elsewhere. -/
theorem mean_v63 (j : Fin 480) :
    term_v63 W (ix2 0 j) = Spec.tbiasFull (fun k => (W (Proc.devRef .tc main_arg3) : FVec Ideal S128 .f32) (ix1 k)) j := by
  unfold term_v63 Spec.tbiasFull
  by_cases hj : j.val < 128
  · rw [dif_pos hj, concat2_left _ _ concatenates_S1x128_S1x352_S1x480_d1 0 j ⟨j.val, hj⟩ rfl]
    exact shapeCast_a_1a_apply _ shapeCasts_S128_S1x128 0 ⟨j.val, hj⟩
  · rw [dif_neg hj, concat2_right _ _ concatenates_S1x128_S1x352_S1x480_d1 0 j ⟨j.val - 128, by have := j.isLt; omega⟩
      (by show j.val - 128 + 128 = j.val; omega), bcast_scalar, constant_apply, Consts.ofBits_zero]

end Cert.KernelIdeal.Hand

end
-- ==== Proof.KI.HostMidReadScale.lean ====
/-
  The scale table the host operations between the two launches build, read at row g and column j: by column group, the
  inverse root of the variance of a scalar column (or of the mean square of a triple or quintuple) plus the small
  constant, times the group's weight; and the same table minus itself.
-/
import proofs.«412429_j58076547777199_3_alg».proof.Proof.KI.HostMidTerms
import proofs.«412429_j58076547777199_3_alg».proof.Proof.Spec
import proofs.«412429_j58076547777199_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

variable (W : Valuation τ sig (Elt Ideal))

/-- The per-half accumulators and the weight as plain functions of their coordinates. -/
private abbrev cale_A2 : Fin 2 → Fin 64 → Fin 128 → EReal := fun h g j => (W (Proc.devRef .tc main_v1_0) : FVec Ideal S2x64x128 .f32) (ix3 h g j)
private abbrev cale_A3 : Fin 2 → Fin 64 → Fin 480 → EReal := fun h g j => (W (Proc.devRef .tc main_v1_1) : FVec Ideal S2x64x480 .f32) (ix3 h g j)
private abbrev cale_A4 : Fin 2 → Fin 64 → EReal := fun h g => (W (Proc.devRef .tc main_v1_2) : FVec Ideal S2x64x1 .f32) (ix3 h g 0)
private abbrev cale_wv : Fin 224 → EReal := fun k => (W (Proc.devRef .tc main_arg2) : FVec Ideal S224 .f32) (ix1 k)

/-! ## Reads at explicit coordinates -/

/-- The scalar constants 0.0 and 1.0 at their one index. -/
private theorem cale_zero (i : S_.Idx) : constant (F := Ideal) S_ .f32 0x00000000#32 i = 0 := by
  rw [constant_apply, Consts.ofBits_zero]
private theorem cale_one (i : S_.Idx) : constant (F := Ideal) S_ .f32 0x3F800000#32 i = 1 := by
  rw [constant_apply, Consts.ofBits_one]

/-- The host's quotient and power are taken entry by entry. -/
private theorem cale_hdiv {s : Shape} (a b : FVec Ideal s .f32) (i : s.Idx) : Host.divf a b i = Ideal.div (a i) (b i) := rfl
private theorem cale_hpow {s : Shape} (a b : FVec Ideal s .f32) (i : s.Idx) : Host.powf a b i = Ideal.pow (a i) (b i) := rfl

/-- The host's sum over the leading axis of a rank-3 array at (g, j): the initial value plus the sum over that axis. -/
private theorem cale_sum_lead {n0 n1 n2 : Nat} {u : Shape} (x : FVec Ideal ⟨3, ![n0, n1, n2]⟩ .f32) (init : FVec Ideal u .f32)
    (h : (⟨3, ![n0, n1, n2]⟩ : Shape).ReducesTo [0] ⟨2, ![n1, n2]⟩) (hr : (⟨3, ![n0, n1, n2]⟩ : Shape).Reduces [0] ⟨2, ![n1, n2]⟩)
    (hu : 0 < u.numel) (g : Fin n1) (j : Fin n2) :
    Host.reduceAdd x init h hu (ix2 g j) = init (Shape.Idx.first hu) + ∑ a : Fin n0, x (ix3 a g j) := by
  simp only [Host.reduceAdd, Ideal.hostReduceAdd_def]
  rw [Ideal.hostReduceAdd_single h hr]
  refine congrArg (_ + ·) (Finset.sum_congr rfl fun k _ => congrArg x (funext fun a => Fin.ext ?_))
  match a with
  | ⟨0, _⟩ => rfl
  | ⟨1, _⟩ => rfl
  | ⟨2, _⟩ => rfl

/-- The host's sum over the last axis of a rank-3 array at (g, i). -/
private theorem cale_sum_last {n0 n1 n2 : Nat} {u : Shape} (x : FVec Ideal ⟨3, ![n0, n1, n2]⟩ .f32) (init : FVec Ideal u .f32)
    (h : (⟨3, ![n0, n1, n2]⟩ : Shape).ReducesTo [2] ⟨2, ![n0, n1]⟩) (hr : (⟨3, ![n0, n1, n2]⟩ : Shape).Reduces [2] ⟨2, ![n0, n1]⟩)
    (hu : 0 < u.numel) (g : Fin n0) (i : Fin n1) :
    Host.reduceAdd x init h hu (ix2 g i) = init (Shape.Idx.first hu) + ∑ k : Fin n2, x (ix3 g i k) := by
  simp only [Host.reduceAdd, Ideal.hostReduceAdd_def]
  rw [Ideal.hostReduceAdd_single h hr]
  refine congrArg (_ + ·) (Finset.sum_congr rfl fun k _ => congrArg x (funext fun a => Fin.ext ?_))
  match a with
  | ⟨0, _⟩ => rfl
  | ⟨1, _⟩ => rfl
  | ⟨2, _⟩ => rfl

section
variable {α : Type}

/-- A scalar spread over a shape reads the scalar. -/
private theorem cale_scalar {t : Shape} (h : (⟨0, ![]⟩ : Shape).BroadcastsInDim t ![]) (v : (⟨0, ![]⟩ : Shape).Idx → α) (j : t.Idx) :
    broadcastInDim t ![] h v j = v ix0 :=
  broadcastInDim_apply _ h v j ix0 (fun a => a.elim0)

/-- A column [64, 1] spread along the rows of [64, m] reads, at (g, j), the column at g. -/
private theorem cale_col {m : Nat} (h : (⟨2, ![64, 1]⟩ : Shape).BroadcastsInDim ⟨2, ![64, m]⟩ ![0, 1])
    (v : (⟨2, ![64, 1]⟩ : Shape).Idx → α) (g : Fin 64) (j : Fin m) :
    broadcastInDim ⟨2, ![64, m]⟩ ![0, 1] h v (ix2 g j) = v (ix2 g 0) :=
  broadcastInDim_apply _ h v _ _ (fun a => match a with
    | ⟨0, _⟩ => by show g.val = if (64 : Nat) = 1 then 0 else g.val; rw [if_neg (by decide)]
    | ⟨1, _⟩ => by show (0 : Nat) = if (1 : Nat) = 1 then 0 else j.val; rw [if_pos rfl])

/-- A row [1, m] spread down the 64 rows reads, at (g, j), the row at j. -/
private theorem cale_row {m : Nat} (h : (⟨2, ![1, m]⟩ : Shape).BroadcastsInDim ⟨2, ![64, m]⟩ ![0, 1])
    (v : (⟨2, ![1, m]⟩ : Shape).Idx → α) (g : Fin 64) (j : Fin m) :
    broadcastInDim ⟨2, ![64, m]⟩ ![0, 1] h v (ix2 g j) = v (ix2 0 j) :=
  broadcastInDim_apply _ h v _ _ (fun a => match a with
    | ⟨0, _⟩ => by show (0 : Nat) = if (1 : Nat) = 1 then 0 else g.val; rw [if_pos rfl]
    | ⟨1, _⟩ => by
      show j.val = if m = 1 then 0 else j.val
      split
      · have := j.isLt; omega
      · rfl)

/-- A vector [m] as the one row of [1, m] reads, at (0, j), the vector at j. -/
private theorem cale_vecrow {m : Nat} (h : (⟨1, ![m]⟩ : Shape).BroadcastsInDim ⟨2, ![1, m]⟩ ![1])
    (v : (⟨1, ![m]⟩ : Shape).Idx → α) (u : Fin 1) (j : Fin m) :
    broadcastInDim ⟨2, ![1, m]⟩ ![1] h v (ix2 u j) = v (ix1 j) :=
  broadcastInDim_apply _ h v _ _ (fun a => match a with
    | ⟨0, _⟩ => by
      show j.val = if m = 1 then 0 else j.val
      split
      · have := j.isLt; omega
      · rfl)

/-- A table [64, a] repeated along a new last axis [64, a, b] reads, at (g, i, k), the table at (g, i). -/
private theorem cale_rep {a b : Nat} (h : (⟨2, ![64, a]⟩ : Shape).BroadcastsInDim ⟨3, ![64, a, b]⟩ ![0, 1])
    (v : (⟨2, ![64, a]⟩ : Shape).Idx → α) (g : Fin 64) (i : Fin a) (k : Fin b) :
    broadcastInDim ⟨3, ![64, a, b]⟩ ![0, 1] h v (ix3 g i k) = v (ix2 g i) :=
  broadcastInDim_apply _ h v _ _ (fun ax => match ax with
    | ⟨0, _⟩ => by show g.val = if (64 : Nat) = 1 then 0 else g.val; rw [if_neg (by decide)]
    | ⟨1, _⟩ => by
      show i.val = if a = 1 then 0 else i.val
      split
      · have := i.isLt; omega
      · rfl)

/-- Three blocks of 128, 192 and 160 columns side by side, read in the first, second and third block. -/
private theorem cale_cat_fst (x1 : S64x128.Idx → α) (x2 : S64x192.Idx → α) (x3 : S64x160.Idx → α) (g : Fin 64) (c : Fin 480)
    (hc : c.val < 128) :
    concatenate S64x480 1 [⟨S64x128, x1⟩, ⟨S64x192, x2⟩, ⟨S64x160, x3⟩] concatenates_S64x128_S64x192_S64x160_S64x480_d1 (ix2 g c)
      = x1 (ix2 g ⟨c.val, hc⟩) :=
  concatenate_apply_piece 1 [⟨S64x128, x1⟩, ⟨S64x192, x2⟩, ⟨S64x160, x3⟩] concatenates_S64x128_S64x192_S64x160_S64x480_d1 (ix2 g c)
    0 (by simp) S64x128 x1 rfl rfl 0 rfl (ix2 g ⟨c.val, hc⟩)
    (fun b hb => match b, hb with
      | ⟨0, _⟩, _ => rfl
      | ⟨1, _⟩, hb => absurd rfl hb) (by show 0 + c.val = c.val; omega)
private theorem cale_cat_snd (x1 : S64x128.Idx → α) (x2 : S64x192.Idx → α) (x3 : S64x160.Idx → α) (g : Fin 64) (c : Fin 480)
    (h1 : 128 ≤ c.val) (h2 : c.val < 320) :
    concatenate S64x480 1 [⟨S64x128, x1⟩, ⟨S64x192, x2⟩, ⟨S64x160, x3⟩] concatenates_S64x128_S64x192_S64x160_S64x480_d1 (ix2 g c)
      = x2 (ix2 g ⟨c.val - 128, by omega⟩) :=
  concatenate_apply_piece 1 [⟨S64x128, x1⟩, ⟨S64x192, x2⟩, ⟨S64x160, x3⟩] concatenates_S64x128_S64x192_S64x160_S64x480_d1 (ix2 g c)
    1 (by simp) S64x192 x2 rfl rfl 128 (by simp) (ix2 g ⟨c.val - 128, by omega⟩)
    (fun b hb => match b, hb with
      | ⟨0, _⟩, _ => rfl
      | ⟨1, _⟩, hb => absurd rfl hb) (by show 128 + (c.val - 128) = c.val; omega)
private theorem cale_cat_thd (x1 : S64x128.Idx → α) (x2 : S64x192.Idx → α) (x3 : S64x160.Idx → α) (g : Fin 64) (c : Fin 480)
    (h2 : 320 ≤ c.val) :
    concatenate S64x480 1 [⟨S64x128, x1⟩, ⟨S64x192, x2⟩, ⟨S64x160, x3⟩] concatenates_S64x128_S64x192_S64x160_S64x480_d1 (ix2 g c)
      = x3 (ix2 g ⟨c.val - 320, by have := c.isLt; omega⟩) :=
  concatenate_apply_piece 1 [⟨S64x128, x1⟩, ⟨S64x192, x2⟩, ⟨S64x160, x3⟩] concatenates_S64x128_S64x192_S64x160_S64x480_d1 (ix2 g c)
    2 (by simp) S64x160 x3 rfl rfl 320 (by simp) (ix2 g ⟨c.val - 320, by have := c.isLt; omega⟩)
    (fun b hb => match b, hb with
      | ⟨0, _⟩, _ => rfl
      | ⟨1, _⟩, hb => absurd rfl hb) (by show 320 + (c.val - 320) = c.val; omega)

end

/-! ## The terms, one at a time -/

/-- The clamped count of graph g: the two halves' counts added, at least one. -/
private theorem cale_cnt (g : Fin 64) (k : Fin 1) : term_cnt W (ix2 g k) = Spec.tcnt (cale_A4 W) g := by
  unfold term_cnt
  rw [maximumf_apply, cale_sum_lead _ _ reducesTo_S2x64x1_S64x1_d0 (by decide) h_S_ g k, cale_zero, cale_scalar, cale_one]
  have hk : k = 0 := Fin.ext (by omega)
  subst hk
  rfl

/-- The sums of squares of column c over graph g: the two halves added. -/
private theorem cale_sq (g : Fin 64) (c : Fin 480) : term_sq W (ix2 g c) = Spec.tsq (cale_A3 W) g c := by
  unfold term_sq
  rw [cale_sum_lead _ _ reducesTo_S2x64x480_S64x480_d0 (by decide) h_S_ g c, cale_zero]
  rfl

/-- The mean of scalar column j over graph g. -/
private theorem cale_mean (g : Fin 64) (j : Fin 128) :
    term_mean W (ix2 g j) = Spec.tmean (cale_A2 W) (cale_A4 W) g j := by
  unfold term_mean
  rw [cale_hdiv, cale_sum_lead _ _ reducesTo_S2x64x128_S64x128_d0 (by decide) h_S_ g j, cale_zero, cale_col, cale_cnt]
  rfl

/-- The variance of scalar column j over graph g. -/
private theorem cale_var (g : Fin 64) (j : Fin 128) :
    term_var W (ix2 g j) = Spec.tvar (cale_A2 W) (cale_A3 W) (cale_A4 W) g j := by
  unfold term_var
  rw [maximumf_apply, subf_apply, cale_hdiv, mulf_apply, cale_mean, cale_col, cale_cnt, cale_scalar, cale_zero,
    extractStridedSlice_apply ![0, 0] (term_sq W) slices_S64x480_S64x128_0_0 (ix2 g j) (ix2 g (Spec.col1 j)) (fun a =>
      match a with
      | ⟨0, _⟩ => by show g.val = 0 + g.val; omega
      | ⟨1, _⟩ => by show j.val = 0 + j.val; omega),
    cale_sq]
  rfl

/-- The mean square of triple i over graph g. -/
private theorem cale_m3 (g : Fin 64) (i : Fin 64) :
    term_m3 W (ix2 g i) = Spec.tm3 (cale_A3 W) (cale_A4 W) g i := by
  unfold term_m3
  rw [cale_hdiv, cale_hdiv, cale_col, cale_cnt, cale_scalar, constant_apply,
    cale_sum_last _ _ reducesTo_S64x64x3_S64x64_d2 (by decide) h_S_ g i, cale_zero]
  have hk : ∀ k : Fin 3,
      shapeCast S64x64x3 (extractStridedSlice S64x192 ![0, 128] (term_sq W) slices_S64x480_S64x192_0_128) shapeCasts_S64x192_S64x64x3
        (ix3 g i k) = Spec.tsq (cale_A3 W) g (Spec.col3 i k) := fun k => by
    rw [shapeCast_apply _ shapeCasts_S64x192_S64x64x3 (ix3 g i k) (ix2 g ⟨3 * i.val + k.val, by omega⟩) (by
        rw [Shape.rowMajor_val_two, Shape.rowMajor_val_three]
        show g.val * 192 + (3 * i.val + k.val) = (g.val * 64 + i.val) * 3 + k.val
        omega),
      extractStridedSlice_apply ![0, 128] (term_sq W) slices_S64x480_S64x192_0_128 _ (ix2 g (Spec.col3 i k)) (fun a =>
        match a with
        | ⟨0, _⟩ => by show g.val = 0 + g.val; omega
        | ⟨1, _⟩ => by show 128 + 3 * i.val + k.val = 128 + (3 * i.val + k.val); omega),
      cale_sq]
  simp only [hk]
  rfl

/-- The mean square of quintuple i over graph g. -/
private theorem cale_m5 (g : Fin 64) (i : Fin 32) :
    term_m5 W (ix2 g i) = Spec.tm5 (cale_A3 W) (cale_A4 W) g i := by
  unfold term_m5
  rw [cale_hdiv, cale_hdiv, cale_col, cale_cnt, cale_scalar, constant_apply,
    cale_sum_last _ _ reducesTo_S64x32x5_S64x32_d2 (by decide) h_S_ g i, cale_zero]
  have hk : ∀ k : Fin 5,
      shapeCast S64x32x5 (extractStridedSlice S64x160 ![0, 320] (term_sq W) slices_S64x480_S64x160_0_320) shapeCasts_S64x160_S64x32x5
        (ix3 g i k) = Spec.tsq (cale_A3 W) g (Spec.col5 i k) := fun k => by
    rw [shapeCast_apply _ shapeCasts_S64x160_S64x32x5 (ix3 g i k) (ix2 g ⟨5 * i.val + k.val, by omega⟩) (by
        rw [Shape.rowMajor_val_two, Shape.rowMajor_val_three]
        show g.val * 160 + (5 * i.val + k.val) = (g.val * 32 + i.val) * 5 + k.val
        omega),
      extractStridedSlice_apply ![0, 320] (term_sq W) slices_S64x480_S64x160_0_320 _ (ix2 g (Spec.col5 i k)) (fun a =>
        match a with
        | ⟨0, _⟩ => by show g.val = 0 + g.val; omega
        | ⟨1, _⟩ => by show 320 + 5 * i.val + k.val = 320 + (5 * i.val + k.val); omega),
      cale_sq]
  simp only [hk]
  rfl

/-- The scalar columns' scale at (g, j). -/
private theorem cale_scale1 (g : Fin 64) (j : Fin 128) :
    term_scale1 W (ix2 g j)
      = Ideal.pow (Spec.tvar (cale_A2 W) (cale_A3 W) (cale_A4 W) g j + Spec.eps) Spec.nhalf * cale_wv W (Spec.wcol1 j) := by
  unfold term_scale1
  rw [mulf_apply, cale_hpow, addf_apply, cale_var, cale_scalar, constant_apply, cale_scalar, constant_apply, cale_row,
    cale_vecrow,
    extractStridedSlice_apply ![0] _ slices_S224_S128_0 (ix1 j) (ix1 (Spec.wcol1 j)) (fun a =>
      match a with
      | ⟨0, _⟩ => by show j.val = 0 + j.val; omega)]
  rfl

/-- The triples' scale at (g, i). -/
private theorem cale_scale3 (g : Fin 64) (i : Fin 64) :
    term_scale3 W (ix2 g i)
      = Ideal.pow (Spec.tm3 (cale_A3 W) (cale_A4 W) g i + Spec.eps) Spec.nhalf * cale_wv W (Spec.wcol3 i) := by
  unfold term_scale3
  rw [mulf_apply, cale_hpow, addf_apply, cale_m3, cale_scalar, constant_apply, cale_scalar, constant_apply, cale_row,
    cale_vecrow,
    extractStridedSlice_apply ![128] _ slices_S224_S64_128 (ix1 i) (ix1 (Spec.wcol3 i)) (fun a =>
      match a with
      | ⟨0, _⟩ => by show 128 + i.val = 128 + i.val; rfl)]
  rfl

/-- The quintuples' scale at (g, i). -/
private theorem cale_scale5 (g : Fin 64) (i : Fin 32) :
    term_scale5 W (ix2 g i)
      = Ideal.pow (Spec.tm5 (cale_A3 W) (cale_A4 W) g i + Spec.eps) Spec.nhalf * cale_wv W (Spec.wcol5 i) := by
  unfold term_scale5
  rw [mulf_apply, cale_hpow, addf_apply, cale_m5, cale_scalar, constant_apply, cale_scalar, constant_apply, cale_row,
    cale_vecrow,
    extractStridedSlice_apply ![192] _ slices_S224_S32_192 (ix1 i) (ix1 (Spec.wcol5 i)) (fun a =>
      match a with
      | ⟨0, _⟩ => by show 192 + i.val = 192 + i.val; rfl)]
  rfl

/-- The scale table at (g, c): the column's group chooses the block, and within a triple or quintuple the scale is the
    same on every component. -/
private theorem cale_v58 (g : Fin 64) (c : Fin 480) :
    term_v58 W (ix2 g c) = Spec.tscaleFull (cale_A2 W) (cale_A3 W) (cale_A4 W) (cale_wv W) g c := by
  unfold term_v58 Spec.tscaleFull
  by_cases h1 : c.val < 128
  · rw [dif_pos h1, cale_cat_fst _ _ _ g c h1, cale_scale1]
  · rw [dif_neg h1]
    by_cases h2 : c.val < 320
    · rw [dif_pos h2, cale_cat_snd _ _ _ g c (by omega) h2,
        shapeCast_apply _ shapeCasts_S64x64x3_S64x192 (ix2 g (⟨c.val - 128, by omega⟩ : Fin 192))
          (ix3 g (⟨(c.val - 128) / 3, by omega⟩ : Fin 64) (⟨(c.val - 128) % 3, Nat.mod_lt _ (by decide)⟩ : Fin 3)) (by
            rw [Shape.rowMajor_val_three, Shape.rowMajor_val_two]
            show (g.val * 64 + (c.val - 128) / 3) * 3 + (c.val - 128) % 3 = g.val * 192 + (c.val - 128)
            omega),
        cale_rep, cale_scale3]
    · rw [dif_neg h2, cale_cat_thd _ _ _ g c (by omega),
        shapeCast_apply _ shapeCasts_S64x32x5_S64x160 (ix2 g (⟨c.val - 320, by have := c.isLt; omega⟩ : Fin 160))
          (ix3 g (⟨(c.val - 320) / 5, by have := c.isLt; omega⟩ : Fin 32) (⟨(c.val - 320) % 5, Nat.mod_lt _ (by decide)⟩ : Fin 5)) (by
            rw [Shape.rowMajor_val_three, Shape.rowMajor_val_two]
            show (g.val * 32 + (c.val - 320) / 5) * 5 + (c.val - 320) % 5 = g.val * 160 + (c.val - 320)
            omega),
        cale_rep, cale_scale5]

/-- The scale table narrowed to the shorter float format and widened back is the scale table: over the extended reals
    both conversions are the identity. -/
theorem scale_v68 (g : Fin 64) (j : Fin 480) :
    term_v68 W (ix2 g j)
      = Spec.tscaleFull
          (fun h g j => (W (Proc.devRef .tc main_v1_0) : FVec Ideal S2x64x128 .f32) (ix3 h g j))
          (fun h g j => (W (Proc.devRef .tc main_v1_1) : FVec Ideal S2x64x480 .f32) (ix3 h g j))
          (fun h g => (W (Proc.devRef .tc main_v1_2) : FVec Ideal S2x64x1 .f32) (ix3 h g 0))
          (fun k => (W (Proc.devRef .tc main_arg2) : FVec Ideal S224 .f32) (ix1 k)) g j := by
  unfold term_v68
  rw [extf_apply, truncf_apply]
  exact cale_v58 W g j

/-- The scale table minus its narrowed and widened copy: the table minus itself. -/
theorem scale_v69 (g : Fin 64) (j : Fin 480) :
    term_v69 W (ix2 g j)
      = Spec.tscaleFull
          (fun h g j => (W (Proc.devRef .tc main_v1_0) : FVec Ideal S2x64x128 .f32) (ix3 h g j))
          (fun h g j => (W (Proc.devRef .tc main_v1_1) : FVec Ideal S2x64x480 .f32) (ix3 h g j))
          (fun h g => (W (Proc.devRef .tc main_v1_2) : FVec Ideal S2x64x1 .f32) (ix3 h g 0))
          (fun k => (W (Proc.devRef .tc main_arg2) : FVec Ideal S224 .f32) (ix1 k)) g j
        - Spec.tscaleFull
          (fun h g j => (W (Proc.devRef .tc main_v1_0) : FVec Ideal S2x64x128 .f32) (ix3 h g j))
          (fun h g j => (W (Proc.devRef .tc main_v1_1) : FVec Ideal S2x64x480 .f32) (ix3 h g j))
          (fun h g => (W (Proc.devRef .tc main_v1_2) : FVec Ideal S2x64x1 .f32) (ix3 h g 0))
          (fun k => (W (Proc.devRef .tc main_arg2) : FVec Ideal S224 .f32) (ix1 k)) g j := by
  unfold term_v69
  rw [subf_apply, scale_v68]
  exact congrArg (· - _) (cale_v58 W g j)

end Cert.KernelIdeal.Hand

end
-- ==== Proof.KI.HostMid.lean ====
/-
  The host operations between the two launches, over the extended reals: from the per-half accumulators the first launch
  left (and the weight and bias arguments) they build the five tables the second launch reads — the means (a scalar
  column's mean, zero elsewhere), the scales (by column group), the shift row, and for the first two also "the table
  minus itself", the residue of a change of float format that is the identity here.
-/
import proofs.«412429_j58076547777199_3_alg».proof.Proof.Gen.KernelIdeal.Launch
import proofs.«412429_j58076547777199_3_alg».proof.Proof.Spec
import proofs.«412429_j58076547777199_3_alg».proof.Proof.Consts
import proofs.«412429_j58076547777199_3_alg».proof.Proof.KI.HostMidTerms
import proofs.«412429_j58076547777199_3_alg».proof.Proof.KI.HostMidEqs
import proofs.«412429_j58076547777199_3_alg».proof.Proof.KI.HostMidReadMean
import proofs.«412429_j58076547777199_3_alg».proof.Proof.KI.HostMidReadScale
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

-- the unscoped buffers' contents when the first launch has ended: a parameter
variable (W : Valuation τ sig (Elt Ideal))

/-- The contents after the two stretches of host operations between the launches. -/
abbrev midW : Valuation τ sig (Elt Ideal) := StableHlo.after main_part1_ops0 (StableHlo.after main_part0_ops1 W)

/-- The accumulators, the weight and the bias as plain functions. -/
abbrev acc2 : Fin 2 → Fin 64 → Fin 128 → EReal := fun h g j => (W (Proc.devRef .tc main_v1_0) : FVec Ideal S2x64x128 .f32) (ix3 h g j)
abbrev acc3 : Fin 2 → Fin 64 → Fin 480 → EReal := fun h g j => (W (Proc.devRef .tc main_v1_1) : FVec Ideal S2x64x480 .f32) (ix3 h g j)
abbrev acc4 : Fin 2 → Fin 64 → EReal := fun h g => (W (Proc.devRef .tc main_v1_2) : FVec Ideal S2x64x1 .f32) (ix3 h g 0)
abbrev wvec : Fin 224 → EReal := fun k => (W (Proc.devRef .tc main_arg2) : FVec Ideal S224 .f32) (ix1 k)
abbrev bvec : Fin 128 → EReal := fun k => (W (Proc.devRef .tc main_arg3) : FVec Ideal S128 .f32) (ix1 k)

/-! Each table is the term composing the operations over `W`, read at an entry. -/

theorem mid_mean_hi (g : Fin 64) (j : Fin 480) :
    (midW W (Proc.devRef .tc main_v65) : FVec Ideal S64x480 .f32) (ix2 g j) = Spec.tmeanFull (acc2 W) (acc4 W) g j :=
  (congrFun (mid_v65 W) (ix2 g j)).trans (mean_v65 W g j)
theorem mid_mean_lo (g : Fin 64) (j : Fin 480) :
    (midW W (Proc.devRef .tc main_v66) : FVec Ideal S64x480 .f32) (ix2 g j)
      = Spec.tmeanFull (acc2 W) (acc4 W) g j - Spec.tmeanFull (acc2 W) (acc4 W) g j :=
  (congrFun (mid_v66 W) (ix2 g j)).trans (mean_v66 W g j)
theorem mid_scale_hi (g : Fin 64) (j : Fin 480) :
    (midW W (Proc.devRef .tc main_v68) : FVec Ideal S64x480 .f32) (ix2 g j)
      = Spec.tscaleFull (acc2 W) (acc3 W) (acc4 W) (wvec W) g j := by
  refine (congrFun (mid_v68 W) (ix2 g j)).trans ?_
  exact scale_v68 W g j
theorem mid_scale_lo (g : Fin 64) (j : Fin 480) :
    (midW W (Proc.devRef .tc main_v69) : FVec Ideal S64x480 .f32) (ix2 g j)
      = Spec.tscaleFull (acc2 W) (acc3 W) (acc4 W) (wvec W) g j - Spec.tscaleFull (acc2 W) (acc3 W) (acc4 W) (wvec W) g j := by
  refine (congrFun (mid_v69 W) (ix2 g j)).trans ?_
  exact scale_v69 W g j
theorem mid_bias (j : Fin 480) :
    (midW W (Proc.devRef .tc main_v63) : FVec Ideal S1x480 .f32) (ix2 0 j) = Spec.tbiasFull (bvec W) j :=
  (congrFun (mid_v63 W) (ix2 0 j)).trans (mean_v63 W j)

/-- A buffer that neither stretch writes keeps its contents. -/
theorem keeps_of_not_written (r : Ref sig .tc)
    (h0 : ∀ op ∈ (main_part0_ops1 : List (HloOp τ sig (Elt Ideal))), Proc.devRef .tc r ∉ op.writes)
    (h1 : ∀ op ∈ (main_part1_ops0 : List (HloOp τ sig (Elt Ideal))), Proc.devRef .tc r ∉ op.writes) :
    midW W (Proc.devRef .tc r) = W (Proc.devRef .tc r) :=
  (StableHlo.after_of_forall_not_mem _ _ h1).trans (StableHlo.after_of_forall_not_mem _ _ h0)

/-- The host operations between the launches write neither the input nor the reshaped segment ids. -/
theorem mid_keeps_arg0 : midW W (Proc.devRef .tc main_arg0) = W (Proc.devRef .tc main_arg0) := by
  refine keeps_of_not_written W main_arg0 (List.forall_iff_forall_mem.mp ?_) (List.forall_iff_forall_mem.mp ?_)
  all_goals
    simp only [main_part0_ops1, main_part1_ops0, List.Forall, StableHlo.nullary_writes, StableHlo.unary_writes,
      StableHlo.binary_writes, StableHlo.reshape_writes, StableHlo.nary_writes, Finset.mem_singleton]
    repeat' apply And.intro
    all_goals exact StableHlo.devRef_ne_of_ne (by decide)
theorem mid_keeps_v0 : midW W (Proc.devRef .tc main_v0) = W (Proc.devRef .tc main_v0) := by
  refine keeps_of_not_written W main_v0 (List.forall_iff_forall_mem.mp ?_) (List.forall_iff_forall_mem.mp ?_)
  all_goals
    simp only [main_part0_ops1, main_part1_ops0, List.Forall, StableHlo.nullary_writes, StableHlo.unary_writes,
      StableHlo.binary_writes, StableHlo.reshape_writes, StableHlo.nary_writes, Finset.mem_singleton]
    repeat' apply And.intro
    all_goals exact StableHlo.devRef_ne_of_ne (by decide)

end Cert.KernelIdeal.Hand

end
-- ==== Proof.SpecFacts.lean ====
/-
  First facts on the one-hot entry: it is 1 exactly when the word, read signed, is the graph's number; multiplying by it
  keeps or kills a term; over an id in 0 .. 63 the one-hot row picks one entry of a table, the one a clamped gather reads.
-/
import proofs.«412429_j58076547777199_3_alg».proof.Proof.Spec
import proofs.«412429_j58076547777199_3_alg».proof.Proof.Consts

noncomputable section

open scoped BigOperators

namespace Cert.Spec

open Idealize.ShloMosaic

/-- A number below 64, written as a 32-bit word and read back signed, is itself: it is far below 2 ^ 31. -/
theorem toInt_ofNat_small (g : Fin 64) : (BitVec.ofNat 32 g.val).toInt = (g.val : Int) := by
  have hg := g.isLt
  rw [BitVec.toInt_ofNat']
  exact Int.bmod_eq_of_le (by omega) (by omega)

/-- The word is the graph's number exactly when it reads, signed, as that number. -/
theorem eq_ofNat_iff_toInt (s : BitVec 32) (g : Fin 64) : s = BitVec.ofNat 32 g.val ↔ s.toInt = (g.val : Int) := by
  constructor
  · intro h
    rw [h, toInt_ofNat_small]
  · intro h
    -- two words with the same signed reading are the same word
    apply BitVec.eq_of_toInt_eq
    rw [h, toInt_ofNat_small]

theorem oh_mul (s : BitVec 32) (g : Fin 64) (y : EReal) : oh s g * y = if s.toInt = (g.val : Int) then y else 0 := by
  unfold oh
  by_cases h : s.toInt = (g.val : Int)
  · rw [if_pos ((eq_ofNat_iff_toInt s g).mpr h), if_pos h, one_mul]
  · rw [if_neg (fun e => h ((eq_ofNat_iff_toInt s g).mp e)), if_neg h, zero_mul]

/-- An id in range: wrapping a negative id and clamping do nothing, the gathered row is the id itself. -/
theorem grow_of_range (s : BitVec 32) (h0 : 0 ≤ s.toInt) (h1 : s.toInt < 64) : ((grow s).val : Int) = s.toInt := by
  -- the id is not negative, so the signed comparison with 0 fails and the id is left as it is
  have hs : s.slt 0 = false := by
    have h00 : (0 : BitVec 32).toInt = 0 := BitVec.toInt_zero
    rw [BitVec.slt_eq_decide, h00]
    exact decide_eq_false (by omega)
  unfold grow
  simp only [hs, Bool.false_eq_true, if_false]
  -- clamping a number of 0 .. 63 into 0 .. 63 does nothing
  omega

/-- A row of graph g (in range) gathers row g. -/
theorem grow_of_oh (s : BitVec 32) (g : Fin 64) (h : s.toInt = (g.val : Int)) : grow s = g := by
  have hg := g.isLt
  have := grow_of_range s (by omega) (by omega)
  exact Fin.ext (by omega)

/-- The one-hot row of an id in range picks the table's entry at the gathered row. -/
theorem oh_collapse (s : BitVec 32) (h0 : 0 ≤ s.toInt) (h1 : s.toInt < 64) (T : Fin 64 → EReal) :
    ∑ g : Fin 64, oh s g * T g = T (grow s) := by
  rw [Finset.sum_eq_single (grow s)]
  · -- at the gathered row the one-hot entry is 1
    rw [oh_mul, if_pos (grow_of_range s h0 h1).symm]
  · -- at every other row it is 0: a row whose number the id reads as is the gathered row
    intro g _ hne
    rw [oh_mul, if_neg (fun e => hne (grow_of_oh s g e).symm)]
  · intro hn
    exact absurd (Finset.mem_univ _) hn

end Cert.Spec

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.BridgeSums.lean ====
/-
  The rows as the first launch visits them — half h, tile i of the half, row r of the tile — are all 200000 rows once:
  a sum over halves, tiles and tile rows is the sum over the rows. So the per-half accumulators, summed over the halves,
  are the segment sums.
-/
import proofs.«412429_j58076547777199_3_alg».proof.Proof.Spec
import proofs.«412429_j58076547777199_3_alg».proof.Proof.SpecFacts
import proofs.«412429_j58076547777199_3_alg».proof.Proof.LibSums

noncomputable section

open scoped BigOperators

namespace Cert.Spec

open Idealize.ShloMosaic

/-- The row that is row r of tile i of half h. -/
def row (h : Fin 2) (i : Fin 50) (r : Fin 2000) : Fin 200000 := ⟨h.val * 100000 + i.val * 2000 + r.val, by omega⟩

theorem sum_rows (f : Fin 200000 → EReal) : ∑ h : Fin 2, ∑ i : Fin 50, ∑ r : Fin 2000, f (row h i r) = ∑ n : Fin 200000, f n := by
  -- 200000 = 2 * 100000: the rows are two consecutive halves of 100000
  have outer : ∑ h : Fin 2, ∑ m : Fin 100000, f ⟨h.val * 100000 + m.val, by omega⟩ = ∑ n : Fin 200000, f n :=
    Cert.LibSums.sum_blocks 2 100000 f
  -- 100000 = 50 * 2000: a half is fifty consecutive tiles of 2000 rows; row r of tile i of half h is
  -- row h * 100000 + (i * 2000 + r)
  have inner : ∀ h : Fin 2, ∑ i : Fin 50, ∑ r : Fin 2000, f (row h i r)
      = ∑ m : Fin 100000, f ⟨h.val * 100000 + m.val, by omega⟩ := by
    intro h
    have hb := Cert.LibSums.sum_blocks 50 2000
      (fun m : Fin (50 * 2000) => f ⟨h.val * 100000 + m.val, by have := m.isLt; omega⟩)
    refine (Finset.sum_congr rfl fun i _ => Finset.sum_congr rfl fun r _ => ?_).trans hb
    exact congrArg f (Fin.ext (Nat.add_assoc _ _ _))
  exact (Finset.sum_congr rfl fun h _ => inner h).trans outer

section
variable (x : Fin 200000 → Fin 480 → EReal) (s : Fin 200000 → BitVec 32)

/-- The three per-half accumulators as the first launch leaves them. -/
def kA2 : Fin 2 → Fin 64 → Fin 128 → EReal := fun h g j => ∑ i : Fin 50, ∑ r : Fin 2000, oh (s (row h i r)) g * x (row h i r) (col1 j)
def kA3 : Fin 2 → Fin 64 → Fin 480 → EReal := fun h g j => ∑ i : Fin 50, ∑ r : Fin 2000, oh (s (row h i r)) g * (x (row h i r) j * x (row h i r) j)
def kA4 : Fin 2 → Fin 64 → EReal := fun h g => ∑ i : Fin 50, ∑ r : Fin 2000, oh (s (row h i r)) g * 1

/-- The two halves' sums of a graph's rows add up to the sum over all its rows. -/
theorem tsum_kA2 (g : Fin 64) (j : Fin 128) : tsum (kA2 x s) g j = 0 + segsum s (fun n => x n (col1 j)) g :=
  congrArg (fun t => 0 + t) (sum_rows (fun n => oh (s n) g * x n (col1 j)))
theorem tsq_kA3 (g : Fin 64) (j : Fin 480) : tsq (kA3 x s) g j = 0 + segsum s (fun n => x n j * x n j) g :=
  congrArg (fun t => 0 + t) (sum_rows (fun n => oh (s n) g * (x n j * x n j)))
theorem tcnt_kA4 (g : Fin 64) : tcnt (kA4 s) g = rcnt s g :=
  congrArg (fun t => max (0 + t) 1) (sum_rows (fun n => oh (s n) g * 1))
end

end Cert.Spec

end
-- ==== Proof.BridgeStats.lean ====
/-
  The two routes to the per-graph statistics agree when every entry is finite and every segment id names a graph:
  the mean is the same quotient; the second moment minus the squared mean (never negative, so its clamp at zero does
  nothing) is the mean squared deviation, for a graph that has a row; and a sum over the graph's rows of a mean over
  three (five) components is the mean over the components of the sums.
-/
import proofs.«412429_j58076547777199_3_alg».proof.Proof.Spec
import proofs.«412429_j58076547777199_3_alg».proof.Proof.SpecFacts
import proofs.«412429_j58076547777199_3_alg».proof.Proof.BridgeSums
import proofs.«412429_j58076547777199_3_alg».proof.Proof.Consts

noncomputable section

open scoped BigOperators

namespace Cert.Spec

open Idealize.ShloMosaic

/-! ## Real sums inside the extended reals -/

/-- The coercion of a finite real sum is the sum of the coercions. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of two reals, taken in the extended reals, is their real maximum. -/
private theorem coe_max (a b : ℝ) : max (a : EReal) (b : EReal) = ((max a b : ℝ) : EReal) :=
  (EReal.coe_strictMono.monotone.map_max).symm

/-- A real over a nonzero real is the real quotient. -/
private theorem div_real (a b : ℝ) (hb : b ≠ 0) : Ideal.div (a : EReal) (b : EReal) = ((a / b : ℝ) : EReal) := by
  rw [Ideal.div_coe hb, ← EReal.coe_mul, mul_one_div]

/-- Dividing by one changes nothing. -/
private theorem div_one' (y : EReal) : Ideal.div y 1 = y := by
  rw [← EReal.coe_one, Ideal.div_coe one_ne_zero, div_one, EReal.coe_one, mul_one]

/-- The one-hot entry as a real: 1 or 0. -/
private def ohr (sn : BitVec 32) (g : Fin 64) : ℝ := if sn = BitVec.ofNat 32 g.val then 1 else 0

private theorem oh_coe (sn : BitVec 32) (g : Fin 64) : oh sn g = ((ohr sn g : ℝ) : EReal) := by
  unfold oh ohr
  split_ifs <;> simp

private theorem ohr_nonneg (sn : BitVec 32) (g : Fin 64) : 0 ≤ ohr sn g := by
  unfold ohr
  split_ifs <;> norm_num

/-- A segment sum of reals is the real sum weighted by the one-hot entries. -/
private theorem segsum_coe (s : Fin 200000 → BitVec 32) (f : Fin 200000 → ℝ) (g : Fin 64) :
    segsum s (fun n => (f n : EReal)) g = ((∑ n : Fin 200000, ohr (s n) g * f n : ℝ) : EReal) := by
  unfold segsum
  rw [coe_sum]
  refine Finset.sum_congr rfl fun n _ => ?_
  rw [oh_coe, EReal.coe_mul]

/-- The clamped row count is a real, at least 1. -/
private theorem rcnt_coe (s : Fin 200000 → BitVec 32) (g : Fin 64) :
    rcnt s g = ((max (∑ n : Fin 200000, ohr (s n) g) 1 : ℝ) : EReal) := by
  unfold rcnt
  have h := segsum_coe s (fun _ => (1 : ℝ)) g
  simp only [EReal.coe_one, mul_one] at h
  rw [h, zero_add, ← EReal.coe_one, coe_max]

/-- Inside a segment sum of graph g, a term that reads the table row its own row gathers reads row g. -/
private theorem segsum_grow (s : Fin 200000 → BitVec 32) (F : Fin 64 → Fin 200000 → EReal) (g : Fin 64) :
    segsum s (fun n => F (grow (s n)) n) g = segsum s (fun n => F g n) g := by
  unfold segsum
  refine Finset.sum_congr rfl fun n _ => ?_
  rw [oh_mul, oh_mul]
  split_ifs with h
  · show F (grow (s n)) n = F g n
    rw [grow_of_oh _ _ h]
  · rfl

/-- A sum over the graph's rows of a mean over components is the mean over the components of the sums. -/
private theorem mean_sq_comm {K : Type} [Fintype K] (s : Fin 200000 → BitVec 32) (g : Fin 64)
    (y : Fin 200000 → K → ℝ) (c : ℝ) (hc : c ≠ 0) :
    Ideal.div (0 + ∑ k : K, (0 + segsum s (fun n => (y n k : EReal) * (y n k : EReal)) g)) (c : EReal)
      = 0 + segsum s (fun n => Ideal.div (0 + ∑ k : K, (y n k : EReal) * (y n k : EReal)) (c : EReal)) g := by
  simp only [zero_add, ← EReal.coe_mul, segsum_coe, ← coe_sum, div_real _ _ hc]
  rw [EReal.coe_eq_coe_iff, Finset.sum_comm, Finset.sum_div]
  refine Finset.sum_congr rfl fun n _ => ?_
  rw [← Finset.mul_sum, mul_div_assoc]

section
variable (x : Fin 200000 → Fin 480 → EReal) (s : Fin 200000 → BitVec 32)
variable (hx : ∀ n j, ∃ r : ℝ, x n j = (r : EReal)) (hs : ∀ n, 0 ≤ (s n).toInt ∧ (s n).toInt < 64)

theorem tmean_eq (g : Fin 64) (j : Fin 128) : tmean (kA2 x s) (kA4 s) g j = rmean x s g j := by
  unfold tmean rmean
  rw [tsum_kA2, tcnt_kA4]

include hx hs in
theorem tvar_eq (g : Fin 64) (hg : ∃ n, (s n).toInt = (g.val : Int)) (j : Fin 128) :
    tvar (kA2 x s) (kA3 x s) (kA4 s) g j = rvar x s g j := by
  choose xr hxr using hx
  obtain rfl : x = fun n j => ((xr n j : ℝ) : EReal) := funext fun n => funext fun j => hxr n j
  -- The graph has a row, so its count N is a real that is at least 1: clamping it at 1 does nothing.
  obtain ⟨n0, hn0⟩ := hg
  have hN1 : (1 : ℝ) ≤ ∑ n : Fin 200000, ohr (s n) g := by
    have h1 : ohr (s n0) g = 1 := by
      unfold ohr
      rw [if_pos ((eq_ofNat_iff_toInt _ _).2 hn0)]
    rw [← h1]
    exact Finset.single_le_sum (f := fun n => ohr (s n) g) (fun n _ => ohr_nonneg _ _) (Finset.mem_univ n0)
  have hN0 : (∑ n : Fin 200000, ohr (s n) g) ≠ 0 := by linarith
  have hc : rcnt s g = ((∑ n : Fin 200000, ohr (s n) g : ℝ) : EReal) := by rw [rcnt_coe, max_eq_left hN1]
  -- The mean of graph g is the real μ = S1 / N.
  have hmean : rmean (fun n j => ((xr n j : ℝ) : EReal)) s g j
      = (((∑ n : Fin 200000, ohr (s n) g * xr n (col1 j)) / (∑ n : Fin 200000, ohr (s n) g) : ℝ) : EReal) := by
    unfold rmean
    rw [segsum_coe, zero_add, hc, div_real _ _ hN0]
  -- The left side: the maximum with 0 of S2 / N - μ * μ.
  have hL : tvar (kA2 (fun n j => ((xr n j : ℝ) : EReal)) s) (kA3 (fun n j => ((xr n j : ℝ) : EReal)) s) (kA4 s) g j
      = ((max ((∑ n : Fin 200000, ohr (s n) g * (xr n (col1 j) * xr n (col1 j))) / (∑ n : Fin 200000, ohr (s n) g)
          - (∑ n : Fin 200000, ohr (s n) g * xr n (col1 j)) / (∑ n : Fin 200000, ohr (s n) g)
            * ((∑ n : Fin 200000, ohr (s n) g * xr n (col1 j)) / (∑ n : Fin 200000, ohr (s n) g))) 0 : ℝ) : EReal) := by
    unfold tvar
    rw [tmean_eq, hmean, tsq_kA3, tcnt_kA4, hc]
    simp only [← EReal.coe_mul]
    rw [segsum_coe, zero_add, div_real _ _ hN0, ← EReal.coe_sub, ← EReal.coe_zero, coe_max]
  -- The right side: the rows the one-hot keeps gather row g, so the deviations are against μ.
  have hR : rvar (fun n j => ((xr n j : ℝ) : EReal)) s g j
      = (((∑ n : Fin 200000, ohr (s n) g
            * ((xr n (col1 j) - (∑ n : Fin 200000, ohr (s n) g * xr n (col1 j)) / (∑ n : Fin 200000, ohr (s n) g))
              * (xr n (col1 j) - (∑ n : Fin 200000, ohr (s n) g * xr n (col1 j)) / (∑ n : Fin 200000, ohr (s n) g))))
          / (∑ n : Fin 200000, ohr (s n) g) : ℝ) : EReal) := by
    unfold rvar dev
    rw [segsum_grow s (fun g' n => Ideal.div (0 + ∑ _k : Fin 1,
          (((xr n (col1 j) : ℝ) : EReal) - rmean (fun n j => ((xr n j : ℝ) : EReal)) s g' j)
            * (((xr n (col1 j) : ℝ) : EReal) - rmean (fun n j => ((xr n j : ℝ) : EReal)) s g' j)) 1) g]
    simp only [hmean, div_one', zero_add, Fin.sum_univ_one, ← EReal.coe_sub, ← EReal.coe_mul]
    rw [segsum_coe, hc, div_real _ _ hN0]
  rw [hL, hR, EReal.coe_eq_coe_iff]
  -- Over the reals: Σ oh (a - μ)² = S2 - 2 μ S1 + μ² N, and with μ = S1 / N this over N is S2 / N - μ².
  have key : ∀ μ : ℝ, ∑ n : Fin 200000, ohr (s n) g * ((xr n (col1 j) - μ) * (xr n (col1 j) - μ))
      = (∑ n : Fin 200000, ohr (s n) g * (xr n (col1 j) * xr n (col1 j)))
        - 2 * μ * (∑ n : Fin 200000, ohr (s n) g * xr n (col1 j)) + μ * μ * (∑ n : Fin 200000, ohr (s n) g) := by
    intro μ
    rw [Finset.mul_sum, Finset.mul_sum, ← Finset.sum_sub_distrib, ← Finset.sum_add_distrib]
    exact Finset.sum_congr rfl fun n _ => by ring
  have alg : ∀ S1 S2 N : ℝ, N ≠ 0 →
      S2 / N - S1 / N * (S1 / N) = (S2 - 2 * (S1 / N) * S1 + S1 / N * (S1 / N) * N) / N := by
    intro S1 S2 N hN
    field_simp
    ring
  -- A weighted sum of squares over a positive count is not negative: the clamp at zero does nothing.
  have hnn : 0 ≤ (∑ n : Fin 200000, ohr (s n) g
        * ((xr n (col1 j) - (∑ n : Fin 200000, ohr (s n) g * xr n (col1 j)) / (∑ n : Fin 200000, ohr (s n) g))
          * (xr n (col1 j) - (∑ n : Fin 200000, ohr (s n) g * xr n (col1 j)) / (∑ n : Fin 200000, ohr (s n) g))))
      / (∑ n : Fin 200000, ohr (s n) g) :=
    div_nonneg (Finset.sum_nonneg fun n _ => mul_nonneg (ohr_nonneg _ _) (mul_self_nonneg _)) (by linarith)
  rw [alg _ _ _ hN0, ← key]
  exact max_eq_left hnn

include hx in
theorem tm3_eq (g : Fin 64) (i : Fin 64) : tm3 (kA3 x s) (kA4 s) g i = rm3 x s g i := by
  choose xr hxr using hx
  obtain rfl : x = fun n j => ((xr n j : ℝ) : EReal) := funext fun n => funext fun j => hxr n j
  have h3 : three = ((3 : ℝ) : EReal) := Cert.Consts.ofBits_three
  unfold tm3 rm3
  simp only [tsq_kA3, tcnt_kA4, h3]
  rw [mean_sq_comm s g (fun n k => xr n (col3 i k)) 3 (by norm_num)]

include hx in
theorem tm5_eq (g : Fin 64) (i : Fin 32) : tm5 (kA3 x s) (kA4 s) g i = rm5 x s g i := by
  choose xr hxr using hx
  obtain rfl : x = fun n j => ((xr n j : ℝ) : EReal) := funext fun n => funext fun j => hxr n j
  have h5 : five = ((5 : ℝ) : EReal) := Cert.Consts.ofBits_five
  unfold tm5 rm5
  simp only [tsq_kA3, tcnt_kA4, h5]
  rw [mean_sq_comm s g (fun n k => xr n (col5 i k)) 5 (by norm_num)]
end

end Cert.Spec

end
-- ==== Proof.BridgeFin.lean ====
/-
  With finite entries and weights every entry of the two tables is a real number: a segment sum of reals is real, the
  count clamped at one is a real at least one, a quotient by it is real, the variance clamped at zero plus the positive
  constant is a positive real, and its power is real. So "the table minus itself" is zero and adds nothing.
-/
import proofs.«412429_j58076547777199_3_alg».proof.Proof.Spec
import proofs.«412429_j58076547777199_3_alg».proof.Proof.SpecFacts
import proofs.«412429_j58076547777199_3_alg».proof.Proof.BridgeSums
import proofs.«412429_j58076547777199_3_alg».proof.Proof.Consts

noncomputable section

open scoped BigOperators

namespace Cert.Spec

open Idealize.ShloMosaic

/-! ## Finite extended reals are closed under the operations the tables use -/

/-- An extended real that is a real number. -/
def IsR (a : EReal) : Prop := ∃ r : ℝ, a = (r : EReal)

theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha
  obtain ⟨t, rfl⟩ := hb
  exact ⟨r + t, (EReal.coe_add r t).symm⟩

theorem IsR.sub {a b : EReal} (ha : IsR a) (hb : IsR b) : IsR (a - b) := by
  obtain ⟨r, rfl⟩ := ha
  obtain ⟨t, rfl⟩ := hb
  exact ⟨r - t, (EReal.coe_sub r t).symm⟩

theorem IsR.mul {a b : EReal} (ha : IsR a) (hb : IsR b) : IsR (a * b) := by
  obtain ⟨r, rfl⟩ := ha
  obtain ⟨t, rfl⟩ := hb
  exact ⟨r * t, (EReal.coe_mul r t).symm⟩

theorem IsR.max {a b : EReal} (ha : IsR a) (hb : IsR b) : IsR (max a b) := by
  obtain ⟨r, rfl⟩ := ha
  obtain ⟨t, rfl⟩ := hb
  exact ⟨Max.max r t, (EReal.coe_strictMono.monotone.map_max).symm⟩

/-- A finite sum of reals is real: the empty sum is 0, and one more real term keeps it real. -/
theorem IsR.sum {ι : Type*} (t : Finset ι) (f : ι → EReal) (hf : ∀ i, IsR (f i)) : IsR (∑ i ∈ t, f i) := by
  classical
  refine Finset.induction_on t ?_ ?_
  · rw [Finset.sum_empty]; exact IsR.zero
  · intro a u ha ih
    rw [Finset.sum_insert ha]
    exact (hf a).add ih

/-- A quotient of a real by a nonzero real is the product with the reciprocal, a real. -/
theorem IsR.div {a : EReal} {c : ℝ} (ha : IsR a) (hc : c ≠ 0) : IsR (Ideal.div a (c : EReal)) := by
  rw [Ideal.div_coe hc]
  exact ha.mul ⟨1 / c, rfl⟩

/-- A real base to a real exponent is the real power. -/
theorem IsR.pow {a b : EReal} (ha : IsR a) (hb : IsR b) : IsR (Ideal.pow a b) := by
  obtain ⟨r, rfl⟩ := ha
  obtain ⟨t, rfl⟩ := hb
  exact ⟨Real.rpow r t, rfl⟩

theorem oh_isR (s : BitVec 32) (g : Fin 64) : IsR (oh s g) := by
  unfold oh
  split_ifs
  · exact IsR.one
  · exact IsR.zero

theorem eps_isR : IsR eps := by
  obtain ⟨e, _, he⟩ := Cert.Consts.ofBits_eps
  exact ⟨e, he⟩

theorem nhalf_isR : IsR nhalf := ⟨_, Cert.Consts.ofBits_nhalf⟩

section
variable (x : Fin 200000 → Fin 480 → EReal) (s : Fin 200000 → BitVec 32) (w : Fin 224 → EReal)
variable (hx : ∀ n j, ∃ r : ℝ, x n j = (r : EReal)) (hw : ∀ k, ∃ r : ℝ, w k = (r : EReal))

include hx in
theorem tsum_isR (g : Fin 64) (j : Fin 128) : IsR (tsum (kA2 x s) g j) := by
  unfold tsum kA2
  refine IsR.zero.add (IsR.sum _ _ fun h => IsR.sum _ _ fun i => IsR.sum _ _ fun r => ?_)
  exact IsR.mul (oh_isR _ _) (hx _ _)

include hx in
theorem tsq_isR (g : Fin 64) (j : Fin 480) : IsR (tsq (kA3 x s) g j) := by
  unfold tsq kA3
  refine IsR.zero.add (IsR.sum _ _ fun h => IsR.sum _ _ fun i => IsR.sum _ _ fun r => ?_)
  exact IsR.mul (oh_isR _ _) (IsR.mul (hx _ _) (hx _ _))

/-- The count clamped at one is a real number at least one, so not zero. -/
theorem tcnt_real (g : Fin 64) : ∃ c : ℝ, c ≠ 0 ∧ tcnt (kA4 s) g = (c : EReal) := by
  have h : IsR (0 + ∑ h : Fin 2, kA4 s h g) := by
    unfold kA4
    refine IsR.zero.add (IsR.sum _ _ fun h => IsR.sum _ _ fun i => IsR.sum _ _ fun r => ?_)
    exact (oh_isR _ _).mul IsR.one
  obtain ⟨r, hr⟩ := h
  refine ⟨Max.max r 1, ?_, ?_⟩
  · have : (1 : ℝ) ≤ Max.max r 1 := le_max_right _ _
    intro h0
    rw [h0] at this
    exact absurd this (by norm_num)
  · unfold tcnt
    rw [hr, ← EReal.coe_one]
    exact (EReal.coe_strictMono.monotone.map_max).symm

include hx in
theorem tmean_isR (g : Fin 64) (j : Fin 128) : IsR (tmean (kA2 x s) (kA4 s) g j) := by
  obtain ⟨c, hc, hce⟩ := tcnt_real s g
  unfold tmean
  rw [hce]
  exact (tsum_isR x s hx g j).div hc

include hx in
theorem tvar_isR (g : Fin 64) (j : Fin 128) : IsR (tvar (kA2 x s) (kA3 x s) (kA4 s) g j) := by
  obtain ⟨c, hc, hce⟩ := tcnt_real s g
  have hm := tmean_isR x s hx g j
  unfold tvar
  refine IsR.max (IsR.sub ?_ (hm.mul hm)) IsR.zero
  rw [hce]
  exact (tsq_isR x s hx g _).div hc

include hx in
theorem tm3_isR (g : Fin 64) (i : Fin 64) : IsR (tm3 (kA3 x s) (kA4 s) g i) := by
  obtain ⟨c, hc, hce⟩ := tcnt_real s g
  unfold tm3
  rw [hce]
  refine IsR.div ?_ hc
  unfold three
  rw [Cert.Consts.ofBits_three]
  exact IsR.div (IsR.zero.add (IsR.sum _ _ fun k => tsq_isR x s hx g _)) (by norm_num)

include hx in
theorem tm5_isR (g : Fin 64) (i : Fin 32) : IsR (tm5 (kA3 x s) (kA4 s) g i) := by
  obtain ⟨c, hc, hce⟩ := tcnt_real s g
  unfold tm5
  rw [hce]
  refine IsR.div ?_ hc
  unfold five
  rw [Cert.Consts.ofBits_five]
  exact IsR.div (IsR.zero.add (IsR.sum _ _ fun k => tsq_isR x s hx g _)) (by norm_num)

include hx in
theorem tmeanFull_real (g : Fin 64) (j : Fin 480) : ∃ r : ℝ, tmeanFull (kA2 x s) (kA4 s) g j = (r : EReal) := by
  unfold tmeanFull
  split_ifs with h
  · exact tmean_isR x s hx g _
  · exact IsR.zero

include hx hw in
theorem tscaleFull_real (g : Fin 64) (j : Fin 480) : ∃ r : ℝ, tscaleFull (kA2 x s) (kA3 x s) (kA4 s) w g j = (r : EReal) := by
  unfold tscaleFull
  split_ifs with h h'
  · exact (((tvar_isR x s hx g _).add eps_isR).pow nhalf_isR).mul (hw _)
  · exact (((tm3_isR x s hx g _).add eps_isR).pow nhalf_isR).mul (hw _)
  · exact (((tm5_isR x s hx g _).add eps_isR).pow nhalf_isR).mul (hw _)

/-- A real plus itself minus itself is itself. -/
theorem add_sub_self_real (a : EReal) (h : ∃ r : ℝ, a = (r : EReal)) : a + (a - a) = a := by
  obtain ⟨r, rfl⟩ := h
  rw [← EReal.coe_sub, sub_self, EReal.coe_zero, add_zero]
end

end Cert.Spec

end
-- ==== Proof.Bridge.lean ====
/-
  The two programs' results agree at every row and column when every entry, weight and bias is finite and every segment
  id names one of the 64 graphs: the one-hot products pick the tables' rows of the row's graph, the residual tables vanish,
  the tables' entries are the per-row statistics, and the zero mean and zero shift outside the scalar columns do nothing.
-/
import proofs.«412429_j58076547777199_3_alg».proof.Proof.Spec
import proofs.«412429_j58076547777199_3_alg».proof.Proof.SpecFacts
import proofs.«412429_j58076547777199_3_alg».proof.Proof.BridgeSums
import proofs.«412429_j58076547777199_3_alg».proof.Proof.BridgeStats
import proofs.«412429_j58076547777199_3_alg».proof.Proof.BridgeFin
import proofs.«412429_j58076547777199_3_alg».proof.Proof.Consts

noncomputable section

open scoped BigOperators

namespace Cert.Spec

open Idealize.ShloMosaic

/-- With the segment id in range each of the four one-hot products is the table's entry at the row's graph. -/
theorem kout_collapse (xnj : EReal) (sn : BitVec 32) (h0 : 0 ≤ sn.toInt) (h1 : sn.toInt < 64)
    (T2 T3 T4 T5 : Fin 64 → EReal) (t6 : EReal) :
    kout xnj sn T2 T3 T4 T5 t6
      = (xnj - (T2 (grow sn) + T3 (grow sn))) * (T4 (grow sn) + T5 (grow sn)) + t6 := by
  unfold kout
  rw [oh_collapse sn h0 h1 T2, oh_collapse sn h0 h1 T3, oh_collapse sn h0 h1 T4, oh_collapse sn h0 h1 T5]

/-- A column of the triples' group is column 128 + 3 i + k of its own quotient i and remainder k by three. -/
theorem col3_divmod (j : Fin 480) (h : ¬ j.val < 128) (h' : j.val < 320)
    (p : (j.val - 128) / 3 < 64) (q : (j.val - 128) % 3 < 3) :
    col3 ⟨(j.val - 128) / 3, p⟩ ⟨(j.val - 128) % 3, q⟩ = j := by
  apply Fin.ext
  show 128 + 3 * ((j.val - 128) / 3) + (j.val - 128) % 3 = j.val
  omega

/-- A column of the quintuples' group is column 320 + 5 i + k of its own quotient i and remainder k by five. -/
theorem col5_divmod (j : Fin 480) (h' : ¬ j.val < 320)
    (p : (j.val - 320) / 5 < 32) (q : (j.val - 320) % 5 < 5) :
    col5 ⟨(j.val - 320) / 5, p⟩ ⟨(j.val - 320) % 5, q⟩ = j := by
  apply Fin.ext
  show 320 + 5 * ((j.val - 320) / 5) + (j.val - 320) % 5 = j.val
  omega

section
variable (x : Fin 200000 → Fin 480 → EReal) (s : Fin 200000 → BitVec 32) (w : Fin 224 → EReal) (b : Fin 128 → EReal)

/-- What the first program stores at row n, column j, from the per-half accumulators of the rows. -/
def kfinal (n : Fin 200000) (j : Fin 480) : EReal :=
  kout (x n j) (s n)
    (fun g => tmeanFull (kA2 x s) (kA4 s) g j)
    (fun g => tmeanFull (kA2 x s) (kA4 s) g j - tmeanFull (kA2 x s) (kA4 s) g j)
    (fun g => tscaleFull (kA2 x s) (kA3 x s) (kA4 s) w g j)
    (fun g => tscaleFull (kA2 x s) (kA3 x s) (kA4 s) w g j - tscaleFull (kA2 x s) (kA3 x s) (kA4 s) w g j)
    (tbiasFull b j)

theorem bridge (hx : ∀ n j, ∃ r : ℝ, x n j = (r : EReal)) (hw : ∀ k, ∃ r : ℝ, w k = (r : EReal))
    (hb : ∀ k, ∃ r : ℝ, b k = (r : EReal)) (hs : ∀ n, 0 ≤ (s n).toInt ∧ (s n).toInt < 64)
    (n : Fin 200000) (j : Fin 480) : kfinal x s w b n j = rout x s w b n j := by
  have h0 := (hs n).1
  have h1 := (hs n).2
  -- The one-hot products pick the tables' rows of the row's graph, and a real entry's residual adds nothing.
  have hcol : kfinal x s w b n j
      = (x n j - tmeanFull (kA2 x s) (kA4 s) (grow (s n)) j)
          * tscaleFull (kA2 x s) (kA3 x s) (kA4 s) w (grow (s n)) j + tbiasFull b j := by
    unfold kfinal
    rw [kout_collapse _ _ h0 h1]
    show (x n j - (tmeanFull (kA2 x s) (kA4 s) (grow (s n)) j
          + (tmeanFull (kA2 x s) (kA4 s) (grow (s n)) j - tmeanFull (kA2 x s) (kA4 s) (grow (s n)) j)))
        * (tscaleFull (kA2 x s) (kA3 x s) (kA4 s) w (grow (s n)) j
          + (tscaleFull (kA2 x s) (kA3 x s) (kA4 s) w (grow (s n)) j
            - tscaleFull (kA2 x s) (kA3 x s) (kA4 s) w (grow (s n)) j)) + tbiasFull b j = _
    rw [add_sub_self_real _ (tmeanFull_real x s hx _ j), add_sub_self_real _ (tscaleFull_real x s w hx hw _ j)]
  rw [hcol]
  -- The row's graph has a row: row n itself.
  have hg : ∃ m, (s m).toInt = ((grow (s n)).val : Int) := ⟨n, (grow_of_range (s n) h0 h1).symm⟩
  unfold rout tmeanFull tscaleFull tbiasFull
  split_ifs with h h'
  · -- A scalar column: the table's mean and variance are the graph's mean and mean squared deviation.
    have hj : col1 ⟨j.val, h⟩ = j := Fin.ext rfl
    rw [tmean_eq, tvar_eq x s hx hs _ hg]
    unfold rout1 dev
    rw [hj]
  · -- A triple's column: no mean, no shift; the table's mean square is the graph's.
    rw [tm3_eq x s hx, sub_zero, add_zero]
    unfold rout3
    rw [col3_divmod j h h' _ _]
  · -- A quintuple's column, the same way.
    rw [tm5_eq x s hx, sub_zero, add_zero]
    unfold rout5
    rw [col5_divmod j h' _ _]
end

end Cert.Spec

end
-- ==== Proof.KI.KernelValue.lean ====
/-
  The first program's result array after its run, read at row n and column j, over the extended reals: `Spec.kfinal` of
  the four arguments. The second launch's tile formula, its five tables read off the host operations between the launches,
  their accumulators read off the first launch, and the input and the segment ids carried unchanged through every boundary.
-/
import proofs.«412429_j58076547777199_3_alg».proof.Proof.KI.RunDefs
import proofs.«412429_j58076547777199_3_alg».proof.Proof.KI.Entry
import proofs.«412429_j58076547777199_3_alg».proof.Proof.KI.RegAValue
import proofs.«412429_j58076547777199_3_alg».proof.Proof.KI.RegCValue
import proofs.«412429_j58076547777199_3_alg».proof.Proof.KI.HostMid
import proofs.«412429_j58076547777199_3_alg».proof.Proof.Bridge
import Idealize.ShloMosaic.Lib.StableHlo.Run

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal.Gen

variable (m : (ℓ : Loc nD τ sig) → Buf (Elt Ideal) ℓ)

/-- The four arguments on core `c` as plain functions of their coordinates. -/
abbrev xk (c : Dev nD) : Fin 200000 → Fin 480 → EReal := fun n j => (m ((c : Thread nD τ).loc main_arg0) : FVec Ideal S200000x480 .f32) (ix2 n j)
abbrev wk (c : Dev nD) : Fin 224 → EReal := fun k => (m ((c : Thread nD τ).loc main_arg2) : FVec Ideal S224 .f32) (ix1 k)
abbrev bk (c : Dev nD) : Fin 128 → EReal := fun k => (m ((c : Thread nD τ).loc main_arg3) : FVec Ideal S128 .f32) (ix1 k)

/-! ## The second launch's entry -/

theorem V4_arg0 (c : Dev nD) : V4 m c main_arg0 = m ((c : Thread nD τ).loc main_arg0) := by
  show midW (W2 m c) (Proc.devRef .tc main_arg0) = _
  rw [mid_keeps_arg0, W2_arr m c 0, keepA_arg0, V1_arg0]

theorem V4_v0 (c : Dev nD) : V4 m c main_v0 = V1 m c main_v0 := by
  show midW (W2 m c) (Proc.devRef .tc main_v0) = _
  rw [mid_keeps_v0, W2_arr m c 1, keepA_v0]

/-- The accumulators the first launch leaves are the per-half sums of the rows. -/
theorem acc2_eq (c : Dev nD) : acc2 (W2 m c) = Spec.kA2 (xk m c) (sk m c) := by
  funext h g j
  show (W2 m c (Proc.devRef .tc main_v1_0) : FVec Ideal S2x64x128 .f32) (ix3 h g j) = (Spec.kA2 (xk m c) (sk m c) h g j : EReal)
  rw [W2_arr m c 2, sumA]
  unfold Spec.kA2
  refine Finset.sum_congr (M := EReal) rfl fun i _ => Finset.sum_congr (M := EReal) rfl fun r _ => ?_
  rw [show sarrA (V1 m) c (ix2 (rowA h i r) 0) = sk m c (Spec.row h i r) from V1_v0 m c _]
  show _ * (V1 m c main_arg0 : FVec Ideal S200000x480 .f32) _ = _
  rw [V1_arg0]
  rfl

theorem acc3_eq (c : Dev nD) : acc3 (W2 m c) = Spec.kA3 (xk m c) (sk m c) := by
  funext h g j
  show (W2 m c (Proc.devRef .tc main_v1_1) : FVec Ideal S2x64x480 .f32) (ix3 h g j) = (Spec.kA3 (xk m c) (sk m c) h g j : EReal)
  rw [W2_arr m c 3, sqA]
  unfold Spec.kA3
  refine Finset.sum_congr (M := EReal) rfl fun i _ => Finset.sum_congr (M := EReal) rfl fun r _ => ?_
  rw [show sarrA (V1 m) c (ix2 (rowA h i r) 0) = sk m c (Spec.row h i r) from V1_v0 m c _]
  have hx : xarrA (V1 m) c = (m ((c : Thread nD τ).loc main_arg0) : FVec Ideal S200000x480 .f32) := V1_arg0 m c
  rw [hx]
  rfl

theorem acc4_eq (c : Dev nD) : acc4 (W2 m c) = Spec.kA4 (sk m c) := by
  funext h g
  show (W2 m c (Proc.devRef .tc main_v1_2) : FVec Ideal S2x64x1 .f32) (ix3 h g 0) = (Spec.kA4 (sk m c) h g : EReal)
  rw [W2_arr m c 4, cntA]
  unfold Spec.kA4
  refine Finset.sum_congr (M := EReal) rfl fun i _ => Finset.sum_congr (M := EReal) rfl fun r _ => ?_
  rw [show sarrA (V1 m) c (ix2 (rowA h i r) 0) = sk m c (Spec.row h i r) from V1_v0 m c _]

theorem wvec_eq (c : Dev nD) : wvec (W2 m c) = wk m c := by
  funext k
  show (W2 m c (Proc.devRef .tc main_arg2) : FVec Ideal S224 .f32) (ix1 k) = _
  rw [W2_arg2]

theorem bvec_eq (c : Dev nD) : bvec (W2 m c) = bk m c := by
  funext k
  show (W2 m c (Proc.devRef .tc main_arg3) : FVec Ideal S128 .f32) (ix1 k) = _
  rw [W2_arg3]

/-- The result array after the run, entry by entry. -/
theorem kernel_value (c : Dev nD) (n : Fin 200000) (j : Fin 480) :
    (W5 m c (Proc.devRef .tc main_v70) : FVec Ideal S200000x480 .f32) (ix2 n j)
      = Spec.kfinal (xk m c) (sk m c) (wk m c) (bk m c) n j := by
  rw [W5_result, outC]
  unfold Spec.kfinal
  have e0 : xarrC (V4 m) c (ix2 n j) = xk m c n j := by
    show (V4 m c main_arg0 : FVec Ideal S200000x480 .f32) (ix2 n j) = _
    rw [V4_arg0]
  have e1 : sarrC (V4 m) c (ix2 n 0) = sk m c n := by
    show (V4 m c main_v0 : IVec S200000x1 32) (ix2 n 0) = _
    rw [V4_v0]; exact V1_v0 m c n
  have e2 : (fun g => t2C (V4 m) c (ix2 g j)) = fun g => Spec.tmeanFull (Spec.kA2 (xk m c) (sk m c)) (Spec.kA4 (sk m c)) g j := by
    funext g
    show (midW (W2 m c) (Proc.devRef .tc main_v65) : FVec Ideal S64x480 .f32) (ix2 g j) = _
    rw [mid_mean_hi, acc2_eq, acc4_eq]
  have e3 : (fun g => t3C (V4 m) c (ix2 g j)) = fun g => Spec.tmeanFull (Spec.kA2 (xk m c) (sk m c)) (Spec.kA4 (sk m c)) g j
      - Spec.tmeanFull (Spec.kA2 (xk m c) (sk m c)) (Spec.kA4 (sk m c)) g j := by
    funext g
    show (midW (W2 m c) (Proc.devRef .tc main_v66) : FVec Ideal S64x480 .f32) (ix2 g j) = _
    rw [mid_mean_lo, acc2_eq, acc4_eq]
  have e4 : (fun g => t4C (V4 m) c (ix2 g j)) = fun g => Spec.tscaleFull (Spec.kA2 (xk m c) (sk m c)) (Spec.kA3 (xk m c) (sk m c)) (Spec.kA4 (sk m c)) (wk m c) g j := by
    funext g
    show (midW (W2 m c) (Proc.devRef .tc main_v68) : FVec Ideal S64x480 .f32) (ix2 g j) = _
    rw [mid_scale_hi, acc2_eq, acc3_eq, acc4_eq, wvec_eq]
  have e5 : (fun g => t5C (V4 m) c (ix2 g j)) = fun g => Spec.tscaleFull (Spec.kA2 (xk m c) (sk m c)) (Spec.kA3 (xk m c) (sk m c)) (Spec.kA4 (sk m c)) (wk m c) g j
      - Spec.tscaleFull (Spec.kA2 (xk m c) (sk m c)) (Spec.kA3 (xk m c) (sk m c)) (Spec.kA4 (sk m c)) (wk m c) g j := by
    funext g
    show (midW (W2 m c) (Proc.devRef .tc main_v69) : FVec Ideal S64x480 .f32) (ix2 g j) = _
    rw [mid_scale_lo, acc2_eq, acc3_eq, acc4_eq, wvec_eq]
  have e6 : t6C (V4 m) c (ix2 0 j) = Spec.tbiasFull (bk m c) j := by
    show (midW (W2 m c) (Proc.devRef .tc main_v63) : FVec Ideal S1x480 .f32) (ix2 0 j) = _
    rw [mid_bias, bvec_eq]
  rw [e0, e1, e2, e3, e4, e5, e6]

end Cert.KernelIdeal.Hand

end
-- ==== Proof.LibScatter.lean ====
/-
  Two facts on the host's indexed operations over the extended reals, for a table of G rows indexed by a column of N
  signed 32-bit words.

  * An accumulating scatter of N update rows into the table adds to entry (g, j) the entries (n, j) of exactly the update
    rows n whose index word, read signed, is g; a word outside 0 .. G-1 lands nowhere. The same for a vector of N updates
    into a vector of G entries.
  * A gather of rows by such a column reads row `clampRow` of the word: the word read signed and clamped into 0 .. G-1.
-/
import Idealize.ShloMosaic.PureOps.Ideal
import Idealize.ShloMosaic.PureOps.Contract
import Idealize.ShloMosaic.Lib.ValueIdx

noncomputable section

open scoped BigOperators

namespace Cert.LibScatter

open Idealize.ShloMosaic Idealize.ShloMosaic.ValueIdx

/-- The table row a signed word names after clamping into `0 .. G`. -/
def clampRow (G : Nat) (s : BitVec 32) : Fin (G + 1) := ⟨(max 0 (min s.toInt G)).toNat, by omega⟩

/-- Rows scattered into a table: updates [N, C] into [G, C] by an index column [N, 1]. -/
def rowsScatter (G N C : Nat)
    (wf : ScatterDims.WF (⟨2, ![G, C]⟩ : Shape) ⟨2, ![N, 1]⟩ ⟨2, ![N, C]⟩ [1] [0] [0] 1) :
    ScatterDims (⟨2, ![G, C]⟩ : Shape) ⟨2, ![N, 1]⟩ ⟨2, ![N, C]⟩ :=
  { updateWindowDims := [1], insertedWindowDims := [0], scatterDimsToOperandDims := [0], indexVectorDim := 1, wf := wf }

/-- Scalars scattered into a vector: updates [N] into [G] by an index column [N, 1]. -/
def vecScatter (G N : Nat)
    (wf : ScatterDims.WF (⟨1, ![G]⟩ : Shape) ⟨2, ![N, 1]⟩ ⟨1, ![N]⟩ [] [0] [0] 1) :
    ScatterDims (⟨1, ![G]⟩ : Shape) ⟨2, ![N, 1]⟩ ⟨1, ![N]⟩ :=
  { updateWindowDims := [], insertedWindowDims := [0], scatterDimsToOperandDims := [0], indexVectorDim := 1, wf := wf }

/-- Rows gathered from a table: [G + 1, C] read at an index column [N, 1] into [N, C], one row of C per index. -/
def rowsGather (G N C : Nat)
    (wf : GatherDims.WF (⟨2, ![G + 1, C]⟩ : Shape) ⟨2, ![N, 1]⟩ ⟨2, ![N, C]⟩ [1] [0] [] [0] [] 1 ![1, C]) :
    GatherDims (⟨2, ![G + 1, C]⟩ : Shape) ⟨2, ![N, 1]⟩ ⟨2, ![N, C]⟩ :=
  { offsetDims := [1], collapsedSliceDims := [0], operandBatchingDims := [], startIndicesBatchingDims := [],
    startIndexMap := [0], indexVectorDim := 1, sliceSizes := ![1, C], wf := wf }

/-! ## Where an update lands -/

/-- An update lands at operand index `i` exactly when, on every operand axis, its start plus its window coordinate is
    `i`'s coordinate: the bounds the scatter tests are then `i`'s own. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro he a
      have h1 := congrArg Fin.val (congrFun he a)
      have h2 := (h a).1
      simp only at h1
      omega
    · intro he
      funext a
      refine Fin.ext ?_
      have h1 := he a
      show (d.start j idx a + (d.window j a : Int)).toNat = (i a).val
      omega
  · rename_i h
    constructor
    · intro he; cases he
    · intro he
      exact absurd (fun a => by have h1 := he a; have h2 := (i a).isLt; constructor <;> omega) h

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-! ## Rows into a table: update (n, b) starts at row `idx (n, 0)` (signed) and keeps its column -/

section Rows
variable {G N C : Nat} (wf : ScatterDims.WF (⟨2, ![G, C]⟩ : Shape) ⟨2, ![N, 1]⟩ ⟨2, ![N, C]⟩ [1] [0] [0] 1)
  (idx : IVec (⟨2, ![N, 1]⟩ : Shape) 32)

/-- On the row axis the start is the index word of the update's row, read signed. -/
theorem rows_start0 (n : Fin N) (b : Fin C) :
    (rowsScatter G N C wf).start (ix2 n b) idx (0 : Fin 2) = (idx (ix2 n 0)).toInt := by
  unfold ScatterDims.start
  rw [dif_pos (show (0 : Fin 2) ∈ (rowsScatter G N C wf).scatterDimsToOperandDims from List.mem_singleton.mpr rfl)]
  have hsi : (rowsScatter G N C wf).siIdx (ix2 n b) ⟨List.idxOf (0 : Fin 2) (rowsScatter G N C wf).scatterDimsToOperandDims,
      List.idxOf_lt_length_iff.2 (List.mem_singleton.mpr rfl)⟩ = ix2 n 0 := by
    funext c; refine Fin.ext ?_
    match c with
    | ⟨0, _⟩ => rfl
    | ⟨1, _⟩ => rfl
  rw [hsi]

/-- The column axis is not an indexed one: its start is 0. -/
theorem rows_start1 (n : Fin N) (b : Fin C) : (rowsScatter G N C wf).start (ix2 n b) idx (1 : Fin 2) = 0 := by
  unfold ScatterDims.start
  rw [dif_neg (show (1 : Fin 2) ∉ (rowsScatter G N C wf).scatterDimsToOperandDims from (by decide : (1 : Fin 2) ∉ [(0 : Fin 2)]))]

/-- The row axis is the inserted one: no window coordinate. -/
theorem rows_window0 (n : Fin N) (b : Fin C) : (rowsScatter G N C wf).window (ix2 n b) (0 : Fin 2) = 0 := by
  unfold ScatterDims.window
  rw [dif_neg (show (0 : Fin 2) ∉ (rowsScatter G N C wf).sKept from
    (by decide : (0 : Fin 2) ∉ (List.finRange 2).filter (fun a => a ∉ [(0 : Fin 2)])))]

/-- On the column axis the window coordinate is the update's column. -/
theorem rows_window1 (n : Fin N) (b : Fin C) : (rowsScatter G N C wf).window (ix2 n b) (1 : Fin 2) = b.val := by
  unfold ScatterDims.window
  rw [dif_pos (show (1 : Fin 2) ∈ (rowsScatter G N C wf).sKept from
    (by decide : (1 : Fin 2) ∈ (List.finRange 2).filter (fun a => a ∉ [(0 : Fin 2)])))]
  rfl

/-- Update (n, b) lands at (g, j) exactly when its index word, read signed, is g and b = j. -/
theorem rows_result (n : Fin N) (b : Fin C) (g : Fin G) (j : Fin C) :
    (rowsScatter G N C wf).resultIdx? (ix2 n b) idx = some (ix2 g j) ↔ (idx (ix2 n 0)).toInt = (g.val : Int) ∧ b = j := by
  rw [resultIdx?_eq_some_iff]
  constructor
  · intro h
    have h0 : (idx (ix2 n 0)).toInt + ((0 : Nat) : Int) = (g.val : Int) := by
      have := h (0 : Fin 2); rw [rows_start0, rows_window0] at this; exact this
    have h1 : (0 : Int) + (b.val : Int) = (j.val : Int) := by
      have := h (1 : Fin 2); rw [rows_start1, rows_window1] at this; exact this
    exact ⟨by omega, Fin.ext (by omega)⟩
  · rintro ⟨h0, rfl⟩ a
    match a with
    | ⟨0, _⟩ =>
      show (rowsScatter G N C wf).start (ix2 n b) idx (0 : Fin 2) + ((rowsScatter G N C wf).window (ix2 n b) (0 : Fin 2) : Int) = (g.val : Int)
      rw [rows_start0, rows_window0]; omega
    | ⟨1, _⟩ =>
      show (rowsScatter G N C wf).start (ix2 n b) idx (1 : Fin 2) + ((rowsScatter G N C wf).window (ix2 n b) (1 : Fin 2) : Int) = (b.val : Int)
      rw [rows_start1, rows_window1]; omega

end Rows

/-- THE ROW SCATTER READ AT (g, j): the table's entry plus the entries (n, j) of the update rows n whose index word,
    read signed, is g. The filtered sum over update indices splits by coordinates; in row n only column j can land at
    (g, j), and it does exactly when the word is g. -/
theorem scatterAdd_rows_apply {G N C : Nat} (wf) (x : FVec Ideal (⟨2, ![G, C]⟩ : Shape) .f32) (idx : IVec (⟨2, ![N, 1]⟩ : Shape) 32)
    (upd : FVec Ideal (⟨2, ![N, C]⟩ : Shape) .f32) (g : Fin G) (j : Fin C) :
    Host.scatterAdd (rowsScatter G N C wf) x idx upd (ix2 g j)
      = x (ix2 g j) + ∑ n : Fin N, if (idx (ix2 n 0)).toInt = (g.val : Int) then upd (ix2 n j) else 0 := by
  unfold Host.scatterAdd
  rw [Ideal.hostScatterAdd_def]
  unfold Ideal.hostScatterAdd
  congr 1
  rw [Finset.sum_filter, sum_idx2]
  refine Finset.sum_congr rfl fun n _ => ?_
  simp only [rows_result]
  by_cases hg : (idx (ix2 n 0)).toInt = (g.val : Int)
  · rw [if_pos hg]; simp [hg]
  · rw [if_neg hg]; simp [hg]

/-! ## Scalars into a vector: update n starts at entry `idx (n, 0)` (signed) -/

section Vec
variable {G N : Nat} (wf : ScatterDims.WF (⟨1, ![G]⟩ : Shape) ⟨2, ![N, 1]⟩ ⟨1, ![N]⟩ [] [0] [0] 1)
  (idx : IVec (⟨2, ![N, 1]⟩ : Shape) 32)

/-- On the one axis the start is the update's index word, read signed. -/
theorem vec_start0 (n : Fin N) : (vecScatter G N wf).start (ix1 n) idx (0 : Fin 1) = (idx (ix2 n 0)).toInt := by
  unfold ScatterDims.start
  rw [dif_pos (show (0 : Fin 1) ∈ (vecScatter G N wf).scatterDimsToOperandDims from List.mem_singleton.mpr rfl)]
  have hsi : (vecScatter G N wf).siIdx (ix1 n) ⟨List.idxOf (0 : Fin 1) (vecScatter G N wf).scatterDimsToOperandDims,
      List.idxOf_lt_length_iff.2 (List.mem_singleton.mpr rfl)⟩ = ix2 n 0 := by
    funext c; refine Fin.ext ?_
    match c with
    | ⟨0, _⟩ => rfl
    | ⟨1, _⟩ => rfl
  rw [hsi]

/-- The one axis is the inserted one: no window coordinate. -/
theorem vec_window0 (n : Fin N) : (vecScatter G N wf).window (ix1 n) (0 : Fin 1) = 0 := by
  unfold ScatterDims.window
  rw [dif_neg (show (0 : Fin 1) ∉ (vecScatter G N wf).sKept from
    (by decide : (0 : Fin 1) ∉ (List.finRange 1).filter (fun a => a ∉ [(0 : Fin 1)])))]

/-- Update n lands at g exactly when its index word, read signed, is g. -/
theorem vec_result (n : Fin N) (g : Fin G) :
    (vecScatter G N wf).resultIdx? (ix1 n) idx = some (ix1 g) ↔ (idx (ix2 n 0)).toInt = (g.val : Int) := by
  rw [resultIdx?_eq_some_iff]
  constructor
  · intro h
    have h0 : (idx (ix2 n 0)).toInt + ((0 : Nat) : Int) = (g.val : Int) := by
      have := h (0 : Fin 1); rw [vec_start0, vec_window0] at this; exact this
    omega
  · intro h0 a
    match a with
    | ⟨0, _⟩ =>
      show (vecScatter G N wf).start (ix1 n) idx (0 : Fin 1) + ((vecScatter G N wf).window (ix1 n) (0 : Fin 1) : Int) = (g.val : Int)
      rw [vec_start0, vec_window0]; omega

end Vec

/-- THE VECTOR SCATTER READ AT g: the entry plus the updates n whose index word, read signed, is g. -/
theorem scatterAdd_vec_apply {G N : Nat} (wf) (x : FVec Ideal (⟨1, ![G]⟩ : Shape) .f32) (idx : IVec (⟨2, ![N, 1]⟩ : Shape) 32)
    (upd : FVec Ideal (⟨1, ![N]⟩ : Shape) .f32) (g : Fin G) :
    Host.scatterAdd (vecScatter G N wf) x idx upd (ix1 g)
      = x (ix1 g) + ∑ n : Fin N, if (idx (ix2 n 0)).toInt = (g.val : Int) then upd (ix1 n) else 0 := by
  unfold Host.scatterAdd
  rw [Ideal.hostScatterAdd_def]
  unfold Ideal.hostScatterAdd
  congr 1
  rw [Finset.sum_filter, sum_idx1]
  refine Finset.sum_congr rfl fun n _ => ?_
  by_cases hg : (idx (ix2 n 0)).toInt = (g.val : Int)
  · rw [if_pos hg, if_pos ((vec_result wf idx n g).2 hg)]
  · rw [if_neg hg, if_neg (fun h => hg ((vec_result wf idx n g).1 h))]

/-! ## Rows out of a table: result (n, j) reads row `idx (n, 0)` (signed, clamped) at column j -/

section Gather
variable {G N C : Nat} (wf : GatherDims.WF (⟨2, ![G + 1, C]⟩ : Shape) ⟨2, ![N, 1]⟩ ⟨2, ![N, C]⟩ [1] [0] [] [0] [] 1 ![1, C])
  (idx : IVec (⟨2, ![N, 1]⟩ : Shape) 32)

/-- On the row axis the start is the index word read signed and clamped to at most G (a slice of one row fits up to
    row G of the G + 1). -/
theorem gather_start0 (n : Fin N) (j : Fin C) :
    (rowsGather G N C wf).start (ix2 n j) idx (0 : Fin 2) = min (idx (ix2 n 0)).toInt.toNat G := by
  unfold GatherDims.start
  rw [dif_pos (show (0 : Fin 2) ∈ (rowsGather G N C wf).startIndexMap from List.mem_singleton.mpr rfl)]
  have hsi : (rowsGather G N C wf).siIdx (ix2 n j) ⟨List.idxOf (0 : Fin 2) (rowsGather G N C wf).startIndexMap,
      List.idxOf_lt_length_iff.2 (List.mem_singleton.mpr rfl)⟩ = ix2 n 0 := by
    funext b; refine Fin.ext ?_
    match b with
    | ⟨0, _⟩ => rfl
    | ⟨1, _⟩ => rfl
  rw [hsi]
  rfl

/-- The column axis is not an indexed one: its start is 0. -/
theorem gather_start1 (n : Fin N) (j : Fin C) : (rowsGather G N C wf).start (ix2 n j) idx (1 : Fin 2) = 0 := by
  unfold GatherDims.start
  rw [dif_neg (show (1 : Fin 2) ∉ (rowsGather G N C wf).startIndexMap from (by decide : (1 : Fin 2) ∉ [(0 : Fin 2)]))]

/-- On the column axis the offset coordinate is the result's column. -/
theorem gather_off1 (n : Fin N) (j : Fin C) : (rowsGather G N C wf).offCoord (ix2 n j) (1 : Fin 2) = j.val := by
  unfold GatherDims.offCoord
  rw [dif_pos (show (1 : Fin 2) ∈ (rowsGather G N C wf).sKept from
    (GatherDims.mem_sKept _ _).2 ⟨(by decide : (1 : Fin 2) ∉ [(0 : Fin 2)]), List.not_mem_nil⟩)]
  rfl

end Gather

/-- THE ROW GATHER READ AT (n, j): the table at row `clampRow` of the index word and column j. The operand index is
    computed axis by axis: the clamped start on the collapsed row axis, the offset coordinate on the column axis. -/
theorem gather_rows_apply {α : Type} {G N C : Nat} (wf) (x : (⟨2, ![G + 1, C]⟩ : Shape).Idx → α) (idx : IVec (⟨2, ![N, 1]⟩ : Shape) 32)
    (n : Fin N) (j : Fin C) :
    Host.gather (rowsGather G N C wf) x idx (ix2 n j) = x (ix2 (clampRow G (idx (ix2 n 0))) j) := by
  unfold Host.gather
  congr 1
  funext a
  refine Fin.ext ?_
  show (rowsGather G N C wf).start (ix2 n j) idx a + (rowsGather G N C wf).batchCoord (ix2 n j) a
    + (rowsGather G N C wf).offCoord (ix2 n j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    show (rowsGather G N C wf).start (ix2 n j) idx (0 : Fin 2) + 0 + 0 = (max 0 (min (idx (ix2 n 0)).toInt G)).toNat
    rw [gather_start0]
    omega
  | ⟨1, _⟩ =>
    show (rowsGather G N C wf).start (ix2 n j) idx (1 : Fin 2) + 0 + (rowsGather G N C wf).offCoord (ix2 n j) (1 : Fin 2) = j.val
    rw [gather_start1, gather_off1]
    omega

end Cert.LibScatter

end
-- ==== Proof.RefArgs.lean ====
/-
  The reference's four arguments as plain functions of their coordinates.
-/
import proofs.«412429_j58076547777199_3_alg».proof.Proof.Gen.ReferenceIdeal.Read
import Idealize.ShloMosaic.Lib.ValueIdx
set_option maxRecDepth 16384

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Read

variable (x0 : (⟨S200000x480, .f32⟩ : BufTy).Contents (Elt Ideal)) (x1 : (⟨S200000, .i32⟩ : BufTy).Contents (Elt Ideal))
  (x2 : (⟨S224, .f32⟩ : BufTy).Contents (Elt Ideal)) (x3 : (⟨S128, .f32⟩ : BufTy).Contents (Elt Ideal))

abbrev xf : Fin 200000 → Fin 480 → EReal := fun n j => (x0 : FVec Ideal S200000x480 .f32) (ix2 n j)
abbrev sf : Fin 200000 → BitVec 32 := fun n => (x1 : IVec S200000 32) (ix1 n)
abbrev wf : Fin 224 → EReal := fun k => (x2 : FVec Ideal S224 .f32) (ix1 k)
abbrev bf : Fin 128 → EReal := fun k => (x3 : FVec Ideal S128 .f32) (ix1 k)

end Cert.ReferenceIdeal.RefValue

end
-- ==== Proof.RefScalar.lean ====
/-
  The reference's scalar columns, read at row n and column j < 128: the entry minus its graph's mean, times the inverse
  root of the graph's mean squared deviation (plus the small constant) and the column's weight, plus the column's bias.
-/
import proofs.«412429_j58076547777199_3_alg».proof.Proof.Gen.ReferenceIdeal.Read
import proofs.«412429_j58076547777199_3_alg».proof.Proof.Spec
import proofs.«412429_j58076547777199_3_alg».proof.Proof.SpecFacts
import proofs.«412429_j58076547777199_3_alg».proof.Proof.Consts
import proofs.«412429_j58076547777199_3_alg».proof.Proof.LibScatter
import proofs.«412429_j58076547777199_3_alg».proof.Proof.RefArgs
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Read

/-! ## Facts on words and sums that do not mention a stage -/

/-- A negative id wrapped by 64: the select on the signed comparison with zero is the plain conditional. -/
theorem wrap_word (a : BitVec 32) :
    Scalar.select (IntOp.cmpi .slt a 0#32) (IntOp.addi a 64#32) a = if a.slt 0 then a + 64 else a := by
  unfold Scalar.select IntOp.cmpi IntOp.addi
  cases h : a.slt 0#32 <;> simp [h]

/-- The row a gather by the wrapped id reads is the clamped wrapped id. -/
theorem grow_eq_clampRow (sn : BitVec 32) :
    Spec.grow sn = LibScatter.clampRow 63 (if sn.slt 0 then sn + 64 else sn) := Fin.ext rfl

/-- The sum over the rows whose id reads, signed, as g is the segment sum. -/
theorem ifsum_eq_segsum (s : Fin 200000 → BitVec 32) (f : Fin 200000 → EReal) (g : Fin 64) :
    (∑ n : Fin 200000, if (s n).toInt = (g.val : Int) then f n else 0) = Spec.segsum s f g := by
  unfold Spec.segsum
  exact Finset.sum_congr rfl fun n _ => (Spec.oh_mul (s n) g (f n)).symm

variable (x0 : (⟨S200000x480, .f32⟩ : BufTy).Contents (Elt Ideal)) (x1 : (⟨S200000, .i32⟩ : BufTy).Contents (Elt Ideal))
  (x2 : (⟨S224, .f32⟩ : BufTy).Contents (Elt Ideal)) (x3 : (⟨S128, .f32⟩ : BufTy).Contents (Elt Ideal))

/-! ## The scalar block, stage by stage -/

/-- The scalar block as [200000, 128, 1]: entry (n, j, 0) is the input's entry (n, j). -/
theorem v1_at (n : Fin 200000) (j : Fin 128) (k : Fin 1) :
    val_main_v1 (F := Ideal) x0 (ix3 n j k) = xf x0 n (Spec.col1 j) := by
  rw [val_main_v1_apply, val_main_v0_apply]
  refine congrArg x0 (funext fun a => Fin.ext ?_)
  have hk := k.isLt
  match a with
  | ⟨0, _⟩ => show ((n.val * 128 + j.val) * 1 + k.val) / 128 = n.val; omega
  | ⟨1, _⟩ => show ((n.val * 128 + j.val) * 1 + k.val) % 128 = j.val; omega

/-- The scalar block as [200000, 128]. -/
theorem v2_at (n : Fin 200000) (j : Fin 128) :
    val_main_v2 (F := Ideal) x0 (ix2 n j) = xf x0 n (Spec.col1 j) := by
  rw [val_main_v2_apply]
  have h : idx_main_v2 (ix2 n j) = ix3 n j (0 : Fin 1) := by
    funext a; apply Fin.ext
    match a with
    | ⟨0, _⟩ => show (n.val * 128 + j.val) / 128 = n.val; omega
    | ⟨1, _⟩ => show (n.val * 128 + j.val) / 1 % 128 = j.val; omega
    | ⟨2, _⟩ => rfl
  rw [h, v1_at]

/-- The index column [200000, 1] of the scatters: entry (n, 0) is row n's id. -/
theorem v4_at (n : Fin 200000) (k : Fin 1) : val_main_v4 (F := Ideal) x1 (ix2 n k) = sf x1 n := by
  rw [val_main_v4_apply]
  exact congrArg x1 (funext fun a => Fin.ext (by match a with | ⟨0, _⟩ => rfl))
theorem v8_at (n : Fin 200000) (k : Fin 1) : val_main_v8 (F := Ideal) x1 (ix2 n k) = sf x1 n := v4_at x1 n k
theorem v29_at (n : Fin 200000) (k : Fin 1) : val_main_v29 (F := Ideal) x1 (ix2 n k) = sf x1 n := v4_at x1 n k
theorem v33_at (n : Fin 200000) (k : Fin 1) : val_main_v33 (F := Ideal) x1 (ix2 n k) = sf x1 n := v4_at x1 n k

/-- The scattered ones at g: the number of rows of graph g. -/
theorem v9_at (g : Fin 64) :
    val_main_v9 (F := Ideal) x1 (ix1 g) = 0 + Spec.segsum (sf x1) (fun _ => 1) g := by
  unfold val_main_v9
  have hrec : (scatter_S64_S200000x1_S200000_n_0_0_1 : ScatterDims S64 S200000x1 S200000)
      = LibScatter.vecScatter 64 200000 Facts₀.scatter_S64_S200000x1_S200000_n_0_0_1_wf := rfl
  rw [hrec, LibScatter.scatterAdd_vec_apply, val_main_v7_apply, val_main_cst_1_apply, Ideal.ofBits_def, Consts.ofBits_zero]
  simp only [v8_at, val_main_v6_apply, val_main_cst_0_apply, Ideal.ofBits_def, Consts.ofBits_one]
  rw [ifsum_eq_segsum]

/-- The count of graph g, at least one. -/
theorem v11_at (g : Fin 64) : val_main_v11 (F := Ideal) x1 (ix1 g) = Spec.rcnt (sf x1) g := by
  rw [val_main_v11_apply, v9_at, val_main_v10_apply, val_main_cst_2_apply, Ideal.ofBits_def, Consts.ofBits_one,
    Ideal.maximumf_def]
  rfl

/-- The count as a [64, 128] table: the same in every column. -/
theorem v13_at (g : Fin 64) (j : Fin 128) : val_main_v13 (F := Ideal) x1 (ix2 g j) = Spec.rcnt (sf x1) g := by
  rw [val_main_v13_apply, val_main_v12_apply]
  have h : idx_main_v12 (idx_main_v13 (ix2 g j)) = ix1 g := funext fun a => Fin.ext (by match a with | ⟨0, _⟩ => rfl)
  rw [h, v11_at]

/-- The scattered scalar block at (g, j): the sum of column j over the rows of graph g. -/
theorem v5_at (g : Fin 64) (j : Fin 128) :
    val_main_v5 (F := Ideal) x0 x1 (ix2 g j) = 0 + Spec.segsum (sf x1) (fun n => xf x0 n (Spec.col1 j)) g := by
  unfold val_main_v5
  have hrec : (scatter_S64x128_S200000x1_S200000x128_1_0_0_1 : ScatterDims S64x128 S200000x1 S200000x128)
      = LibScatter.rowsScatter 64 200000 128 Facts₀.scatter_S64x128_S200000x1_S200000x128_1_0_0_1_wf := rfl
  rw [hrec, LibScatter.scatterAdd_rows_apply, val_main_v3_apply, val_main_cst_apply, Ideal.ofBits_def, Consts.ofBits_zero]
  simp only [v4_at, v2_at]
  rw [ifsum_eq_segsum]

/-- The mean of column j over graph g. -/
theorem v14_at (g : Fin 64) (j : Fin 128) :
    val_main_v14 (F := Ideal) x0 x1 (ix2 g j) = Spec.rmean (xf x0) (sf x1) g j := by
  rw [val_main_v14_apply, v5_at, v13_at, Ideal.hostDivf_def]
  rfl

/-- The gathers' index column: entry (n, 0) is row n's id, a negative one wrapped by 64. -/
theorem v20_at (n : Fin 200000) (k : Fin 1) :
    val_main_v20 (F := Ideal) x1 (ix2 n k) = if (sf x1 n).slt 0 then sf x1 n + 64 else sf x1 n := by
  rw [val_main_v20_apply]
  have h : idx_main_v20 (ix2 n k) = ix1 n := funext fun a => Fin.ext (by match a with | ⟨0, _⟩ => rfl)
  rw [h, val_main_v19_apply, val_main_v16_apply, val_main_v18_apply, val_main_v15_apply, val_main_c_apply,
    val_main_v17_apply, val_main_c_3_apply, wrap_word]
theorem v45_at (n : Fin 200000) (k : Fin 1) :
    val_main_v45 (F := Ideal) x1 (ix2 n k) = if (sf x1 n).slt 0 then sf x1 n + 64 else sf x1 n := v20_at x1 n k

/-- The mean gathered back to row n: the mean of the row's graph. -/
theorem v21_at (n : Fin 200000) (j : Fin 128) :
    val_main_v21 (F := Ideal) x0 x1 (ix2 n j) = Spec.rmean (xf x0) (sf x1) (Spec.grow (sf x1 n)) j := by
  unfold val_main_v21
  have hrec : (gather_S64x128_S200000x1_S200000x128_1_0_n_n_0_1_1128 : GatherDims S64x128 S200000x1 S200000x128)
      = LibScatter.rowsGather 63 200000 128 Facts₀.gather_S64x128_S200000x1_S200000x128_1_0_n_n_0_1_1128_wf := rfl
  rw [hrec, LibScatter.gather_rows_apply, v20_at, ← grow_eq_clampRow, v14_at]

/-- The deviation at (n, j, 0): the entry minus the mean of its row's graph. -/
theorem v23_at (n : Fin 200000) (j : Fin 128) (k : Fin 1) :
    val_main_v23 (F := Ideal) x0 x1 (ix3 n j k) = Spec.dev (xf x0) (sf x1) n j := by
  rw [val_main_v23_apply, v1_at, val_main_v22_apply]
  have h : idx_main_v22 (ix3 n j k) = ix2 n j :=
    funext fun a => Fin.ext (by match a with | ⟨0, _⟩ => rfl | ⟨1, _⟩ => rfl)
  rw [h, v21_at, Ideal.subf_def]
  rfl

/-- The mean of the squared deviation over the one component. -/
theorem v27_at (n : Fin 200000) (j : Fin 128) :
    val_main_v27 (F := Ideal) x0 x1 (ix2 n j)
      = Ideal.div (0 + ∑ _k : Fin 1, Spec.dev (xf x0) (sf x1) n j * Spec.dev (xf x0) (sf x1) n j) 1 := by
  rw [val_main_v27_apply, val_main_v25_apply, val_main_v26_apply, val_main_cst_5_apply, val_main_cst_4_apply,
    Ideal.ofBits_def, Ideal.ofBits_def, Consts.ofBits_zero, Consts.ofBits_one, Ideal.hostDivf_def]
  have h : ∀ k : Fin 1, idx_main_v25 (ix2 n j) k = ix3 n j k := fun k =>
    funext fun a => Fin.ext (by match a with | ⟨0, _⟩ => rfl | ⟨1, _⟩ => rfl | ⟨2, _⟩ => rfl)
  simp only [h, val_main_v24_apply, v23_at, Ideal.mulf_def]

/-- The scattered squared deviations at (g, j). -/
theorem v30_at (g : Fin 64) (j : Fin 128) :
    val_main_v30 (F := Ideal) x0 x1 (ix2 g j)
      = 0 + Spec.segsum (sf x1)
          (fun n => Ideal.div (0 + ∑ _k : Fin 1, Spec.dev (xf x0) (sf x1) n j * Spec.dev (xf x0) (sf x1) n j) 1) g := by
  unfold val_main_v30
  have hrec : (scatter_S64x128_S200000x1_S200000x128_1_0_0_1 : ScatterDims S64x128 S200000x1 S200000x128)
      = LibScatter.rowsScatter 64 200000 128 Facts₀.scatter_S64x128_S200000x1_S200000x128_1_0_0_1_wf := rfl
  rw [hrec, LibScatter.scatterAdd_rows_apply, val_main_v28_apply, val_main_cst_6_apply, Ideal.ofBits_def, Consts.ofBits_zero]
  simp only [v29_at, v27_at]
  rw [ifsum_eq_segsum]

/-- The count again, for the second mean. -/
theorem v34_at (g : Fin 64) :
    val_main_v34 (F := Ideal) x1 (ix1 g) = 0 + Spec.segsum (sf x1) (fun _ => 1) g := by
  unfold val_main_v34
  have hrec : (scatter_S64_S200000x1_S200000_n_0_0_1 : ScatterDims S64 S200000x1 S200000)
      = LibScatter.vecScatter 64 200000 Facts₀.scatter_S64_S200000x1_S200000_n_0_0_1_wf := rfl
  rw [hrec, LibScatter.scatterAdd_vec_apply, val_main_v32_apply, val_main_cst_8_apply, Ideal.ofBits_def, Consts.ofBits_zero]
  simp only [v33_at, val_main_v31_apply, val_main_cst_7_apply, Ideal.ofBits_def, Consts.ofBits_one]
  rw [ifsum_eq_segsum]

theorem v38_at (g : Fin 64) (j : Fin 128) : val_main_v38 (F := Ideal) x1 (ix2 g j) = Spec.rcnt (sf x1) g := by
  rw [val_main_v38_apply, val_main_v37_apply]
  have h : idx_main_v37 (idx_main_v38 (ix2 g j)) = ix1 g := funext fun a => Fin.ext (by match a with | ⟨0, _⟩ => rfl)
  rw [h, val_main_v36_apply, v34_at, val_main_v35_apply, val_main_cst_9_apply, Ideal.ofBits_def, Consts.ofBits_one,
    Ideal.maximumf_def]
  rfl

/-- The mean squared deviation of column j over graph g. -/
theorem v39_at (g : Fin 64) (j : Fin 128) :
    val_main_v39 (F := Ideal) x0 x1 (ix2 g j) = Spec.rvar (xf x0) (sf x1) g j := by
  rw [val_main_v39_apply, v30_at, v38_at, Ideal.hostDivf_def]
  rfl

/-- The mean squared deviation gathered back to row n. -/
theorem v46_at (n : Fin 200000) (j : Fin 128) :
    val_main_v46 (F := Ideal) x0 x1 (ix2 n j) = Spec.rvar (xf x0) (sf x1) (Spec.grow (sf x1 n)) j := by
  unfold val_main_v46
  have hrec : (gather_S64x128_S200000x1_S200000x128_1_0_n_n_0_1_1128 : GatherDims S64x128 S200000x1 S200000x128)
      = LibScatter.rowsGather 63 200000 128 Facts₀.gather_S64x128_S200000x1_S200000x128_1_0_n_n_0_1_1128_wf := rfl
  rw [hrec, LibScatter.gather_rows_apply, v45_at, ← grow_eq_clampRow, v39_at]

/-- The scale at (n, j): the inverse root, times the column's weight. -/
theorem v54_at (n : Fin 200000) (j : Fin 128) :
    val_main_v54 (F := Ideal) x0 x1 x2 (ix2 n j)
      = Ideal.pow (Spec.rvar (xf x0) (sf x1) (Spec.grow (sf x1 n)) j + Spec.eps) Spec.nhalf * wf x2 (Spec.wcol1 j) := by
  rw [val_main_v54_apply, val_main_v50_apply, val_main_v48_apply, v46_at, val_main_v47_apply, val_main_cst_12_apply,
    val_main_v49_apply, val_main_cst_13_apply, val_main_v53_apply, val_main_v52_apply, val_main_v51_apply,
    Ideal.ofBits_def, Ideal.ofBits_def, Ideal.addf_def, Ideal.hostPowf_def, Ideal.mulf_def]
  have h : idx_main_v51 (idx_main_v52 (idx_main_v53 (ix2 n j))) = ix1 (Spec.wcol1 j) :=
    funext fun a => Fin.ext (by match a with | ⟨0, _⟩ => rfl)
  rw [h]
  rfl

theorem ref_scalar (n : Fin 200000) (j : Fin 128) :
    (val_main_v61 (F := Ideal) x0 x1 x2 x3 : FVec Ideal S200000x128 .f32) (ix2 n j)
      = Spec.rout1 (xf x0) (sf x1) (wf x2) (bf x3) n j := by
  rw [val_main_v61_apply]
  have h : idx_main_v61 (ix2 n j) = ix3 n j (0 : Fin 1) := by
    funext a; apply Fin.ext
    match a with
    | ⟨0, _⟩ => show (n.val * 128 + j.val) / 128 = n.val; omega
    | ⟨1, _⟩ => show (n.val * 128 + j.val) / 1 % 128 = j.val; omega
    | ⟨2, _⟩ => rfl
  rw [h, val_main_v60_apply, val_main_v56_apply, v23_at, val_main_v55_apply]
  have h55 : idx_main_v55 (ix3 n j (0 : Fin 1)) = ix2 n j :=
    funext fun a => Fin.ext (by match a with | ⟨0, _⟩ => rfl | ⟨1, _⟩ => rfl)
  rw [h55, v54_at, val_main_v59_apply, val_main_v58_apply, val_main_v57_apply]
  have h57 : idx_main_v57 (idx_main_v58 (idx_main_v59 (ix3 n j (0 : Fin 1)))) = ix1 j :=
    funext fun a => Fin.ext (by match a with | ⟨0, _⟩ => rfl)
  rw [h57, Ideal.mulf_def, Ideal.addf_def]
  rfl

end Cert.ReferenceIdeal.RefValue

end
-- ==== Proof.RefMulti.lean ====
/-
  The reference's triples and quintuples, read at row n: the entry times the inverse root of its graph's mean of the
  mean square over the three (five) components (plus the small constant), times the multiplicity's weight.
-/
import proofs.«412429_j58076547777199_3_alg».proof.Proof.Gen.ReferenceIdeal.Read
import proofs.«412429_j58076547777199_3_alg».proof.Proof.Spec
import proofs.«412429_j58076547777199_3_alg».proof.Proof.SpecFacts
import proofs.«412429_j58076547777199_3_alg».proof.Proof.Consts
import proofs.«412429_j58076547777199_3_alg».proof.Proof.LibScatter
import proofs.«412429_j58076547777199_3_alg».proof.Proof.RefArgs
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Read

variable (x0 : (⟨S200000x480, .f32⟩ : BufTy).Contents (Elt Ideal)) (x1 : (⟨S200000, .i32⟩ : BufTy).Contents (Elt Ideal))
  (x2 : (⟨S224, .f32⟩ : BufTy).Contents (Elt Ideal)) (x3 : (⟨S128, .f32⟩ : BufTy).Contents (Elt Ideal))

/-! ## The triples -/

/-- The triples' entry (n, i, k) is the argument's entry at column 128 + 3 i + k. -/
theorem trip_at (n : Fin 200000) (i : Fin 64) (k : Fin 3) :
    (val_main_v63 (F := Ideal) x0 : FVec Ideal S200000x64x3 .f32) (ix3 n i k) = xf x0 n (Spec.col3 i k) := by
  rw [val_main_v63_apply, val_main_v62_apply]
  refine congrArg x0 (funext fun a => Fin.ext ?_)
  have hn := n.isLt; have hi := i.isLt; have hk := k.isLt
  match a with
  | ⟨0, _⟩ => show ((n.val * 64 + i.val) * 3 + k.val) / 192 = n.val; omega
  | ⟨1, _⟩ => show 128 + ((n.val * 64 + i.val) * 3 + k.val) % 192 = 128 + 3 * i.val + k.val; omega

/-- The mean square of a row's triple: the sum of the three squares over 3.0. -/
theorem msq3_at (n : Fin 200000) (i : Fin 64) :
    (val_main_v67 (F := Ideal) x0 : FVec Ideal S200000x64 .f32) (ix2 n i)
      = Ideal.div (0 + ∑ k : Fin 3, xf x0 n (Spec.col3 i k) * xf x0 n (Spec.col3 i k)) Spec.three := by
  rw [val_main_v67_apply, val_main_v65_apply, val_main_v66_apply, val_main_cst_15_apply, val_main_cst_14_apply]
  have hidx : ∀ k : Fin 3, idx_main_v65 (ix2 n i) k = ix3 n i k := fun k => funext fun a => by
    match a with | ⟨0, _⟩ => rfl | ⟨1, _⟩ => rfl | ⟨2, _⟩ => rfl
  simp only [val_main_v64_apply, hidx, trip_at, Ideal.hostDivf_def, Ideal.mulf_def, Ideal.ofBits_def,
    Cert.Consts.ofBits_zero]
  rfl

/-- The index column reads the row's segment id. -/
theorem idcol_at (n : Fin 200000) :
    (val_main_v73 (F := Ideal) x1 : IVec S200000x1 32) (ix2 n 0) = sf x1 n := by
  rw [val_main_v73_apply]
  exact congrArg x1 (funext fun a => by match a with | ⟨0, _⟩ => rfl)

theorem vecScatter_rec : scatter_S64_S200000x1_S200000_n_0_0_1
    = LibScatter.vecScatter 64 200000 Facts₀.scatter_S64_S200000x1_S200000_n_0_0_1_wf := rfl

/-- A graph's row count, at least one. -/
theorem cnt3_at (g : Fin 64) :
    (val_main_v76 (F := Ideal) x1 : FVec Ideal S64 .f32) (ix1 g) = Spec.rcnt (sf x1) g := by
  rw [val_main_v76_apply, val_main_v75_apply, val_main_cst_19_apply]
  unfold val_main_v74
  rw [vecScatter_rec, LibScatter.scatterAdd_vec_apply]
  simp only [idcol_at, val_main_v72_apply, val_main_cst_18_apply, val_main_v71_apply, val_main_cst_17_apply,
    Ideal.maximumf_def, Ideal.ofBits_def, Cert.Consts.ofBits_zero, Cert.Consts.ofBits_one,
    Spec.rcnt, Spec.segsum, Spec.oh_mul]

theorem rowsScatter3_rec : scatter_S64x64_S200000x1_S200000x64_1_0_0_1
    = LibScatter.rowsScatter 64 200000 64 Facts₀.scatter_S64x64_S200000x1_S200000x64_1_0_0_1_wf := rfl

theorem rowsGather3_rec : gather_S64x64_S200000x1_S200000x64_1_0_n_n_0_1_164
    = LibScatter.rowsGather 63 200000 64 Facts₀.gather_S64x64_S200000x1_S200000x64_1_0_n_n_0_1_164_wf := rfl

/-- The scatter's index column reads the row's segment id. -/
theorem idcol3_at (n : Fin 200000) :
    (val_main_v69 (F := Ideal) x1 : IVec S200000x1 32) (ix2 n 0) = sf x1 n := by
  rw [val_main_v69_apply]
  exact congrArg x1 (funext fun a => by match a with | ⟨0, _⟩ => rfl)

/-- A graph's mean of its rows' mean squares of triple i. -/
theorem gmean3_at (g i : Fin 64) :
    (val_main_v79 (F := Ideal) x0 x1 : FVec Ideal S64x64 .f32) (ix2 g i) = Spec.rm3 (xf x0) (sf x1) g i := by
  rw [val_main_v79_apply, val_main_v78_apply, val_main_v77_apply]
  have hidx : idx_main_v77 (idx_main_v78 (ix2 g i)) = ix1 g := funext fun a => by
    match a with | ⟨0, _⟩ => rfl
  rw [hidx, cnt3_at]
  unfold val_main_v70
  rw [rowsScatter3_rec, LibScatter.scatterAdd_rows_apply]
  simp only [idcol3_at, msq3_at, val_main_v68_apply, val_main_cst_16_apply, Ideal.hostDivf_def, Ideal.ofBits_def,
    Cert.Consts.ofBits_zero, Spec.rm3, Spec.segsum, Spec.oh_mul]

/-- A negative id wrapped by 64, as the program's select spells it. -/
theorem m_wrap_word (a : BitVec 32) :
    Scalar.select (IntOp.cmpi .slt a 0#32) (IntOp.addi a 64#32) a = if a.slt 0 then a + 64 else a := by
  unfold Scalar.select IntOp.cmpi IntOp.addi
  cases h : a.slt 0#32 <;> simp [h]

/-- The gather's index column reads the row's wrapped segment id. -/
theorem wrapcol3_at (n : Fin 200000) :
    (val_main_v85 (F := Ideal) x1 : IVec S200000x1 32) (ix2 n 0)
      = if (sf x1 n).slt 0 then sf x1 n + 64 else sf x1 n := by
  rw [val_main_v85_apply]
  have hidx : idx_main_v85 (ix2 n (0 : Fin 1)) = ix1 n := funext fun a => by
    match a with | ⟨0, _⟩ => rfl
  rw [hidx, val_main_v84_apply, val_main_v81_apply, val_main_v83_apply, val_main_v80_apply, val_main_v82_apply,
    val_main_c_20_apply, val_main_c_21_apply]
  exact m_wrap_word _

theorem m_grow_eq_clampRow (sn : BitVec 32) :
    Spec.grow sn = LibScatter.clampRow 63 (if sn.slt 0 then sn + 64 else sn) := Fin.ext rfl

/-- The mean of row n's graph, gathered back to the row. -/
theorem back3_at (n : Fin 200000) (i : Fin 64) :
    (val_main_v86 (F := Ideal) x0 x1 : FVec Ideal S200000x64 .f32) (ix2 n i)
      = Spec.rm3 (xf x0) (sf x1) (Spec.grow (sf x1 n)) i := by
  unfold val_main_v86
  rw [rowsGather3_rec, LibScatter.gather_rows_apply, wrapcol3_at, ← m_grow_eq_clampRow]
  exact gmean3_at x0 x1 _ i

/-- The scale of row n's triple i: the inverse root times the multiplicity's weight. -/
theorem scale3_at (n : Fin 200000) (i : Fin 64) :
    (val_main_v94 (F := Ideal) x0 x1 x2 : FVec Ideal S200000x64 .f32) (ix2 n i)
      = Ideal.pow (Spec.rm3 (xf x0) (sf x1) (Spec.grow (sf x1 n)) i + Spec.eps) Spec.nhalf * wf x2 (Spec.wcol3 i) := by
  rw [val_main_v94_apply, val_main_v90_apply, val_main_v88_apply, back3_at, val_main_v87_apply, val_main_v89_apply,
    val_main_cst_22_apply, val_main_cst_23_apply, val_main_v93_apply, val_main_v92_apply, val_main_v91_apply]
  have hidx : idx_main_v91 (idx_main_v92 (idx_main_v93 (ix2 n i))) = ix1 (Spec.wcol3 i) := funext fun a => by
    match a with | ⟨0, _⟩ => rfl
  rw [hidx]
  rfl

theorem ref_d3 (n : Fin 200000) (i : Fin 64) (k : Fin 3) :
    (val_main_v98 (F := Ideal) x0 x1 x2 : FVec Ideal S200000x192 .f32) (ix2 n ⟨3 * i.val + k.val, by omega⟩)
      = Spec.rout3 (xf x0) (sf x1) (wf x2) n i k := by
  rw [val_main_v98_apply]
  have hidx : idx_main_v98 (ix2 n (⟨3 * i.val + k.val, by omega⟩ : Fin 192)) = ix3 n i k := funext fun a => Fin.ext (by
    have hn := n.isLt; have hi := i.isLt; have hk := k.isLt
    match a with
    | ⟨0, _⟩ => show (n.val * 192 + (3 * i.val + k.val)) / 192 = n.val; omega
    | ⟨1, _⟩ => show (n.val * 192 + (3 * i.val + k.val)) / 3 % 64 = i.val; omega
    | ⟨2, _⟩ => show (n.val * 192 + (3 * i.val + k.val)) % 3 = k.val; omega)
  rw [hidx, val_main_v97_apply, trip_at, val_main_v96_apply, val_main_v95_apply]
  have hidx2 : idx_main_v95 (idx_main_v96 (ix3 n i k)) = ix2 n i := funext fun a => by
    match a with | ⟨0, _⟩ => rfl | ⟨1, _⟩ => rfl
  rw [hidx2, scale3_at]
  rfl

/-! ## The quintuples: the same stages over 32 multiplicities of five components -/

/-- The quintuples' entry (n, i, k) is the argument's entry at column 320 + 5 i + k. -/
theorem quin_at (n : Fin 200000) (i : Fin 32) (k : Fin 5) :
    (val_main_v100 (F := Ideal) x0 : FVec Ideal S200000x32x5 .f32) (ix3 n i k) = xf x0 n (Spec.col5 i k) := by
  rw [val_main_v100_apply, val_main_v99_apply]
  refine congrArg x0 (funext fun a => Fin.ext ?_)
  have hn := n.isLt; have hi := i.isLt; have hk := k.isLt
  match a with
  | ⟨0, _⟩ => show ((n.val * 32 + i.val) * 5 + k.val) / 160 = n.val; omega
  | ⟨1, _⟩ => show 320 + ((n.val * 32 + i.val) * 5 + k.val) % 160 = 320 + 5 * i.val + k.val; omega

/-- The mean square of a row's quintuple: the sum of the five squares over 5.0. -/
theorem msq5_at (n : Fin 200000) (i : Fin 32) :
    (val_main_v104 (F := Ideal) x0 : FVec Ideal S200000x32 .f32) (ix2 n i)
      = Ideal.div (0 + ∑ k : Fin 5, xf x0 n (Spec.col5 i k) * xf x0 n (Spec.col5 i k)) Spec.five := by
  rw [val_main_v104_apply, val_main_v102_apply, val_main_v103_apply, val_main_cst_25_apply, val_main_cst_24_apply]
  have hidx : ∀ k : Fin 5, idx_main_v102 (ix2 n i) k = ix3 n i k := fun k => funext fun a => by
    match a with | ⟨0, _⟩ => rfl | ⟨1, _⟩ => rfl | ⟨2, _⟩ => rfl
  simp only [val_main_v101_apply, hidx, quin_at, Ideal.hostDivf_def, Ideal.mulf_def, Ideal.ofBits_def,
    Cert.Consts.ofBits_zero]
  rfl

/-- The count scatter's index column reads the row's segment id. -/
theorem idcolc5_at (n : Fin 200000) :
    (val_main_v110 (F := Ideal) x1 : IVec S200000x1 32) (ix2 n 0) = sf x1 n := by
  rw [val_main_v110_apply]
  exact congrArg x1 (funext fun a => by match a with | ⟨0, _⟩ => rfl)

/-- A graph's row count, at least one. -/
theorem cnt5_at (g : Fin 64) :
    (val_main_v113 (F := Ideal) x1 : FVec Ideal S64 .f32) (ix1 g) = Spec.rcnt (sf x1) g := by
  rw [val_main_v113_apply, val_main_v112_apply, val_main_cst_29_apply]
  unfold val_main_v111
  rw [vecScatter_rec, LibScatter.scatterAdd_vec_apply]
  simp only [idcolc5_at, val_main_v109_apply, val_main_cst_28_apply, val_main_v108_apply, val_main_cst_27_apply,
    Ideal.maximumf_def, Ideal.ofBits_def, Cert.Consts.ofBits_zero, Cert.Consts.ofBits_one,
    Spec.rcnt, Spec.segsum, Spec.oh_mul]

theorem rowsScatter5_rec : scatter_S64x32_S200000x1_S200000x32_1_0_0_1
    = LibScatter.rowsScatter 64 200000 32 Facts₀.scatter_S64x32_S200000x1_S200000x32_1_0_0_1_wf := rfl

theorem rowsGather5_rec : gather_S64x32_S200000x1_S200000x32_1_0_n_n_0_1_132
    = LibScatter.rowsGather 63 200000 32 Facts₀.gather_S64x32_S200000x1_S200000x32_1_0_n_n_0_1_132_wf := rfl

/-- The scatter's index column reads the row's segment id. -/
theorem idcol5_at (n : Fin 200000) :
    (val_main_v106 (F := Ideal) x1 : IVec S200000x1 32) (ix2 n 0) = sf x1 n := by
  rw [val_main_v106_apply]
  exact congrArg x1 (funext fun a => by match a with | ⟨0, _⟩ => rfl)

/-- A graph's mean of its rows' mean squares of quintuple i. -/
theorem gmean5_at (g : Fin 64) (i : Fin 32) :
    (val_main_v116 (F := Ideal) x0 x1 : FVec Ideal S64x32 .f32) (ix2 g i) = Spec.rm5 (xf x0) (sf x1) g i := by
  rw [val_main_v116_apply, val_main_v115_apply, val_main_v114_apply]
  have hidx : idx_main_v114 (idx_main_v115 (ix2 g i)) = ix1 g := funext fun a => by
    match a with | ⟨0, _⟩ => rfl
  rw [hidx, cnt5_at]
  unfold val_main_v107
  rw [rowsScatter5_rec, LibScatter.scatterAdd_rows_apply]
  simp only [idcol5_at, msq5_at, val_main_v105_apply, val_main_cst_26_apply, Ideal.hostDivf_def, Ideal.ofBits_def,
    Cert.Consts.ofBits_zero, Spec.rm5, Spec.segsum, Spec.oh_mul]

/-- The gather's index column reads the row's wrapped segment id. -/
theorem wrapcol5_at (n : Fin 200000) :
    (val_main_v122 (F := Ideal) x1 : IVec S200000x1 32) (ix2 n 0)
      = if (sf x1 n).slt 0 then sf x1 n + 64 else sf x1 n := by
  rw [val_main_v122_apply]
  have hidx : idx_main_v122 (ix2 n (0 : Fin 1)) = ix1 n := funext fun a => by
    match a with | ⟨0, _⟩ => rfl
  rw [hidx, val_main_v121_apply, val_main_v118_apply, val_main_v120_apply, val_main_v117_apply, val_main_v119_apply,
    val_main_c_30_apply, val_main_c_31_apply]
  exact m_wrap_word _

/-- The mean of row n's graph, gathered back to the row. -/
theorem back5_at (n : Fin 200000) (i : Fin 32) :
    (val_main_v123 (F := Ideal) x0 x1 : FVec Ideal S200000x32 .f32) (ix2 n i)
      = Spec.rm5 (xf x0) (sf x1) (Spec.grow (sf x1 n)) i := by
  unfold val_main_v123
  rw [rowsGather5_rec, LibScatter.gather_rows_apply, wrapcol5_at, ← m_grow_eq_clampRow]
  exact gmean5_at x0 x1 _ i

/-- The scale of row n's quintuple i: the inverse root times the multiplicity's weight. -/
theorem scale5_at (n : Fin 200000) (i : Fin 32) :
    (val_main_v131 (F := Ideal) x0 x1 x2 : FVec Ideal S200000x32 .f32) (ix2 n i)
      = Ideal.pow (Spec.rm5 (xf x0) (sf x1) (Spec.grow (sf x1 n)) i + Spec.eps) Spec.nhalf * wf x2 (Spec.wcol5 i) := by
  rw [val_main_v131_apply, val_main_v127_apply, val_main_v125_apply, back5_at, val_main_v124_apply, val_main_v126_apply,
    val_main_cst_32_apply, val_main_cst_33_apply, val_main_v130_apply, val_main_v129_apply, val_main_v128_apply]
  have hidx : idx_main_v128 (idx_main_v129 (idx_main_v130 (ix2 n i))) = ix1 (Spec.wcol5 i) := funext fun a => by
    match a with | ⟨0, _⟩ => rfl
  rw [hidx]
  rfl

theorem ref_d5 (n : Fin 200000) (i : Fin 32) (k : Fin 5) :
    (val_main_v135 (F := Ideal) x0 x1 x2 : FVec Ideal S200000x160 .f32) (ix2 n ⟨5 * i.val + k.val, by omega⟩)
      = Spec.rout5 (xf x0) (sf x1) (wf x2) n i k := by
  rw [val_main_v135_apply]
  have hidx : idx_main_v135 (ix2 n (⟨5 * i.val + k.val, by omega⟩ : Fin 160)) = ix3 n i k := funext fun a => Fin.ext (by
    have hn := n.isLt; have hi := i.isLt; have hk := k.isLt
    match a with
    | ⟨0, _⟩ => show (n.val * 160 + (5 * i.val + k.val)) / 160 = n.val; omega
    | ⟨1, _⟩ => show (n.val * 160 + (5 * i.val + k.val)) / 5 % 32 = i.val; omega
    | ⟨2, _⟩ => show (n.val * 160 + (5 * i.val + k.val)) % 5 = k.val; omega)
  rw [hidx, val_main_v134_apply, quin_at, val_main_v133_apply, val_main_v132_apply]
  have hidx2 : idx_main_v132 (idx_main_v133 (ix3 n i k)) = ix2 n i := funext fun a => by
    match a with | ⟨0, _⟩ => rfl | ⟨1, _⟩ => rfl
  rw [hidx2, scale5_at]
  rfl

end Cert.ReferenceIdeal.RefValue

end
-- ==== Proof.RefValue.lean ====
/-
  The reference's whole result read at row n and column j: the scalar block, the triples' block and the quintuples' block
  side by side are the per-row formula `Spec.rout`.
-/
import proofs.«412429_j58076547777199_3_alg».proof.Proof.Gen.ReferenceIdeal.Read
import proofs.«412429_j58076547777199_3_alg».proof.Proof.Spec
import proofs.«412429_j58076547777199_3_alg».proof.Proof.SpecFacts
import proofs.«412429_j58076547777199_3_alg».proof.Proof.Consts
import proofs.«412429_j58076547777199_3_alg».proof.Proof.LibScatter
import proofs.«412429_j58076547777199_3_alg».proof.Proof.RefArgs
import proofs.«412429_j58076547777199_3_alg».proof.Proof.RefScalar
import proofs.«412429_j58076547777199_3_alg».proof.Proof.RefMulti
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Read

variable (x0 : (⟨S200000x480, .f32⟩ : BufTy).Contents (Elt Ideal)) (x1 : (⟨S200000, .i32⟩ : BufTy).Contents (Elt Ideal))
  (x2 : (⟨S224, .f32⟩ : BufTy).Contents (Elt Ideal)) (x3 : (⟨S128, .f32⟩ : BufTy).Contents (Elt Ideal))

theorem ref_result (n : Fin 200000) (j : Fin 480) :
    (val_main_v136 (F := Ideal) x0 x1 x2 x3 : FVec Ideal S200000x480 .f32) (ix2 n j)
      = Spec.rout (xf x0) (sf x1) (wf x2) (bf x3) n j := by
  have hjlt := j.isLt
  unfold val_main_v136 Spec.rout
  by_cases h : j.val < 128
  · -- a scalar column: the first piece at the same coordinates
    rw [dif_pos h]
    refine (concatenate_apply_piece (1 : Fin S200000x480.rank) _ _ (ix2 n j) 0 (by show (0 : Nat) < 3; omega) S200000x128 _ rfl rfl 0 rfl
      (ix2 n (⟨j.val, h⟩ : Fin 128)) ?_ ?_).trans (ref_scalar x0 x1 x2 x3 n ⟨j.val, h⟩)
    · intro b hb
      match b with
      | ⟨0, _⟩ => rfl
      | ⟨1, _⟩ => exact absurd rfl hb
    · show 0 + j.val = j.val
      omega
  · rw [dif_neg h]
    by_cases h' : j.val < 320
    · -- a triple's column: the second piece at column j - 128 = 3 i + k
      rw [dif_pos h']
      refine (concatenate_apply_piece (1 : Fin S200000x480.rank) _ _ (ix2 n j) 1 (by show (1 : Nat) < 3; omega) S200000x192 _ rfl rfl 128 rfl
        (ix2 n (⟨3 * ((j.val - 128) / 3) + (j.val - 128) % 3, by omega⟩ : Fin 192)) ?_ ?_).trans
        (ref_d3 x0 x1 x2 n ⟨(j.val - 128) / 3, by omega⟩ ⟨(j.val - 128) % 3, Nat.mod_lt _ (by decide)⟩)
      · intro b hb
        match b with
        | ⟨0, _⟩ => rfl
        | ⟨1, _⟩ => exact absurd rfl hb
      · show 128 + (3 * ((j.val - 128) / 3) + (j.val - 128) % 3) = j.val
        omega
    · -- a quintuple's column: the third piece at column j - 320 = 5 i + k
      rw [dif_neg h']
      refine (concatenate_apply_piece (1 : Fin S200000x480.rank) _ _ (ix2 n j) 2 (by show (2 : Nat) < 3; omega) S200000x160 _ rfl rfl 320 rfl
        (ix2 n (⟨5 * ((j.val - 320) / 5) + (j.val - 320) % 5, by omega⟩ : Fin 160)) ?_ ?_).trans
        (ref_d5 x0 x1 x2 n ⟨(j.val - 320) / 5, by omega⟩ ⟨(j.val - 320) % 5, Nat.mod_lt _ (by decide)⟩)
      · intro b hb
        match b with
        | ⟨0, _⟩ => rfl
        | ⟨1, _⟩ => exact absurd rfl hb
      · show 320 + (5 * ((j.val - 320) / 5) + (j.val - 320) % 5) = j.val
        omega

end Cert.ReferenceIdeal.RefValue

end
-- ==== Proof.PreFacts.lean ====
/-
  What the precondition says, decoded: every entry of the input, the weight and the bias is a real number, and every
  segment id, read signed, lies in 0 .. 63.
-/
import proofs.«412429_j58076547777199_3_alg».proof.Pre_finite_inputs
import proofs.«412429_j58076547777199_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The scalar shape has exactly one index. -/
instance : Subsingleton S_.Idx := ⟨fun a b => funext fun d => d.elim0⟩

/-- The word 0x7F800000 is the float32 pattern of +∞. -/
theorem ofBits_inf : Ideal.ofBits .f32 0x7F800000#32 = ⊤ := by simp [Ideal.ofBits, Ideal.ieee]

/-- An extended real whose absolute value max x (-x) lies strictly below +∞ is a real number: at ⊥ the
    absolute value is -⊥ = ⊤, at ⊤ it is ⊤, and ⊤ < ⊤ fails. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- "all |a| < +∞", read at one entry: when the and-reduction of the mask |a| < +∞ (the bound a broadcast scalar)
    over all axes is 1, every entry of a is a real number. -/
theorem real_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
        (cmpf .olt (Host.absf a) (broadcastInDim s ![] hb (constant (F := Ideal) S_ .f32 0x7F800000#32)))
        (constantI S_ 1 1#1) hr h0 ix0 = 1#1)
    (i : s.Idx) : ∃ r : ℝ, a i = (r : EReal) := by
  have hi := Host.reduce_andi_all _ _ hr h0 ix0 e i
  -- the mask at i compares max (a i) (-(a i)) with the value of the +∞ word
  have hi' : Ideal.cmp .olt (max (a i) (-(a i))) (Ideal.ofBits .f32 0x7F800000#32) = 1#1 := hi
  rw [ofBits_inf] at hi'
  exact real_of_abs_lt_top (a i) hi'

/-- "all (0 ≤ id ∧ id < 64)", read at one entry: the signed comparisons against the broadcast words 0 and 64. -/
theorem range_of_all {s : Shape} {axes : List (Fin s.rank)} (a : IVec s 32)
    (hb : S_.BroadcastsInDim s (![] : Fin 0 → Fin s.rank)) (hr : s.ReducesTo axes S_) (h0 : 0 < S_.numel)
    (e : Host.reduce IntOp.andi
        (andi (cmpi .sge a (broadcastInDim s ![] hb (constantI S_ 32 0#32)))
          (cmpi .slt a (broadcastInDim s ![] hb (constantI S_ 32 64#32))))
        (constantI S_ 1 1#1) hr h0 ix0 = 1#1)
    (i : s.Idx) : 0 ≤ (a i).toInt ∧ (a i).toInt < 64 := by
  have hi := Host.reduce_andi_all _ _ hr h0 ix0 e i
  obtain ⟨hge, hlt⟩ := IntOp.andi_eq_one.1 hi
  have hge' : IntOp.cmpi .sge (a i) 0#32 = 1#1 := hge
  have hlt' : IntOp.cmpi .slt (a i) 64#32 = 1#1 := hlt
  have z : (0#32 : BitVec 32).toInt = 0 := by decide
  have s64 : (64#32 : BitVec 32).toInt = 64 := by decide
  simp only [IntOp.cmpi, BitVec.sle, BitVec.slt, StableHlo.Predicate.ofBool_eq_one_iff, decide_eq_true_eq, z, s64] at hge' hlt'
  exact ⟨hge', hlt'⟩

theorem decode [Cert.Pre_finite_inputs.Facts] (a0 : FVec Ideal S200000x480 .f32) (a1 : IVec S200000 32)
    (a2 : FVec Ideal S224 .f32) (a3 : FVec Ideal S128 .f32)
    (h : Cert.Pre_finite_inputs.fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal))
      ∧ (∀ i, 0 ≤ (a1 i).toInt ∧ (a1 i).toInt < 64) := by
  have h0 := congrFun h ValueIdx.ix0
  dsimp only [Cert.Pre_finite_inputs.fn, Cert.Pre_finite_inputs.fn_part1] at h0
  -- the four conjuncts: ((input ∧ weight) ∧ bias) ∧ ids
  obtain ⟨h012, hid⟩ := IntOp.andi_eq_one.1 h0
  obtain ⟨h01, hbias⟩ := IntOp.andi_eq_one.1 h012
  obtain ⟨hin, hw⟩ := IntOp.andi_eq_one.1 h01
  exact ⟨fun i => real_of_all a0 _ _ _ hin i, fun i => real_of_all a2 _ _ _ hw i, fun i => real_of_all a3 _ _ _ hbias i,
    fun i => range_of_all a1 _ _ _ hid i⟩

end Cert.PreFacts

end
-- ==== Proof.lean ====
/-
  The certificate: a segmented normalisation of 200000 rows of 480 columns over 64 graphs.

  Each row carries a segment id naming its graph. The 128 scalar columns are centred on their graph's mean and divided by
  the root of the graph's mean squared deviation; each of the 64 triples and 32 quintuples of columns is divided by the
  root of the graph's mean over rows of the mean square of its components; every column group is scaled by a weight and the
  scalar columns shifted by a bias. The reference computes this row by row with accumulating scatters and gathers by the
  segment id. The kernel makes one pass over the rows accumulating, per half of the rows and per graph, the sums, the
  sums of squares and the counts as one-hot matrix products; forms the per-graph mean and scale tables on the host, using
  the identity "second moment minus squared mean is the mean squared deviation"; and makes a second pass in which the
  one-hot matrix of a tile's segment ids, multiplied with the tables, reads each row's mean and scale.

  The two agree over the extended reals when every entry, weight and bias is finite and every segment id names one of the
  64 graphs (outside that range the reference's own scatter and gather index out of range): the one-hot products pick the
  tables' rows, the residual "table minus itself" terms vanish because the tables are finite, and the statistics agree.
-/
import proofs.«412429_j58076547777199_3_alg».proof.Defs
import proofs.«412429_j58076547777199_3_alg».proof.Proof.Gen.Kernel
import proofs.«412429_j58076547777199_3_alg».proof.Proof.Gen.KernelIdeal
import proofs.«412429_j58076547777199_3_alg».proof.Proof.Gen.ReferenceIdeal
import proofs.«412429_j58076547777199_3_alg».proof.Proof.Gen.Pre_finite_inputs
import proofs.«412429_j58076547777199_3_alg».proof.Proof.Gen.ReferenceIdeal.Run
import proofs.«412429_j58076547777199_3_alg».proof.Proof.Gen.ReferenceIdeal.Read
import proofs.«412429_j58076547777199_3_alg».proof.Proof.K.Run
import proofs.«412429_j58076547777199_3_alg».proof.Proof.KI.Run
import proofs.«412429_j58076547777199_3_alg».proof.Proof.KI.KernelValue
import proofs.«412429_j58076547777199_3_alg».proof.Proof.RefValue
import proofs.«412429_j58076547777199_3_alg».proof.Proof.Bridge
import proofs.«412429_j58076547777199_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level program runs to the end and leaves its arguments as they were. -/
theorem frame_p : Cert.frame_Kernel := fun m ρ _ => Cert.Kernel.Hand.frame m ρ

/-- So does its reading over the extended reals. -/
theorem frame_pi : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal.Hand in
/-- Both programs end with the same result array: entry (n, j) of the kernel's is `Spec.kfinal` of the arguments, of the
    reference's `Spec.rout` of the same arguments, and under the precondition these agree. -/
theorem algebraic : Cert.algebraic_KernelIdeal_ReferenceIdeal := by
  intro m ρ m' ρ' hpre hagree
  refine ⟨fun c => W5 m c (Proc.devRef .tc Cert.KernelIdeal.main_v70), ?_, ?_⟩
  · exact (θ_run Cert.KernelIdeal.defs _ _).mono (fun r h c =>
      ⟨h c _ (mem_uc Cert.KernelIdeal.main_v70 (by decide)),
       (h c _ (mem_uc Cert.KernelIdeal.main_arg0 (by decide))).trans (W5_main_arg0 m c),
       (h c _ (mem_uc Cert.KernelIdeal.main_arg1 (by decide))).trans (W5_main_arg1 m c),
       (h c _ (mem_uc Cert.KernelIdeal.main_arg2 (by decide))).trans (W5_main_arg2 m c),
       (h c _ (mem_uc Cert.KernelIdeal.main_arg3 (by decide))).trans (W5_main_arg3 m c)⟩) (run_main m ρ)
  · refine (θ_run Cert.ReferenceIdeal.defs _ _).mono (fun r h c => ⟨(h c).1.trans ?_, (h c).2⟩)
      (Cert.ReferenceIdeal.Value.run (F := Ideal) m' ρ')
    obtain ⟨hx, hw, hb, hs⟩ := Cert.PreFacts.decode _ _ _ _ (hpre c)
    rw [Cert.ReferenceIdeal.Read.val_main_v136_eq, (hagree c).1, (hagree c).2.1, (hagree c).2.2.1, (hagree c).2.2.2]
    funext i
    obtain ⟨n, j, rfl⟩ : ∃ (n : Fin 200000) (j : Fin 480), i = ix2 n j := ⟨i 0, i 1, eq_ix2 i⟩
    refine (Cert.ReferenceIdeal.RefValue.ref_result _ _ _ _ n j).trans ?_
    refine Eq.trans ?_ (kernel_value m c n j).symm
    exact (Cert.Spec.bridge _ _ _ _ (fun n j => hx (ix2 n j)) (fun k => hw (ix1 k)) (fun k => hb (ix1 k)) (fun n => hs (ix1 n)) n j).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
